-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S1600000x64 : Shape := ⟨2, ![1600000, 64]⟩
abbrev S100x64 : Shape := ⟨2, ![100, 64]⟩
abbrev S65x64 : Shape := ⟨2, ![65, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S_ : Shape := ⟨0, ![]⟩
abbrev S1x1600000 : Shape := ⟨2, ![1, 1600000]⟩
abbrev S1600000 : Shape := ⟨1, ![1600000]⟩

class Facts : Prop where
  bcast_S_S1600000x64 : S_.BroadcastsInDim S1600000x64 (![] : Fin 0 → Fin S1600000x64.rank)
  reducesTo_S1600000x64_S_d0_1 : S1600000x64.ReducesTo [0, 1] S_
  h_S_ : 0 < S_.numel
  bcast_S_S100000 : S_.BroadcastsInDim S100000 (![] : Fin 0 → Fin S100000.rank)
  reducesTo_S100000_S_d0 : S100000.ReducesTo [0] S_
  bcast_S_S100x64 : S_.BroadcastsInDim S100x64 (![] : Fin 0 → Fin S100x64.rank)
  reducesTo_S100x64_S_d0_1 : S100x64.ReducesTo [0, 1] S_
  bcast_S_S65x64 : S_.BroadcastsInDim S65x64 (![] : Fin 0 → Fin S65x64.rank)
  reducesTo_S65x64_S_d0_1 : S65x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_arg1 : IVec S2x1600000 32) (main_v67 : IVec S_ 1) : IVec S_ 1 :=
  let main_v68 : IVec S1x1600000 32 := (extractStridedSlice S1x1600000 ![0, 0] · slices_S2x1600000_S1x1600000_0_0) main_arg1
  let main_v69 : IVec S1600000 32 := shapeCast S1600000 main_v68 shapeCasts_S1x1600000_S1600000
  let main_c_26 : IVec S_ 32 := constantI S_ 32 100000#32
  let main_v70 : IVec S1600000 32 := broadcastInDim S1600000 ![] bcast_S_S1600000 main_c_26
  let main_v71 : IVec S1600000 1 := cmpi .slt main_v69 main_v70
  let main_c_27 : IVec S_ 1 := constantI S_ 1 1#1
  let main_v72 : IVec S_ 1 := (fun x v => Host.reduce IntOp.andi x v reducesTo_S1600000_S_d0 h_S_) main_v71 main_c_27
  let main_v73 : IVec S_ 1 := andi main_v67 main_v72
  main_v73

def fn_part3 {F : FTy → Type} [FloatOps F] (main_arg0 : IVec S100000 32) (main_arg1 : IVec S2x1600000 32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_c_20 : IVec S_ 32 := constantI S_ 32 0#32
  let main_v54 : IVec S100000 32 := broadcastInDim S100000 ![] bcast_S_S100000 main_c_20
  let main_v55 : IVec S100000 1 := cmpi .sge main_arg0 main_v54
  let main_c_21 : IVec S_ 1 := constantI S_ 1 1#1
  let main_v56 : IVec S_ 1 := (fun x v => Host.reduce IntOp.andi x v reducesTo_S100000_S_d0 h_S_) main_v55 main_c_21
  let main_v57 : IVec S_ 1 := andi main_v53 main_v56
  let main_c_22 : IVec S_ 32 := constantI S_ 32 100#32
  let main_v58 : IVec S100000 32 := broadcastInDim S100000 ![] bcast_S_S100000 main_c_22
  let main_v59 : IVec S100000 1 := cmpi .slt main_arg0 main_v58
  let main_c_23 : IVec S_ 1 := constantI S_ 1 1#1
  let main_v60 : IVec S_ 1 := (fun x v => Host.reduce IntOp.andi x v reducesTo_S100000_S_d0 h_S_) main_v59 main_c_23
  let main_v61 : IVec S_ 1 := andi main_v57 main_v60
  let main_v62 : IVec S1x1600000 32 := (extractStridedSlice S1x1600000 ![0, 0] · slices_S2x1600000_S1x1600000_0_0) main_arg1
  let main_v63 : IVec S1600000 32 := shapeCast S1600000 main_v62 shapeCasts_S1x1600000_S1600000
  let main_c_24 : IVec S_ 32 := constantI S_ 32 0#32
  let main_v64 : IVec S1600000 32 := broadcastInDim S1600000 ![] bcast_S_S1600000 main_c_24
  let main_v65 : IVec S1600000 1 := cmpi .sge main_v63 main_v64
  let main_c_25 : IVec S_ 1 := constantI S_ 1 1#1
  let main_v66 : IVec S_ 1 := (fun x v => Host.reduce IntOp.andi x v reducesTo_S1600000_S_d0 h_S_) main_v65 main_c_25
  let main_v67 : IVec S_ 1 := andi main_v61 main_v66
  fn_part4 (F := F) main_arg1 main_v67

def fn_part2 {F : FTy → Type} [FloatOps F] (main_arg0 : IVec S100000 32) (main_arg1 : IVec S2x1600000 32) (main_arg9 : FVec F S3x64x64 .f32) (main_arg10 : FVec F S3x64 .f32) (main_arg11 : FVec F S3x64x64 .f32) (main_arg12 : FVec F S3x64 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64x64 .f32 := Host.absf main_arg11
  let main_cst_16 : FVec F S_ .f32 := constant S_ .f32 0x7F800000#32
  let main_v45 : FVec F S3x64x64 .f32 := broadcastInDim S3x64x64 ![] bcast_S_S3x64x64 main_cst_16
  let main_v46 : IVec S3x64x64 1 := cmpf .olt main_v44 main_v45
  let main_c_17 : IVec S_ 1 := constantI S_ 1 1#1
  let main_v47 : IVec S_ 1 := (fun x v => Host.reduce IntOp.andi x v reducesTo_S3x64x64_S_d0_1_2 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg0 main_arg1 main_v48 main_v49 main_v50

def fn_part1 {F : FTy → Type} [FloatOps F] (main_arg0 : IVec S100000 32) (main_arg1 : IVec S2x1600000 32) (main_arg6 : FVec F S64 .f32) (main_arg7 : FVec F S64x64 .f32) (main_arg8 : FVec F S64 .f32) (main_arg9 : FVec F S3x64x64 .f32) (main_arg10 : FVec F S3x64 .f32) (main_arg11 : FVec F S3x64x64 .f32) (main_arg12 : FVec F S3x64 .f32) (main_v13 : IVec S_ 1) (main_v16 : IVec S65x64 1) : IVec S_ 1 :=
  let main_c_5 : IVec S_ 1 := constantI S_ 1 1#1
  let main_v17 : IVec S_ 1 := (fun x v => Host.reduce IntOp.andi x v reducesTo_S65x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg1 main_arg9 main_arg10 main_arg11 main_arg12 main_v33

def fn {F : FTy → Type} [FloatOps F] (main_arg0 : IVec S100000 32) (main_arg1 : IVec S2x1600000 32) (main_arg2 : FVec F S1600000x64 .f32) (main_arg3 : FVec F S100000 .f32) (main_arg4 : FVec F S100x64 .f32) (main_arg5 : FVec F S65x64 .f32) (main_arg6 : FVec F S64 .f32) (main_arg7 : FVec F S64x64 .f32) (main_arg8 : FVec F S64 .f32) (main_arg9 : FVec F S3x64x64 .f32) (main_arg10 : FVec F S3x64 .f32) (main_arg11 : FVec F S3x64x64 .f32) (main_arg12 : FVec F S3x64 .f32) : IVec S_ 1 :=
  let main_v0 : FVec F S1600000x64 .f32 := Host.absf main_arg2
  let main_cst : FVec F S_ .f32 := constant S_ .f32 0x7F800000#32
  let main_v1 : FVec F S1600000x64 .f32 := broadcastInDim S1600000x64 ![] bcast_S_S1600000x64 main_cst
  let main_v2 : IVec S1600000x64 1 := cmpf .olt main_v0 main_v1
  let main_c : IVec S_ 1 := constantI S_ 1 1#1
  let main_v3 : IVec S_ 1 := (fun x v => Host.reduce IntOp.andi x v reducesTo_S1600000x64_S_d0_1 h_S_) main_v2 main_c
  let main_v4 : FVec F S100000 .f32 := Host.absf main_arg3
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100x64 .f32 := Host.absf main_arg4
  let main_cst_2 : FVec F S_ .f32 := constant S_ .f32 0x7F800000#32
  let main_v10 : FVec F S100x64 .f32 := broadcastInDim S100x64 ![] bcast_S_S100x64 main_cst_2
  let main_v11 : IVec S100x64 1 := cmpf .olt main_v9 main_v10
  let main_c_3 : IVec S_ 1 := constantI S_ 1 1#1
  let main_v12 : IVec S_ 1 := (fun x v => Host.reduce IntOp.andi x v reducesTo_S100x64_S_d0_1 h_S_) main_v11 main_c_3
  let main_v13 : IVec S_ 1 := andi main_v8 main_v12
  let main_v14 : FVec F S65x64 .f32 := Host.absf main_arg5
  let main_cst_4 : FVec F S_ .f32 := constant S_ .f32 0x7F800000#32
  let main_v15 : FVec F S65x64 .f32 := broadcastInDim S65x64 ![] bcast_S_S65x64 main_cst_4
  let main_v16 : IVec S65x64 1 := cmpf .olt main_v14 main_v15
  fn_part1 (F := F) main_arg0 main_arg1 main_arg6 main_arg7 main_arg8 main_arg9 main_arg10 main_arg11 main_arg12 main_v13 main_v16
-- ==== Kernel.lean ====
abbrev S100000 : Shape := ⟨1, ![100000]⟩
abbrev S2x1600000 : Shape := ⟨2, ![2, 1600000]⟩
abbrev S1600000x64 : Shape := ⟨2, ![1600000, 64]⟩
abbrev S100x64 : Shape := ⟨2, ![100, 64]⟩
abbrev S65x64 : Shape := ⟨2, ![65, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x64 : Shape := ⟨2, ![100000, 64]⟩
abbrev S100000x65 : Shape := ⟨2, ![100000, 65]⟩
abbrev S20000x65 : Shape := ⟨2, ![20000, 65]⟩
abbrev S20000x64 : Shape := ⟨2, ![20000, 64]⟩
abbrev S1x64 : Shape := ⟨2, ![1, 64]⟩
abbrev S1600000x1 : Shape := ⟨2, ![1600000, 1]⟩
abbrev S1x64x64 : Shape := ⟨3, ![1, 64, 64]⟩

abbrev nBuf : Space → Nat
  | .hbm => 154
  | .vmem => 56
  | .smem => 0
  | _ => 0

abbrev hbmTy0_0 (i : Nat) : BufTy := match i % 128 with
  | 0 => ⟨S100000, .i32⟩
  | 1 => ⟨S2x1600000, .i32⟩
  | 2 => ⟨S1600000x64, .f32⟩
  | 3 => ⟨S100000, .f32⟩
  | 4 => ⟨S100x64, .f32⟩
  | 5 => ⟨S65x64, .f32⟩
  | 6 => ⟨S64, .f32⟩
  | 7 => ⟨S64x64, .f32⟩
  | 8 => ⟨S64, .f32⟩
  | 9 => ⟨S3x64x64, .f32⟩
  | 10 => ⟨S3x64, .f32⟩
  | 11 => ⟨S3x64x64, .f32⟩
  | 12 => ⟨S3x64, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S1, .i32⟩
  | 26 => ⟨S_, .i32⟩
  | 27 => ⟨S100000x1, .i32⟩
  | 28 => ⟨S100000x1, .i1⟩
  | 29 => ⟨S1x1, .i32⟩
  | 30 => ⟨S100000x1, .i32⟩
  | 31 => ⟨S100000x1, .i1⟩
  | 32 => ⟨S100000x1, .i1⟩
  | 33 => ⟨S_, .i1⟩
  | 34 => ⟨S100000, .i1⟩
  | 35 => ⟨S100000x64, .f32⟩
  | 36 => ⟨S100000x64, .i1⟩
  | 37 => ⟨S_, .f32⟩
  | 38 => ⟨S100000x64, .f32⟩
  | 39 => ⟨S100000x64, .f32⟩
  | 40 => ⟨S100000x1, .f32⟩
  | 41 => ⟨S100000x65, .f32⟩
  | 42 => ⟨S100000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1, .i32⟩
  | 52 => ⟨S_, .i32⟩
  | 53 => ⟨S1600000x1, .i32⟩
  | 54 => ⟨S1600000x1, .i1⟩
  | 55 => ⟨S1x1, .i32⟩
  | 56 => ⟨S1600000x1, .i32⟩
  | 57 => ⟨S1600000x1, .i1⟩
  | 58 => ⟨S1600000x1, .i1⟩
  | 59 => ⟨S_, .i1⟩
  | 60 => ⟨S1600000, .i1⟩
  | 61 => ⟨S1600000x64, .f32⟩
  | 62 => ⟨S1600000x64, .i1⟩
  | 63 => ⟨S_, .f32⟩
  | 64 => ⟨S1600000x64, .f32⟩
  | 65 => ⟨S1600000x64, .f32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S1x64x64, .f32⟩
  | 72 => ⟨S64x64, .f32⟩
  | 73 => ⟨S1x64, .f32⟩
  | 74 => ⟨S64, .f32⟩
  | 75 => ⟨S1x64x64, .f32⟩
  | 76 => ⟨S64x64, .f32⟩
  | 77 => ⟨S1x64, .f32⟩
  | 78 => ⟨S64, .f32⟩
  | 79 => ⟨S100000x64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1, .i32⟩
  | 89 => ⟨S_, .i32⟩
  | 90 => ⟨S1600000x1, .i32⟩
  | 91 => ⟨S1600000x1, .i1⟩
  | 92 => ⟨S1x1, .i32⟩
  | 93 => ⟨S1600000x1, .i32⟩
  | 94 => ⟨S1600000x1, .i1⟩
  | 95 => ⟨S1600000x1, .i1⟩
  | 96 => ⟨S_, .i1⟩
  | 97 => ⟨S1600000, .i1⟩
  | 98 => ⟨S1600000x64, .f32⟩
  | 99 => ⟨S1600000x64, .i1⟩
  | 100 => ⟨S_, .f32⟩
  | 101 => ⟨S1600000x64, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S1x64x64, .f32⟩
  | 109 => ⟨S64x64, .f32⟩
  | 110 => ⟨S1x64, .f32⟩
  | 111 => ⟨S64, .f32⟩
  | 112 => ⟨S1x64x64, .f32⟩
  | 113 => ⟨S64x64, .f32⟩
  | 114 => ⟨S1x64, .f32⟩
  | 115 => ⟨S64, .f32⟩
  | 116 => ⟨S100000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1, .i32⟩
  | 126 => ⟨S_, .i32⟩
  | 127 => ⟨S1600000x1, .i32⟩
  | _ => ⟨S100000, .i32⟩

abbrev hbmTy0_1 (i : Nat) : BufTy := match i % 128 with
  | 0 => ⟨S1600000x1, .i1⟩
  | 1 => ⟨S1x1, .i32⟩
  | 2 => ⟨S1600000x1, .i32⟩
  | 3 => ⟨S1600000x1, .i1⟩
  | 4 => ⟨S1600000x1, .i1⟩
  | 5 => ⟨S_, .i1⟩
  | 6 => ⟨S1600000, .i1⟩
  | 7 => ⟨S1600000x64, .f32⟩
  | 8 => ⟨S1600000x64, .i1⟩
  | 9 => ⟨S_, .f32⟩
  | 10 => ⟨S1600000x64, .f32⟩
  | 11 => ⟨S1600000x64, .f32⟩
  | 12 => ⟨S1600000x64, .f32⟩
  | 13 => ⟨S_, .f32⟩
  | 14 => ⟨S100000x64, .f32⟩
  | 15 => ⟨S1600000x1, .i32⟩
  | 16 => ⟨S100000x64, .f32⟩
  | 17 => ⟨S1x64x64, .f32⟩
  | 18 => ⟨S64x64, .f32⟩
  | 19 => ⟨S1x64, .f32⟩
  | 20 => ⟨S64, .f32⟩
  | 21 => ⟨S1x64x64, .f32⟩
  | 22 => ⟨S64x64, .f32⟩
  | 23 => ⟨S1x64, .f32⟩
  | 24 => ⟨S64, .f32⟩
  | 25 => ⟨S100000x64, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S20000x65, .f32⟩
  | .local _ .vmem, ⟨1, _⟩ => ⟨S20000x65, .f32⟩
  | .local _ .vmem, ⟨2, _⟩ => ⟨S65x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S20000x64, .f32⟩
  | .local _ .vmem, ⟨7, _⟩ => ⟨S20000x64, .f32⟩
  | .local _ .vmem, ⟨8, _⟩ => ⟨S20000x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S20000x64, .f32⟩
  | .local _ .vmem, ⟨13, _⟩ => ⟨S20000x64, .f32⟩
  | .local _ .vmem, ⟨14, _⟩ => ⟨S20000x64, .f32⟩
  | .local _ .vmem, ⟨15, _⟩ => ⟨S20000x64, .f32⟩
  | .local _ .vmem, ⟨16, _⟩ => ⟨S20000x64, .f32⟩
  | .local _ .vmem, ⟨17, _⟩ => ⟨S20000x64, .f32⟩
  | .local _ .vmem, ⟨18, _⟩ => ⟨S64x64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S20000x64, .f32⟩
  | .local _ .vmem, ⟨23, _⟩ => ⟨S20000x64, .f32⟩
  | .local _ .vmem, ⟨24, _⟩ => ⟨S20000x64, .f32⟩
  | .local _ .vmem, ⟨25, _⟩ => ⟨S20000x64, .f32⟩
  | .local _ .vmem, ⟨26, _⟩ => ⟨S20000x64, .f32⟩
  | .local _ .vmem, ⟨27, _⟩ => ⟨S20000x64, .f32⟩
  | .local _ .vmem, ⟨28, _⟩ => ⟨S20000x64, .f32⟩
  | .local _ .vmem, ⟨29, _⟩ => ⟨S20000x64, .f32⟩
  | .local _ .vmem, ⟨30, _⟩ => ⟨S20000x64, .f32⟩
  | .local _ .vmem, ⟨31, _⟩ => ⟨S20000x64, .f32⟩
  | .local _ .vmem, ⟨32, _⟩ => ⟨S20000x64, .f32⟩
  | .local _ .vmem, ⟨33, _⟩ => ⟨S20000x64, .f32⟩
  | .local _ .vmem, ⟨34, _⟩ => ⟨S64x64, .f32⟩
  | .local _ .vmem, ⟨35, _⟩ => ⟨S64, .f32⟩
  | .local _ .vmem, ⟨36, _⟩ => ⟨S64x64, .f32⟩
  | .local _ .vmem, ⟨37, _⟩ => ⟨S64, .f32⟩
  | .local _ .vmem, ⟨38, _⟩ => ⟨S20000x64, .f32⟩
  | .local _ .vmem, ⟨39, _⟩ => ⟨S20000x64, .f32⟩
  | .local _ .vmem, ⟨40, _⟩ => ⟨S20000x64, .f32⟩
  | .local _ .vmem, ⟨41, _⟩ => ⟨S20000x64, .f32⟩
  | .local _ .vmem, ⟨42, _⟩ => ⟨S20000x64, .f32⟩
  | .local _ .vmem, ⟨43, _⟩ => ⟨S20000x64, .f32⟩
  | .local _ .vmem, ⟨44, _⟩ => ⟨S20000x64, .f32⟩
  | .local _ .vmem, ⟨45, _⟩ => ⟨S20000x64, .f32⟩
  | .local _ .vmem, ⟨46, _⟩ => ⟨S20000x64, .f32⟩
  | .local _ .vmem, ⟨47, _⟩ => ⟨S20000x64, .f32⟩
  | .local _ .vmem, ⟨48, _⟩ => ⟨S20000x64, .f32⟩
  | .local _ .vmem, ⟨49, _⟩ => ⟨S20000x64, .f32⟩
  | .local _ .vmem, ⟨50, _⟩ => ⟨S64x64, .f32⟩
  | .local _ .vmem, ⟨51, _⟩ => ⟨S64, .f32⟩
  | .local _ .vmem, ⟨52, _⟩ => ⟨S64x64, .f32⟩
  | .local _ .vmem, ⟨53, _⟩ => ⟨S64, .f32⟩
  | .local _ .vmem, ⟨54, _⟩ => ⟨S20000x64, .f32⟩
  | .local _ .vmem, ⟨55, _⟩ => ⟨S20000x64, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v8 : Ref sig .tc := ⟨.hbm, 65, rfl⟩
abbrev main_v9 : Ref sig .tc := ⟨.hbm, 66, rfl⟩
abbrev main_cst : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v22 : Ref sig .tc := ⟨.hbm, 102, rfl⟩
abbrev main_v23 : Ref sig .tc := ⟨.hbm, 103, rfl⟩
abbrev main_cst_0 : Ref sig .tc := ⟨.hbm, 104, rfl⟩
abbrev main_v24 : Ref sig .tc := ⟨.hbm, 105, rfl⟩
abbrev main_v25 : Ref sig .tc := ⟨.hbm, 106, rfl⟩
abbrev main_v26 : Ref sig .tc := ⟨.hbm, 107, rfl⟩
abbrev main_v27 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_call3_c : Ref sig .tc := ⟨.hbm, 117, rfl⟩
abbrev main_call3_v0 : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_c_1 : Ref sig .tc := ⟨.hbm, 125, rfl⟩
abbrev main_call3_c_2 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_c_3 : Ref sig .tc := ⟨.hbm, 133, rfl⟩
abbrev main_call3_v12 : Ref sig .tc := ⟨.hbm, 134, rfl⟩
abbrev main_call3_v13 : Ref sig .tc := ⟨.hbm, 135, rfl⟩
abbrev main_call3_v14 : Ref sig .tc := ⟨.hbm, 136, rfl⟩
abbrev main_call3_cst : Ref sig .tc := ⟨.hbm, 137, rfl⟩
abbrev main_call3_v15 : Ref sig .tc := ⟨.hbm, 138, rfl⟩
abbrev main_v36 : Ref sig .tc := ⟨.hbm, 139, rfl⟩
abbrev main_v37 : Ref sig .tc := ⟨.hbm, 140, rfl⟩
abbrev main_cst_1 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_v49 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg6_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg6_0 : Ref sig .tc := ⟨.vmem, 54, rfl⟩
abbrev cc6_stg6_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem6_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem3_0 : DmaSem sig := 51
abbrev cc6_sem4_0 : DmaSem sig := 52
abbrev cc6_sem5_0 : DmaSem sig := 53
abbrev cc6_sem6_0 : DmaSem sig := 54
abbrev cc6_sem6_1 : DmaSem sig := 55

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S65x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S20000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S20000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S20000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S20000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S20000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![80], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S20000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S20000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S20000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S20000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S20000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x64_0 : S100000.BroadcastsInDim S100000x64 (![0] : Fin 1 → Fin S100000x64.rank)
  bcast_S_S100000x64 : S_.BroadcastsInDim S100000x64 (![] : Fin 0 → Fin S100000x64.rank)
  concatenates_S100000x64_S100000x1_S100000x65_d1 : Shape.Concatenates [S100000x64, S100000x1] S100000x65 1
  inb_S20000x65_S20000x65_0_0 : ∀ a, (![0, 0] : Fin 2 → Nat) a + S20000x65.size a ≤ S20000x65.size a
  h_S20000x65 : 0 < S20000x65.numel
  shapeCasts_S20000x65_S20000x65 : S20000x65.ShapeCasts S20000x65
  inb_S65x64_S65x64_0_0 : ∀ a, (![0, 0] : Fin 2 → Nat) a + S65x64.size a ≤ S65x64.size a
  h_S65x64 : 0 < S65x64.numel
  inb_S64_S64_0 : ∀ a, (![0] : Fin 1 → Nat) a + S64.size a ≤ S64.size a
  h_S64 : 0 < S64.numel
  inb_S64x64_S64x64_0_0 : ∀ a, (![0, 0] : Fin 2 → Nat) a + S64x64.size a ≤ S64x64.size a
  h_S64x64 : 0 < S64x64.numel
  shapeCasts_S64_S1x64 : S64.ShapeCasts S1x64
  broadcasts_S1x64_S20000x64 : S1x64.Broadcasts S20000x64
  inb_S20000x64_S20000x64_0_0 : ∀ a, (![0, 0] : Fin 2 → Nat) a + S20000x64.size a ≤ S20000x64.size a
  h_S20000x64 : 0 < S20000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  shapeCasts_S20000x64_S20000x64 : S20000x64.ShapeCasts S20000x64
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64x64_S64x64 : S64x64.ShapeCasts S64x64
  shapeCasts_S64_S64 : S64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  gather_S100x64_S100000x1_S100000x64_1_0_n_n_0_1_164_wf : GatherDims.WF S100x64 S100000x1 S100000x64 [1] [0] [] [0] [] 1 ![1, 64]
  dot_S20000x65_S65x64_S20000x64_1_0_0_1_n_n_wf : DotDims.WF S20000x65 S65x64 S20000x64 [1] [0] [0] [1] [] []
  dot_S20000x64_S64x64_S20000x64_1_0_0_1_n_n_wf : DotDims.WF S20000x64 S64x64 S20000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x65.size a ≤ S100000x65.size a
  hwx0_0 : ∀ i : grid0.Coords, EltTy.bits .f32 = 32 ∨ (Rect.block (s := S100000x65) S20000x65.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S65x64.size a ≤ S65x64.size a
  hwx0_1 : ∀ i : grid0.Coords, EltTy.bits .f32 = 32 ∨ (Rect.block (s := S65x64) S65x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S20000x64.size a ≤ S100000x64.size a
  hwx0_5 : ∀ i : grid0.Coords, EltTy.bits .f32 = 32 ∨ (Rect.block (s := S100000x64) S20000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S1600000x64.size a
  hwx1_0 : ∀ i : grid1.Coords, EltTy.bits .f32 = 32 ∨ (Rect.block (s := S1600000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x64.size a ≤ S1600000x64.size a
  hwx1_1 : ∀ i : grid1.Coords, EltTy.bits .f32 = 32 ∨ (Rect.block (s := S1600000x64) S20000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S1600000x64.size a
  hwx1_2 : ∀ i : grid1.Coords, EltTy.bits .f32 = 32 ∨ (Rect.block (s := S1600000x64) S20000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S100000x64.size a
  hwx2_0 : ∀ i : grid2.Coords, EltTy.bits .f32 = 32 ∨ (Rect.block (s := S100000x64) S20000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x64.size a ≤ S100000x64.size a
  hwx2_1 : ∀ i : grid2.Coords, EltTy.bits .f32 = 32 ∨ (Rect.block (s := S100000x64) S20000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S20000x64.size a ≤ S100000x64.size a
  hwx2_6 : ∀ i : grid2.Coords, EltTy.bits .f32 = 32 ∨ (Rect.block (s := S100000x64) S20000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S1600000x64.size a
  hwx3_0 : ∀ i : grid3.Coords, EltTy.bits .f32 = 32 ∨ (Rect.block (s := S1600000x64) S20000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S20000x64.size a ≤ S1600000x64.size a
  hwx3_1 : ∀ i : grid3.Coords, EltTy.bits .f32 = 32 ∨ (Rect.block (s := S1600000x64) S20000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x64.size a ≤ S1600000x64.size a
  hwx3_2 : ∀ i : grid3.Coords, EltTy.bits .f32 = 32 ∨ (Rect.block (s := S1600000x64) S20000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x64.size a ≤ S100000x64.size a
  hwx4_0 : ∀ i : grid4.Coords, EltTy.bits .f32 = 32 ∨ (Rect.block (s := S100000x64) S20000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S20000x64.size a ≤ S100000x64.size a
  hwx4_1 : ∀ i : grid4.Coords, EltTy.bits .f32 = 32 ∨ (Rect.block (s := S100000x64) S20000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64.size a ≤ S64.size a
  hwx4_5 : ∀ i : grid4.Coords, EltTy.bits .f32 = 32 ∨ (Rect.block (s := S64) S64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S20000x64.size a ≤ S100000x64.size a
  hwx4_6 : ∀ i : grid4.Coords, EltTy.bits .f32 = 32 ∨ (Rect.block (s := S100000x64) S20000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x64.size a ≤ S1600000x64.size a
  hwx5_0 : ∀ i : grid5.Coords, EltTy.bits .f32 = 32 ∨ (Rect.block (s := S1600000x64) S20000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S20000x64.size a ≤ S1600000x64.size a
  hwx5_1 : ∀ i : grid5.Coords, EltTy.bits .f32 = 32 ∨ (Rect.block (s := S1600000x64) S20000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20000x64.size a ≤ S1600000x64.size a
  hwx5_2 : ∀ i : grid5.Coords, EltTy.bits .f32 = 32 ∨ (Rect.block (s := S1600000x64) S20000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S20000x64.size a ≤ S100000x64.size a
  hwx6_0 : ∀ i : grid6.Coords, EltTy.bits .f32 = 32 ∨ (Rect.block (s := S100000x64) S20000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S20000x64.size a ≤ S100000x64.size a
  hwx6_1 : ∀ i : grid6.Coords, EltTy.bits .f32 = 32 ∨ (Rect.block (s := S100000x64) S20000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64.size a ≤ S64.size a
  hwx6_3 : ∀ i : grid6.Coords, EltTy.bits .f32 = 32 ∨ (Rect.block (s := S64) S64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64.size a ≤ S64.size a
  hwx6_5 : ∀ i : grid6.Coords, EltTy.bits .f32 = 32 ∨ (Rect.block (s := S64) S64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S20000x64.size a ≤ S100000x64.size a
  hwx6_6 : ∀ i : grid6.Coords, EltTy.bits .f32 = 32 ∨ (Rect.block (s := S100000x64) S20000x64.size (cc6_transform_6 i) (hinb6_6 i)).WholeWords (EltTy.packing .f32)

variable [Facts₀]

def gather_S100x64_S100000x1_S100000x64_1_0_n_n_0_1_164 : GatherDims S100x64 S100000x1 S100000x64 where
  offsetDims := [1]
  collapsedSliceDims := [0]
  operandBatchingDims := []
  startIndicesBatchingDims := []
  startIndexMap := [0]
  indexVectorDim := 1
  sliceSizes := ![1, 64]
  wf := gather_S100x64_S100000x1_S100000x64_1_0_n_n_0_1_164_wf
def dot_S20000x65_S65x64_S20000x64_1_0_0_1_n_n : DotDims S20000x65 S65x64 S20000x64 where
  lhsContracting := [1]
  rhsContracting := [0]
  lhsNonContracting := [0]
  rhsNonContracting := [1]
  lhsBatch := []
  rhsBatch := []
  wf := dot_S20000x65_S65x64_S20000x64_1_0_0_1_n_n_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v6) S20000x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S65x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S20000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S20000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S20000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v21) S20000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v22) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S20000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S20000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v26) S20000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S20000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v28) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v30) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v32) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v34) S64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v35) S20000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v36) S20000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg2) S20000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v37) S20000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v40) S20000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v35) S20000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v42) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v44) S64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v46) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v48) S64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v49) S20000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S100000 : Shape := ⟨1, ![100000]⟩
abbrev S2x1600000 : Shape := ⟨2, ![2, 1600000]⟩
abbrev S1600000x64 : Shape := ⟨2, ![1600000, 64]⟩
abbrev S100x64 : Shape := ⟨2, ![100, 64]⟩
abbrev S65x64 : Shape := ⟨2, ![65, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x64 : Shape := ⟨2, ![100000, 64]⟩
abbrev S100000x65 : Shape := ⟨2, ![100000, 65]⟩
abbrev S1x64 : Shape := ⟨2, ![1, 64]⟩
abbrev S1600000x1 : Shape := ⟨2, ![1600000, 1]⟩
abbrev S1x64x64 : Shape := ⟨3, ![1, 64, 64]⟩

abbrev nBuf : Space → Nat
  | .hbm => 159
  | .vmem => 0
  | .smem => 0
  | _ => 0

abbrev hbmTy0_0 (i : Nat) : BufTy := match i % 128 with
  | 0 => ⟨S100000, .i32⟩
  | 1 => ⟨S2x1600000, .i32⟩
  | 2 => ⟨S1600000x64, .f32⟩
  | 3 => ⟨S100000, .f32⟩
  | 4 => ⟨S100x64, .f32⟩
  | 5 => ⟨S65x64, .f32⟩
  | 6 => ⟨S64, .f32⟩
  | 7 => ⟨S64x64, .f32⟩
  | 8 => ⟨S64, .f32⟩
  | 9 => ⟨S3x64x64, .f32⟩
  | 10 => ⟨S3x64, .f32⟩
  | 11 => ⟨S3x64x64, .f32⟩
  | 12 => ⟨S3x64, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x64, .f32⟩
  | 26 => ⟨S100000x1, .f32⟩
  | 27 => ⟨S100000x65, .f32⟩
  | 28 => ⟨S100000x64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x64, .f32⟩
  | 48 => ⟨S1600000x64, .f32⟩
  | 49 => ⟨S_, .f32⟩
  | 50 => ⟨S1600000x64, .f32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S100000x64, .f32⟩
  | 57 => ⟨S1x64x64, .f32⟩
  | 58 => ⟨S64x64, .f32⟩
  | 59 => ⟨S100000x64, .f32⟩
  | 60 => ⟨S1x64, .f32⟩
  | 61 => ⟨S64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S1x64x64, .f32⟩
  | 69 => ⟨S64x64, .f32⟩
  | 70 => ⟨S100000x64, .f32⟩
  | 71 => ⟨S1x64, .f32⟩
  | 72 => ⟨S64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S1600000x64, .f32⟩
  | 90 => ⟨S_, .f32⟩
  | 91 => ⟨S1600000x64, .f32⟩
  | 92 => ⟨S1600000x64, .f32⟩
  | 93 => ⟨S_, .f32⟩
  | 94 => ⟨S100000x64, .f32⟩
  | 95 => ⟨S1600000x1, .i32⟩
  | 96 => ⟨S100000x64, .f32⟩
  | 97 => ⟨S100000x64, .f32⟩
  | 98 => ⟨S1x64x64, .f32⟩
  | 99 => ⟨S64x64, .f32⟩
  | 100 => ⟨S100000x64, .f32⟩
  | 101 => ⟨S1x64, .f32⟩
  | 102 => ⟨S64, .f32⟩
  | 103 => ⟨S1x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S1x64x64, .f32⟩
  | 110 => ⟨S64x64, .f32⟩
  | 111 => ⟨S100000x64, .f32⟩
  | 112 => ⟨S1x64, .f32⟩
  | 113 => ⟨S64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000, .i32⟩

abbrev hbmTy0_1 (i : Nat) : BufTy := match i % 128 with
  | 0 => ⟨S1600000x1, .i32⟩
  | 1 => ⟨S1600000x64, .f32⟩
  | 2 => ⟨S1600000x64, .f32⟩
  | 3 => ⟨S_, .f32⟩
  | 4 => ⟨S1600000x64, .f32⟩
  | 5 => ⟨S1600000x64, .f32⟩
  | 6 => ⟨S_, .f32⟩
  | 7 => ⟨S100000x64, .f32⟩
  | 8 => ⟨S1600000x1, .i32⟩
  | 9 => ⟨S100000x64, .f32⟩
  | 10 => ⟨S100000x64, .f32⟩
  | 11 => ⟨S1x64x64, .f32⟩
  | 12 => ⟨S64x64, .f32⟩
  | 13 => ⟨S100000x64, .f32⟩
  | 14 => ⟨S1x64, .f32⟩
  | 15 => ⟨S64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S1x64x64, .f32⟩
  | 23 => ⟨S64x64, .f32⟩
  | 24 => ⟨S100000x64, .f32⟩
  | 25 => ⟨S1x64, .f32⟩
  | 26 => ⟨S64, .f32⟩
  | 27 => ⟨S1x64, .f32⟩
  | 28 => ⟨S100000x64, .f32⟩
  | 29 => ⟨S100000x64, .f32⟩
  | 30 => ⟨S100000x64, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_1 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call1_cst : Ref sig .tc := ⟨.hbm, 49, rfl⟩
abbrev main_call1_v0 : Ref sig .tc := ⟨.hbm, 50, rfl⟩
abbrev main_v30 : Ref sig .tc := ⟨.hbm, 51, rfl⟩
abbrev main_cst : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call2_cst : Ref sig .tc := ⟨.hbm, 65, rfl⟩
abbrev main_call2_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call3_cst : Ref sig .tc := ⟨.hbm, 76, rfl⟩
abbrev main_call3_v0 : Ref sig .tc := ⟨.hbm, 77, rfl⟩
abbrev main_v52 : Ref sig .tc := ⟨.hbm, 78, rfl⟩
abbrev main_v53 : Ref sig .tc := ⟨.hbm, 79, rfl⟩
abbrev main_c_3 : Ref sig .tc := ⟨.hbm, 80, rfl⟩
abbrev main_v54 : Ref sig .tc := ⟨.hbm, 81, rfl⟩
abbrev main_v55 : Ref sig .tc := ⟨.hbm, 82, rfl⟩
abbrev main_c_4 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call4_cst : Ref sig .tc := ⟨.hbm, 90, rfl⟩
abbrev main_call4_v0 : Ref sig .tc := ⟨.hbm, 91, rfl⟩
abbrev main_v62 : Ref sig .tc := ⟨.hbm, 92, rfl⟩
abbrev main_cst_5 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_call5_cst : Ref sig .tc := ⟨.hbm, 106, rfl⟩
abbrev main_call5_v0 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call6_cst : Ref sig .tc := ⟨.hbm, 117, rfl⟩
abbrev main_call6_v0 : Ref sig .tc := ⟨.hbm, 118, rfl⟩
abbrev main_v84 : Ref sig .tc := ⟨.hbm, 119, rfl⟩
abbrev main_v85 : Ref sig .tc := ⟨.hbm, 120, rfl⟩
abbrev main_c_6 : Ref sig .tc := ⟨.hbm, 121, rfl⟩
abbrev main_v86 : Ref sig .tc := ⟨.hbm, 122, rfl⟩
abbrev main_v87 : Ref sig .tc := ⟨.hbm, 123, rfl⟩
abbrev main_c_7 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_call7_cst : Ref sig .tc := ⟨.hbm, 131, rfl⟩
abbrev main_call7_v0 : Ref sig .tc := ⟨.hbm, 132, rfl⟩
abbrev main_v94 : Ref sig .tc := ⟨.hbm, 133, rfl⟩
abbrev main_cst_8 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_call8_cst : Ref sig .tc := ⟨.hbm, 147, rfl⟩
abbrev main_call8_v0 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  concatenates_S100000x64_S100000x1_S100000x65_d1 : Shape.Concatenates [S100000x64, S100000x1] S100000x65 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  gather_S100x64_S100000x1_S100000x64_1_0_n_n_0_1_164_wf : GatherDims.WF S100x64 S100000x1 S100000x64 [1] [0] [] [0] [] 1 ![1, 64]
  dot_S100000x65_S65x64_S100000x64_1_0_0_1_n_n_wf : DotDims.WF S100000x65 S65x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100x64_S100000x1_S100000x64_1_0_n_n_0_1_164 : GatherDims S100x64 S100000x1 S100000x64 where
  offsetDims := [1]
  collapsedSliceDims := [0]
  operandBatchingDims := []
  startIndicesBatchingDims := []
  startIndexMap := [0]
  indexVectorDim := 1
  sliceSizes := ![1, 64]
  wf := gather_S100x64_S100000x1_S100000x64_1_0_n_n_0_1_164_wf
def dot_S100000x65_S65x64_S100000x64_1_0_0_1_n_n : DotDims S100000x65 S65x64 S100000x64 where
  lhsContracting := [1]
  rhsContracting := [0]
  lhsNonContracting := [0]
  rhsNonContracting := [1]
  lhsBatch := []
  rhsBatch := []
  wf := dot_S100000x65_S65x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The mathematics both programs compute, as functions on the extended reals, index by index.

  A node's hidden row goes through a two-layer perceptron: a dense layer, the positive part, a second dense
  layer. An edge's message is the positive part of the source node's row plus the edge's attributes. A layer's
  update adds a node's aggregated messages to its row, sends the sum through a perceptron (with the positive part
  taken once more except in the last layer), and adds the node's row again.

  Every function here acts on one ROW of its matrix arguments: entry (n, j) of a result depends only on row n of
  the row-indexed arguments. That is why a program that cuts the rows into tiles and one that works on the whole
  matrix compute the same array.
-/
import Idealize.ShloMosaic.PureOps.Ideal
import Idealize.ShloMosaic.Lib.ValueIdx

noncomputable section

namespace Cert.Spec

open Idealize.ShloMosaic Idealize.ShloMosaic.ValueIdx

/-- A matrix of extended reals with `r` rows and `c` columns. -/
abbrev Mat (r c : Nat) : Type := (⟨2, ![r, c]⟩ : Shape).Idx → EReal
/-- A vector of `n` extended reals. -/
abbrev Row (n : Nat) : Type := (⟨1, ![n]⟩ : Shape).Idx → EReal

/-- The positive part. -/
def relu (x : EReal) : EReal := max x 0

/-- One dense layer applied to a row `x` of length `K`: output `j` is `Σ_l x_l · w_{l j} + b_j`. -/
def dense {K : Nat} (x : Fin K → EReal) (w : Mat K 64) (b : Row 64) (j : Fin 64) : EReal :=
  (∑ l : Fin K, x l * w (ix2 l j)) + b (ix1 j)

/-- The two-layer perceptron on a row: dense, positive part, dense. -/
def mlpRow {K : Nat} (x : Fin K → EReal) (w1 : Mat K 64) (b1 : Row 64) (w2 : Mat 64 64) (b2 : Row 64)
    (j : Fin 64) : EReal :=
  dense (fun k => relu (dense x w1 b1 k)) w2 b2 j

/-- The perceptron applied to every row of an `N × K` matrix. -/
def mlp {N K : Nat} (x : Mat N K) (w1 : Mat K 64) (b1 : Row 64) (w2 : Mat 64 64) (b2 : Row 64) : Mat N 64 :=
  fun i => mlpRow (fun l => x (ix2 (i 0) l)) w1 b1 w2 b2 (i 1)

/-- An edge's message: the positive part of the gathered source row plus the edge's attributes, entry by entry. -/
def msg {E : Nat} (xj ea : Mat E 64) : Mat E 64 := fun i => relu (xj i + ea i)

/-- A layer's update of the node rows `h` from the aggregated messages `agg`: the perceptron of `agg + h`, its positive
    part when `r` is set, plus `h` again. -/
def comb (r : Bool) {N : Nat} (agg h : Mat N 64) (w1 : Mat 64 64) (b1 : Row 64) (w2 : Mat 64 64) (b2 : Row 64) :
    Mat N 64 :=
  fun i =>
    (bif r then relu (mlpRow (fun l => agg (ix2 (i 0) l) + h (ix2 (i 0) l)) w1 b1 w2 b2 (i 1))
      else mlpRow (fun l => agg (ix2 (i 0) l) + h (ix2 (i 0) l)) w1 b1 w2 b2 (i 1)) + h i

/-- One message-passing layer around two maps the programs share: `G` gathers each edge's source row out of the node
    rows, `A` adds the edges' messages into their destination nodes. -/
def layer (r : Bool) {N E : Nat} (G : Mat N 64 → Mat E 64) (A : Mat E 64 → Mat N 64) (h : Mat N 64) (ea : Mat E 64)
    (w1 : Mat 64 64) (b1 : Row 64) (w2 : Mat 64 64) (b2 : Row 64) : Mat N 64 :=
  comb r (A (msg (G h) ea)) h w1 b1 w2 b2

end Cert.Spec

end
-- ==== Proof.BodyLemmas.lean ====
/-
  Each kernel body's stored value, read at an index, as the specification's row function, at the extended reals.

  A body stores one array. At row `p` and column `j` the first body's array is the two-layer perceptron of row `p` of
  its input; a message body's array is the positive part of the sum of its two inputs, entry by entry; a combine
  body's array is the perceptron of row `p` of the sum of its first two inputs (its positive part in the first two
  layers), plus the second input's entry.

  The steps: a matrix product into the zero accumulator read at `(p, k)` is the sum over the shared axis of the
  products of the entries; a length-64 bias viewed as one row and repeated down the rows reads its entry `k`; the
  maximum with the zero splat is the positive part. A dense layer is a product plus a bias, a perceptron is two dense
  layers around a positive part, and each body is one of these over its operands, whose identity reshapes drop.
-/
import proofs.«405070_j12309376270692_1_alg».proof.Proof.Gen.KernelIdeal.Frame
import proofs.«405070_j12309376270692_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.TcCoe Idealize.SL.Sem Idealize.ShloMosaic.ValueIdx
open Cert.KernelIdeal Cert.KernelIdeal.Gen

/-! ## Whole-buffer rectangles at offset zero -/

theorem off2_zero : (![0, 0] : Fin 2 → Nat) = fun _ => 0 := funext fun a => by fin_cases a <;> rfl
theorem off1_zero : (![0] : Fin 1 → Nat) = fun _ => 0 := funext fun a => by fin_cases a; rfl

/-! ## The two matrix products at an index -/

theorem lhs65_0 (i : S20000x64.Idx) (q : dot_S20000x65_S65x64_S20000x64_1_0_0_1_n_n.contr.Idx) :
    (dot_S20000x65_S65x64_S20000x64_1_0_0_1_n_n.lhsIdx i q 0).val = (i 0).val := by
  unfold DotDims.lhsIdx
  rw [dif_neg (show ¬(0 : Fin S20000x65.rank) ∈ dot_S20000x65_S65x64_S20000x64_1_0_0_1_n_n.lhsBatch by decide), dif_pos (show (0 : Fin S20000x65.rank) ∈ dot_S20000x65_S65x64_S20000x64_1_0_0_1_n_n.lhsNonContracting by decide)]
  rfl
theorem lhs65_1 (i : S20000x64.Idx) (q : dot_S20000x65_S65x64_S20000x64_1_0_0_1_n_n.contr.Idx) :
    (dot_S20000x65_S65x64_S20000x64_1_0_0_1_n_n.lhsIdx i q 1).val = (q ⟨0, by decide⟩).val :=
  dot_S20000x65_S65x64_S20000x64_1_0_0_1_n_n.lhsIdx_val_of_single rfl i q
theorem rhs65_0 (i : S20000x64.Idx) (q : dot_S20000x65_S65x64_S20000x64_1_0_0_1_n_n.contr.Idx) :
    (dot_S20000x65_S65x64_S20000x64_1_0_0_1_n_n.rhsIdx i q 0).val = (q ⟨0, by decide⟩).val :=
  dot_S20000x65_S65x64_S20000x64_1_0_0_1_n_n.rhsIdx_val_of_single rfl i q
theorem rhs65_1 (i : S20000x64.Idx) (q : dot_S20000x65_S65x64_S20000x64_1_0_0_1_n_n.contr.Idx) :
    (dot_S20000x65_S65x64_S20000x64_1_0_0_1_n_n.rhsIdx i q 1).val = (i 1).val := by
  unfold DotDims.rhsIdx
  rw [dif_neg (show ¬(1 : Fin S65x64.rank) ∈ dot_S20000x65_S65x64_S20000x64_1_0_0_1_n_n.rhsBatch by decide), dif_pos (show (1 : Fin S65x64.rank) ∈ dot_S20000x65_S65x64_S20000x64_1_0_0_1_n_n.rhsNonContracting by decide)]
  rfl

/-- The product of a 20000x65 matrix with a 65x64 matrix into the zero accumulator, read at row `p`, column `k`:
    the sum over the shared axis of the products of the entries. -/
theorem matmul65_apply (a : FVec Ideal S20000x65 .f32) (w : FVec Ideal S65x64 .f32) (p : Fin 20000) (k : Fin 64) :
    matmul dot_S20000x65_S65x64_S20000x64_1_0_0_1_n_n none a w (constant (F := Ideal) S20000x64 .f32 0x00000000#32) (ix2 p k)
      = ∑ l : Fin 65, a (ix2 p l) * w (ix2 l k) := by
  simp only [matmul]
  rw [Ideal.matmul_constant_zero_apply, ← Equiv.sum_comp (ValueIdx.contrEquiv1 dot_S20000x65_S65x64_S20000x64_1_0_0_1_n_n 65 rfl rfl).symm]
  refine Finset.sum_congr rfl fun l _ => ?_
  have hk := ValueIdx.contrEquiv1_symm_val dot_S20000x65_S65x64_S20000x64_1_0_0_1_n_n 65 rfl rfl l
  have el : dot_S20000x65_S65x64_S20000x64_1_0_0_1_n_n.lhsIdx (ix2 p k) ((ValueIdx.contrEquiv1 dot_S20000x65_S65x64_S20000x64_1_0_0_1_n_n 65 rfl rfl).symm l) = ix2 p l := funext fun a => Fin.ext (by
    match a with
    | ⟨0, _⟩ => exact lhs65_0 _ _
    | ⟨1, _⟩ => exact (lhs65_1 _ _).trans hk)
  have er : dot_S20000x65_S65x64_S20000x64_1_0_0_1_n_n.rhsIdx (ix2 p k) ((ValueIdx.contrEquiv1 dot_S20000x65_S65x64_S20000x64_1_0_0_1_n_n 65 rfl rfl).symm l) = ix2 l k := funext fun a => Fin.ext (by
    match a with
    | ⟨0, _⟩ => exact (rhs65_0 _ _).trans hk
    | ⟨1, _⟩ => exact rhs65_1 _ _)
  rw [el, er]

theorem lhs64_0 (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
theorem lhs64_1 (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q
theorem rhs64_0 (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q
theorem rhs64_1 (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- The product of a 20000x64 matrix with a 64x64 matrix into the zero accumulator, read at row `p`, column `k`:
    the sum over the shared axis of the products of the entries. -/
theorem matmul64_apply (a : FVec Ideal S20000x64 .f32) (w : FVec Ideal S64x64 .f32) (p : Fin 20000) (k : Fin 64) :
    matmul dot_S20000x64_S64x64_S20000x64_1_0_0_1_n_n none a w (constant (F := Ideal) S20000x64 .f32 0x00000000#32) (ix2 p k)
      = ∑ l : Fin 64, a (ix2 p l) * w (ix2 l k) := by
  simp only [matmul]
  rw [Ideal.matmul_constant_zero_apply, ← Equiv.sum_comp (ValueIdx.contrEquiv1 dot_S20000x64_S64x64_S20000x64_1_0_0_1_n_n 64 rfl rfl).symm]
  refine Finset.sum_congr rfl fun l _ => ?_
  have hk := ValueIdx.contrEquiv1_symm_val dot_S20000x64_S64x64_S20000x64_1_0_0_1_n_n 64 rfl rfl l
  have el : dot_S20000x64_S64x64_S20000x64_1_0_0_1_n_n.lhsIdx (ix2 p k) ((ValueIdx.contrEquiv1 dot_S20000x64_S64x64_S20000x64_1_0_0_1_n_n 64 rfl rfl).symm l) = ix2 p l := funext fun a => Fin.ext (by
    match a with
    | ⟨0, _⟩ => exact lhs64_0 _ _
    | ⟨1, _⟩ => exact (lhs64_1 _ _).trans hk)
  have er : dot_S20000x64_S64x64_S20000x64_1_0_0_1_n_n.rhsIdx (ix2 p k) ((ValueIdx.contrEquiv1 dot_S20000x64_S64x64_S20000x64_1_0_0_1_n_n 64 rfl rfl).symm l) = ix2 l k := funext fun a => Fin.ext (by
    match a with
    | ⟨0, _⟩ => exact (rhs64_0 _ _).trans hk
    | ⟨1, _⟩ => exact rhs64_1 _ _)
  rw [el, er]

/-! ## The bias row, the dense layers and the positive part at an index -/

/-- A length-64 vector viewed as one row and repeated down 20000 rows reads, at `(p, j)`, its entry `j`. -/
theorem bias_apply (b : FVec Ideal S64 .f32) (p : Fin 20000) (j : Fin 64) :
    broadcastTo S20000x64 (shapeCast S1x64 b shapeCasts_S64_S1x64) broadcasts_S1x64_S20000x64 (ix2 p j) = b (ix1 j) := by
  rw [broadcastTo_1b_ab_apply, shapeCast_a_1a_apply]

/-- The maximum with the zero splat is the positive part, entry by entry. -/
theorem relu_apply (v : FVec Ideal S20000x64 .f32) (i : S20000x64.Idx) :
    maximumf v (broadcast S20000x64 (Scalar.ofBits (F := Ideal) .f32 0x00000000#32)) i = Cert.Spec.relu (v i) := by
  show max (v i) (Ideal.ofBits .f32 0x00000000#32) = max (v i) 0
  rw [Ideal.ofBits_zero_f32]

/-- A 65-to-64 dense layer of the kernel at `(p, k)` is the specification's dense layer of row `p`. -/
theorem dense65_apply (a : FVec Ideal S20000x65 .f32) (w : FVec Ideal S65x64 .f32) (b : FVec Ideal S64 .f32) (p : Fin 20000) (k : Fin 64) :
    addf (matmul dot_S20000x65_S65x64_S20000x64_1_0_0_1_n_n none a w (constant (F := Ideal) S20000x64 .f32 0x00000000#32))
        (broadcastTo S20000x64 (shapeCast S1x64 b shapeCasts_S64_S1x64) broadcasts_S1x64_S20000x64) (ix2 p k)
      = Cert.Spec.dense (fun l : Fin 65 => a (ix2 p l)) w b k := by
  show matmul dot_S20000x65_S65x64_S20000x64_1_0_0_1_n_n none a w (constant (F := Ideal) S20000x64 .f32 0x00000000#32) (ix2 p k)
      + broadcastTo S20000x64 (shapeCast S1x64 b shapeCasts_S64_S1x64) broadcasts_S1x64_S20000x64 (ix2 p k) = _
  rw [matmul65_apply, bias_apply]
  rfl

/-- A 64-to-64 dense layer of the kernel at `(p, k)` is the specification's dense layer of row `p`. -/
theorem dense64_apply (a : FVec Ideal S20000x64 .f32) (w : FVec Ideal S64x64 .f32) (b : FVec Ideal S64 .f32) (p : Fin 20000) (k : Fin 64) :
    addf (matmul dot_S20000x64_S64x64_S20000x64_1_0_0_1_n_n none a w (constant (F := Ideal) S20000x64 .f32 0x00000000#32))
        (broadcastTo S20000x64 (shapeCast S1x64 b shapeCasts_S64_S1x64) broadcasts_S1x64_S20000x64) (ix2 p k)
      = Cert.Spec.dense (fun l : Fin 64 => a (ix2 p l)) w b k := by
  show matmul dot_S20000x64_S64x64_S20000x64_1_0_0_1_n_n none a w (constant (F := Ideal) S20000x64 .f32 0x00000000#32) (ix2 p k)
      + broadcastTo S20000x64 (shapeCast S1x64 b shapeCasts_S64_S1x64) broadcasts_S1x64_S20000x64 (ix2 p k) = _
  rw [matmul64_apply, bias_apply]
  rfl

/-- The kernel's two-layer perceptron over 65 input columns at `(p, j)`. -/
theorem mlp65_apply (a : FVec Ideal S20000x65 .f32) (w1 : FVec Ideal S65x64 .f32) (b1 : FVec Ideal S64 .f32)
    (w2 : FVec Ideal S64x64 .f32) (b2 : FVec Ideal S64 .f32) (p : Fin 20000) (j : Fin 64) :
    addf (matmul dot_S20000x64_S64x64_S20000x64_1_0_0_1_n_n none
          (maximumf (addf (matmul dot_S20000x65_S65x64_S20000x64_1_0_0_1_n_n none a w1 (constant (F := Ideal) S20000x64 .f32 0x00000000#32))
              (broadcastTo S20000x64 (shapeCast S1x64 b1 shapeCasts_S64_S1x64) broadcasts_S1x64_S20000x64))
            (broadcast S20000x64 (Scalar.ofBits (F := Ideal) .f32 0x00000000#32)))
          w2 (constant (F := Ideal) S20000x64 .f32 0x00000000#32))
        (broadcastTo S20000x64 (shapeCast S1x64 b2 shapeCasts_S64_S1x64) broadcasts_S1x64_S20000x64) (ix2 p j)
      = Cert.Spec.mlpRow (fun l : Fin 65 => a (ix2 p l)) w1 b1 w2 b2 j := by
  rw [dense64_apply]
  show Cert.Spec.dense _ w2 b2 j = Cert.Spec.dense (fun k => Cert.Spec.relu (Cert.Spec.dense (fun l : Fin 65 => a (ix2 p l)) w1 b1 k)) w2 b2 j
  refine congrArg (fun f => Cert.Spec.dense f w2 b2 j) (funext fun k => ?_)
  rw [relu_apply, dense65_apply]

/-- The kernel's two-layer perceptron over 64 input columns at `(p, j)`. -/
theorem mlp64_apply (a : FVec Ideal S20000x64 .f32) (w1 : FVec Ideal S64x64 .f32) (b1 : FVec Ideal S64 .f32)
    (w2 : FVec Ideal S64x64 .f32) (b2 : FVec Ideal S64 .f32) (p : Fin 20000) (j : Fin 64) :
    addf (matmul dot_S20000x64_S64x64_S20000x64_1_0_0_1_n_n none
          (maximumf (addf (matmul dot_S20000x64_S64x64_S20000x64_1_0_0_1_n_n none a w1 (constant (F := Ideal) S20000x64 .f32 0x00000000#32))
              (broadcastTo S20000x64 (shapeCast S1x64 b1 shapeCasts_S64_S1x64) broadcasts_S1x64_S20000x64))
            (broadcast S20000x64 (Scalar.ofBits (F := Ideal) .f32 0x00000000#32)))
          w2 (constant (F := Ideal) S20000x64 .f32 0x00000000#32))
        (broadcastTo S20000x64 (shapeCast S1x64 b2 shapeCasts_S64_S1x64) broadcasts_S1x64_S20000x64) (ix2 p j)
      = Cert.Spec.mlpRow (fun l : Fin 64 => a (ix2 p l)) w1 b1 w2 b2 j := by
  rw [dense64_apply]
  show Cert.Spec.dense _ w2 b2 j = Cert.Spec.dense (fun k => Cert.Spec.relu (Cert.Spec.dense (fun l : Fin 64 => a (ix2 p l)) w1 b1 k)) w2 b2 j
  refine congrArg (fun f => Cert.Spec.dense f w2 b2 j) (funext fun k => ?_)
  rw [relu_apply, dense64_apply]

/-! ## The combine bodies over arbitrary operands -/

/-- Perceptron, positive part, plus the row again: the first two combine bodies. -/
theorem combRelu_apply (a h : FVec Ideal S20000x64 .f32) (w1 : FVec Ideal S64x64 .f32) (b1 : FVec Ideal S64 .f32)
    (w2 : FVec Ideal S64x64 .f32) (b2 : FVec Ideal S64 .f32) (p : Fin 20000) (j : Fin 64) :
    addf (maximumf (addf (matmul dot_S20000x64_S64x64_S20000x64_1_0_0_1_n_n none
          (maximumf (addf (matmul dot_S20000x64_S64x64_S20000x64_1_0_0_1_n_n none a w1 (constant (F := Ideal) S20000x64 .f32 0x00000000#32))
              (broadcastTo S20000x64 (shapeCast S1x64 b1 shapeCasts_S64_S1x64) broadcasts_S1x64_S20000x64))
            (broadcast S20000x64 (Scalar.ofBits (F := Ideal) .f32 0x00000000#32)))
          w2 (constant (F := Ideal) S20000x64 .f32 0x00000000#32))
        (broadcastTo S20000x64 (shapeCast S1x64 b2 shapeCasts_S64_S1x64) broadcasts_S1x64_S20000x64))
      (broadcast S20000x64 (Scalar.ofBits (F := Ideal) .f32 0x00000000#32))) h (ix2 p j)
      = Cert.Spec.relu (Cert.Spec.mlpRow (fun l : Fin 64 => a (ix2 p l)) w1 b1 w2 b2 j) + h (ix2 p j) := by
  refine congrArg (· + h (ix2 p j)) ?_
  rw [relu_apply, mlp64_apply]

/-- Perceptron plus the row again: the last combine body. -/
theorem combLast_apply (a h : FVec Ideal S20000x64 .f32) (w1 : FVec Ideal S64x64 .f32) (b1 : FVec Ideal S64 .f32)
    (w2 : FVec Ideal S64x64 .f32) (b2 : FVec Ideal S64 .f32) (p : Fin 20000) (j : Fin 64) :
    addf (addf (matmul dot_S20000x64_S64x64_S20000x64_1_0_0_1_n_n none
          (maximumf (addf (matmul dot_S20000x64_S64x64_S20000x64_1_0_0_1_n_n none a w1 (constant (F := Ideal) S20000x64 .f32 0x00000000#32))
              (broadcastTo S20000x64 (shapeCast S1x64 b1 shapeCasts_S64_S1x64) broadcasts_S1x64_S20000x64))
            (broadcast S20000x64 (Scalar.ofBits (F := Ideal) .f32 0x00000000#32)))
          w2 (constant (F := Ideal) S20000x64 .f32 0x00000000#32))
        (broadcastTo S20000x64 (shapeCast S1x64 b2 shapeCasts_S64_S1x64) broadcasts_S1x64_S20000x64)) h (ix2 p j)
      = Cert.Spec.mlpRow (fun l : Fin 64 => a (ix2 p l)) w1 b1 w2 b2 j + h (ix2 p j) := by
  refine congrArg (· + h (ix2 p j)) ?_
  rw [mlp64_apply]

/-! ## Each body's stored value at an index -/

theorem out0_5_apply (x0 : Vec Ideal S20000x65 .f32) (x1 : Vec Ideal S65x64 .f32) (x2 : Vec Ideal S64 .f32)
    (x3 : Vec Ideal S64x64 .f32) (x4 : Vec Ideal S64 .f32) (p : Fin 20000) (j : Fin 64) :
    out0_5 (F := Ideal) x0 x1 x2 x3 x4 (ix2 p j) = Cert.Spec.mlpRow (fun l : Fin 65 => x0 (ix2 p l)) x1 x2 x3 x4 j := by
  unfold out0_5
  rw [View.canon_unit_zero off2_zero]
  simp only [View.ld_unit_zero (S := S20000x65) off2_zero, View.ld_unit_zero (S := S65x64) off2_zero,
    View.ld_unit_zero (S := S64x64) off2_zero, View.ld_unit_zero (S := S64) off1_zero]
  unfold k0_pay1
  exact (mlp65_apply (shapeCast S20000x65 x0 shapeCasts_S20000x65_S20000x65) x1 x2 x3 x4 p j).trans (by rw [shapeCast_self])

theorem out1_2_apply (x0 x1 : Vec Ideal S20000x64 .f32) (y : S20000x64.Idx) :
    out1_2 (F := Ideal) x0 x1 y = Cert.Spec.relu (x0 y + x1 y) := by
  unfold out1_2
  rw [View.canon_unit_zero off2_zero]
  simp only [View.ld_unit_zero (S := S20000x64) off2_zero]
  unfold k1_pay1
  exact (relu_apply (addf (shapeCast S20000x64 x0 shapeCasts_S20000x64_S20000x64) x1) y).trans (by rw [shapeCast_self]; rfl)

theorem out2_6_apply (x0 x1 : Vec Ideal S20000x64 .f32) (x2 : Vec Ideal S64x64 .f32) (x3 : Vec Ideal S64 .f32)
    (x4 : Vec Ideal S64x64 .f32) (x5 : Vec Ideal S64 .f32) (p : Fin 20000) (j : Fin 64) :
    out2_6 (F := Ideal) x0 x1 x2 x3 x4 x5 (ix2 p j)
      = Cert.Spec.relu (Cert.Spec.mlpRow (fun l : Fin 64 => x0 (ix2 p l) + x1 (ix2 p l)) x2 x3 x4 x5 j) + x1 (ix2 p j) := by
  unfold out2_6
  rw [View.canon_unit_zero off2_zero]
  simp only [View.ld_unit_zero (S := S20000x64) off2_zero, View.ld_unit_zero (S := S64x64) off2_zero,
    View.ld_unit_zero (S := S64) off1_zero]
  unfold k2_pay1
  exact (combRelu_apply (addf (shapeCast S20000x64 x0 shapeCasts_S20000x64_S20000x64) (shapeCast S20000x64 x1 shapeCasts_S20000x64_S20000x64))
      (shapeCast S20000x64 x1 shapeCasts_S20000x64_S20000x64) (shapeCast S64x64 x2 shapeCasts_S64x64_S64x64)
      (shapeCast S64 x3 shapeCasts_S64_S64) (shapeCast S64x64 x4 shapeCasts_S64x64_S64x64)
      (shapeCast S64 x5 shapeCasts_S64_S64) p j).trans (by simp only [shapeCast_self]; rfl)

theorem out3_2_apply (x0 x1 : Vec Ideal S20000x64 .f32) (y : S20000x64.Idx) :
    out3_2 (F := Ideal) x0 x1 y = Cert.Spec.relu (x0 y + x1 y) := by
  unfold out3_2
  rw [View.canon_unit_zero off2_zero]
  simp only [View.ld_unit_zero (S := S20000x64) off2_zero]
  unfold k3_pay1
  exact (relu_apply (addf (shapeCast S20000x64 x0 shapeCasts_S20000x64_S20000x64) x1) y).trans (by rw [shapeCast_self]; rfl)

theorem out4_6_apply (x0 x1 : Vec Ideal S20000x64 .f32) (x2 : Vec Ideal S64x64 .f32) (x3 : Vec Ideal S64 .f32)
    (x4 : Vec Ideal S64x64 .f32) (x5 : Vec Ideal S64 .f32) (p : Fin 20000) (j : Fin 64) :
    out4_6 (F := Ideal) x0 x1 x2 x3 x4 x5 (ix2 p j)
      = Cert.Spec.relu (Cert.Spec.mlpRow (fun l : Fin 64 => x0 (ix2 p l) + x1 (ix2 p l)) x2 x3 x4 x5 j) + x1 (ix2 p j) := by
  unfold out4_6
  rw [View.canon_unit_zero off2_zero]
  simp only [View.ld_unit_zero (S := S20000x64) off2_zero, View.ld_unit_zero (S := S64x64) off2_zero,
    View.ld_unit_zero (S := S64) off1_zero]
  unfold k4_pay1
  exact (combRelu_apply (addf (shapeCast S20000x64 x0 shapeCasts_S20000x64_S20000x64) (shapeCast S20000x64 x1 shapeCasts_S20000x64_S20000x64))
      (shapeCast S20000x64 x1 shapeCasts_S20000x64_S20000x64) (shapeCast S64x64 x2 shapeCasts_S64x64_S64x64)
      (shapeCast S64 x3 shapeCasts_S64_S64) (shapeCast S64x64 x4 shapeCasts_S64x64_S64x64)
      (shapeCast S64 x5 shapeCasts_S64_S64) p j).trans (by simp only [shapeCast_self]; rfl)

theorem out5_2_apply (x0 x1 : Vec Ideal S20000x64 .f32) (y : S20000x64.Idx) :
    out5_2 (F := Ideal) x0 x1 y = Cert.Spec.relu (x0 y + x1 y) := by
  unfold out5_2
  rw [View.canon_unit_zero off2_zero]
  simp only [View.ld_unit_zero (S := S20000x64) off2_zero]
  unfold k5_pay1
  exact (relu_apply (addf (shapeCast S20000x64 x0 shapeCasts_S20000x64_S20000x64) x1) y).trans (by rw [shapeCast_self]; rfl)

theorem out6_6_apply (x0 x1 : Vec Ideal S20000x64 .f32) (x2 : Vec Ideal S64x64 .f32) (x3 : Vec Ideal S64 .f32)
    (x4 : Vec Ideal S64x64 .f32) (x5 : Vec Ideal S64 .f32) (p : Fin 20000) (j : Fin 64) :
    out6_6 (F := Ideal) x0 x1 x2 x3 x4 x5 (ix2 p j)
      = Cert.Spec.mlpRow (fun l : Fin 64 => x0 (ix2 p l) + x1 (ix2 p l)) x2 x3 x4 x5 j + x1 (ix2 p j) := by
  unfold out6_6
  rw [View.canon_unit_zero off2_zero]
  simp only [View.ld_unit_zero (S := S20000x64) off2_zero, View.ld_unit_zero (S := S64x64) off2_zero,
    View.ld_unit_zero (S := S64) off1_zero]
  unfold k6_pay1
  exact (combLast_apply (addf (shapeCast S20000x64 x0 shapeCasts_S20000x64_S20000x64) (shapeCast S20000x64 x1 shapeCasts_S20000x64_S20000x64))
      (shapeCast S20000x64 x1 shapeCasts_S20000x64_S20000x64) (shapeCast S64x64 x2 shapeCasts_S64x64_S64x64)
      (shapeCast S64 x3 shapeCasts_S64_S64) (shapeCast S64x64 x4 shapeCasts_S64x64_S64x64)
      (shapeCast S64 x5 shapeCasts_S64_S64) p j).trans (by simp only [shapeCast_self]; rfl)

end Cert.KernelIdeal.Body

end
-- ==== Proof.Final0.lean ====
/-
  The perceptron region writes the specification's perceptron of its input rows.

  The region cuts the 100000 rows into 5 blocks of 20000. At a grid point the body's result, entry by entry, is the
  two-layer perceptron of the input block's row; the input block's row is the array's row at the same place, the weights
  and biases are the whole arrays. So each point writes back its block of the perceptron of the whole input, the blocks
  cover every index, and the array after the region is that perceptron.
-/
import proofs.«405070_j12309376270692_1_alg».proof.Proof.Gen.KernelIdeal.Frame
import proofs.«405070_j12309376270692_1_alg».proof.Proof.Spec
import proofs.«405070_j12309376270692_1_alg».proof.Proof.BodyLemmas
import Idealize.ShloMosaic.Lib.ValueIdx
import Idealize.ShloMosaic.Lib.Pipeline.Value

noncomputable section

open Idealize.ShloMosaic Idealize.ShloMosaic.TcCoe Idealize.SL.Sem Idealize.ShloMosaic.ValueIdx
open Cert.KernelIdeal Cert.KernelIdeal.Gen

namespace Cert.KernelIdeal.Final

open Cert.KernelIdeal.Body

variable (V : (c : Dev nD) → (b : Ref sig .tc) → Buf (Elt Ideal) ((c : Thread nD τ).loc b))

/-! ## The perceptron region -/

/-- The printed index maps over the 5 grid points: the input's row block moves with the output's and its column
    block is the only one; the weights and biases are whole at every point; the output's block indices stay in range. -/
theorem idx_facts0 : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) ≤ 4
    ∧ win0_5.index t (1 : Fin 2) = 0 :=
  (by decide +kernel : ∀ t : Fin grid0.N, _)

/-- Every row block is some point's. -/
theorem idx_onto0 : ∀ q : Fin 5, ∃ t : Fin cfg0.N, win0_5.index t = ![q.val, 0] :=
  (by decide +kernel : ∀ q : Fin 5, ∃ t : Fin grid0.N, win0_5.index t = ![q.val, 0])

/-- One element of the body's result: the input block's row read off its array at the output index's row, the
    weights and biases being the whole arrays, and the output index's column the element's. -/
theorem point0 (x0 : Vec Ideal S20000x65 .f32) (x1 : Vec Ideal S65x64 .f32) (x2 : Vec Ideal S64 .f32)
    (x3 : Vec Ideal S64x64 .f32) (x4 : Vec Ideal S64 .f32)
    (a0 : Cert.Spec.Mat 100000 65) (a1 : Cert.Spec.Mat 65 64) (a2 : Cert.Spec.Row 64) (a3 : Cert.Spec.Mat 64 64)
    (a4 : Cert.Spec.Row 64) (i : S100000x64.Idx) (p : Fin 20000) (j : Fin 64)
    (h0 : ∀ l : Fin 65, x0 (ix2 p l) = a0 (ix2 (i 0) l)) (hj : i 1 = j)
    (h1 : x1 = a1) (h2 : x2 = a2) (h3 : x3 = a3) (h4 : x4 = a4) :
    out0_5 (F := Ideal) x0 x1 x2 x3 x4 (ix2 p j) = Cert.Spec.mlp a0 a1 a2 a3 a4 i := by
  subst h1 h2 h3 h4
  rw [out0_5_apply, show (fun l : Fin 65 => x0 (ix2 p l)) = fun l => a0 (ix2 (i 0) l) from funext h0]
  show _ = Cert.Spec.mlpRow (fun l => a0 (ix2 (i 0) l)) x1 x2 x3 x4 (i 1)
  rw [hj]

/-- What point `t` writes back is its block of the perceptron's array. -/
theorem flushed0_eq (c : Dev nD) (t : Fin cfg0.N) :
    (dat0 (F := Ideal) V c).flushed 5 t
      = ((cfg0.win 5).blk t).view.read (Elt Ideal)
          (Cert.Spec.mlp (V c main_v6) (V c main_arg5) (V c main_arg6) (V c main_arg7) (V c main_arg8)) := by
  show (cfg0.win 5).cut (grid0.coords t) ((dat0 V c).after 5 t) = _
  rw [after0_5]
  obtain ⟨e0, e1, e2, e3, e4, e5, e6, e7, e8, e9⟩ := idx_facts0 t
  funext y
  obtain ⟨p, j, rfl⟩ : ∃ (p : Fin 20000) (j : Fin 64), y = ix2 p j := ⟨y 0, y 1, eq_ix2 y⟩
  refine point0 (iblk0 V c 0 t) (iblk0 V c 1 t) (iblk0 V c 2 t) (iblk0 V c 3 t) (iblk0 V c 4 t)
    (V c main_v6) (V c main_arg5) (V c main_arg6) (V c main_arg7) (V c main_arg8)
    (((cfg0.win 5).blk t).view.emb (ix2 p j)) p j ?_ ?_ ?_ ?_ ?_ ?_
  · intro l
    show V c main_v6 (((cfg0.win 0).blk t).view.emb (ix2 p l))
      = V c main_v6 (ix2 ((((cfg0.win 5).blk t).view.emb (ix2 p j)) 0) l)
    refine congrArg _ (funext fun a => Fin.ext ?_)
    match a with
    | ⟨0, _⟩ => show win0_0.index t (0 : Fin 2) * 20000 + 1 * p.val = win0_5.index t (0 : Fin 2) * 20000 + 1 * p.val; omega
    | ⟨1, _⟩ => show win0_0.index t (1 : Fin 2) * 65 + 1 * l.val = l.val; omega
  · refine Fin.ext ?_
    show win0_5.index t (1 : Fin 2) * 64 + 1 * j.val = j.val; omega
  · funext z
    show V c main_arg5 (((cfg0.win 1).blk t).view.emb z) = V c main_arg5 z
    refine congrArg _ (funext fun a => Fin.ext ?_)
    match a with
    | ⟨0, _⟩ => show win0_1.index t (0 : Fin 2) * 65 + 1 * (z 0).val = (z 0).val; omega
    | ⟨1, _⟩ => show win0_1.index t (1 : Fin 2) * 64 + 1 * (z 1).val = (z 1).val; omega
  · funext z
    show V c main_arg6 (((cfg0.win 2).blk t).view.emb z) = V c main_arg6 z
    refine congrArg _ (funext fun a => Fin.ext ?_)
    match a with
    | ⟨0, _⟩ => show win0_2.index t (0 : Fin 1) * 64 + 1 * (z 0).val = (z 0).val; omega
  · funext z
    show V c main_arg7 (((cfg0.win 3).blk t).view.emb z) = V c main_arg7 z
    refine congrArg _ (funext fun a => Fin.ext ?_)
    match a with
    | ⟨0, _⟩ => show win0_3.index t (0 : Fin 2) * 64 + 1 * (z 0).val = (z 0).val; omega
    | ⟨1, _⟩ => show win0_3.index t (1 : Fin 2) * 64 + 1 * (z 1).val = (z 1).val; omega
  · funext z
    show V c main_arg8 (((cfg0.win 4).blk t).view.emb z) = V c main_arg8 z
    refine congrArg _ (funext fun a => Fin.ext ?_)
    match a with
    | ⟨0, _⟩ => show win0_4.index t (0 : Fin 1) * 64 + 1 * (z 0).val = (z 0).val; omega

/-- An index of the array is in point `t`'s block iff each coordinate is in the block's range on its axis. -/
theorem mem_blk0 (t : Fin cfg0.N) (i : S100000x64.Idx) :
    i ∈ ((cfg0.win 5).blk t).view.set ↔ ∀ a : Fin 2, win0_5.index t a * S20000x64.size a ≤ (i a).val ∧ (i a).val < win0_5.index t a * S20000x64.size a + S20000x64.size a := by
  show i ∈ ((View.whole main_v7).slice (win0_5.rect t)).set ↔ _
  rw [View.set_slice_whole, Rect.mem_set_unit]
  exact Iff.rfl

/-- Every index of the array is in some point's block: row `r` is in block `r / 20000`. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto0 ⟨(i 0).val / 20000, by omega⟩
  have q0 : win0_5.index t (0 : Fin 2) = (i 0).val / 20000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 20000 ≤ (i 0).val ∧ (i 0).val < win0_5.index t (0 : Fin 2) * 20000 + 20000; omega
  | ⟨1, _⟩ => show win0_5.index t (1 : Fin 2) * 64 ≤ (i 1).val ∧ (i 1).val < win0_5.index t (1 : Fin 2) * 64 + 64; omega

/-- The perceptron's array after the region: the two-layer perceptron of the input rows. -/
theorem final0 (c : Dev nD) :
    (dat0 (F := Ideal) V c).arrAt 5 cfg0.N
      = Cert.Spec.mlp (V c main_v6) (V c main_arg5) (V c main_arg6) (V c main_arg7) (V c main_arg8) :=
  (dat0 (F := Ideal) V c).arrAt_eq_of_cover 5 _ (fun t _ => flushed0_eq V c t) cover0

end Cert.KernelIdeal.Final

end
-- ==== Proof.TakeGather.lean ====
import proofs.«405070_j12309376270692_1_alg».proof.Proof.Gen.KernelIdeal.Frame
import proofs.«405070_j12309376270692_1_alg».proof.Proof.Gen.Pre_finite_inputs
import Idealize.ShloMosaic.Lib.StableHlo.Run
import Idealize.ShloMosaic.Lib.StableHlo.Predicate
import Idealize.ShloMosaic.Lib.ReduceAll
import Idealize.ShloMosaic.Lib.ValueIdx
noncomputable section
open Idealize.ShloMosaic Idealize.ShloMosaic.TcCoe Idealize.SL.Sem Idealize.ShloMosaic.ValueIdx
open Cert.KernelIdeal Cert.KernelIdeal.Gen

namespace Cert.KernelIdeal.Take

/-- The rank-0 shape has one index. -/
instance subsingleton_S_ : Subsingleton (⟨0, ![]⟩ : Shape).Idx := ⟨fun a b => funext fun d => d.elim0⟩

/-! ## Signed word compares read as integer inequalities -/

theorem cmpi_sge_iff (x c : BitVec 32) : IntOp.cmpi .sge x c = 1#1 ↔ c.toInt ≤ x.toInt := by
  unfold IntOp.cmpi
  simp only [StableHlo.Predicate.ofBool_eq_one_iff, BitVec.sle, decide_eq_true_eq]

theorem cmpi_sle_iff (x c : BitVec 32) : IntOp.cmpi .sle x c = 1#1 ↔ x.toInt ≤ c.toInt := by
  unfold IntOp.cmpi
  simp only [StableHlo.Predicate.ofBool_eq_one_iff, BitVec.sle, decide_eq_true_eq]

theorem cmpi_slt_iff (x c : BitVec 32) : IntOp.cmpi .slt x c = 1#1 ↔ x.toInt < c.toInt := by
  unfold IntOp.cmpi
  simp only [StableHlo.Predicate.ofBool_eq_one_iff, BitVec.slt, decide_eq_true_eq]

/-! ## The precondition decoded: every node type in [0, 100), every source index in [0, 100000) -/

open Cert.Pre_finite_inputs in
/-- The predicate being all ones says, of its last four conjuncts, that each entry of the first argument is in
    [0, 100) and each entry of row 0 of the second argument is in [0, 100000), as signed integers. -/
theorem pre_ranges {F : FTy → Type} [FloatOps F] [Cert.Pre_finite_inputs.Facts]
    (a0 : IVec S100000 32) (a1 : IVec S2x1600000 32) (a2 : FVec F S1600000x64 .f32) (a3 : FVec F S100000 .f32)
    (a4 : FVec F S100x64 .f32) (a5 : FVec F S65x64 .f32) (a6 : FVec F S64 .f32) (a7 : FVec F S64x64 .f32)
    (a8 : FVec F S64 .f32) (a9 : FVec F S3x64x64 .f32) (a10 : FVec F S3x64 .f32) (a11 : FVec F S3x64x64 .f32)
    (a12 : FVec F S3x64 .f32)
    (h : Cert.Pre_finite_inputs.fn (F := F) a0 a1 a2 a3 a4 a5 a6 a7 a8 a9 a10 a11 a12 = fun _ => 1#1) :
    (∀ i, 0 ≤ (a0 i).toInt ∧ (a0 i).toInt < 100) ∧
    (∀ i, 0 ≤ (shapeCast S1600000 (extractStridedSlice S1x1600000 ![0, 0] a1 Facts.slices_S2x1600000_S1x1600000_0_0) Facts.shapeCasts_S1x1600000_S1600000 i).toInt
        ∧ (shapeCast S1600000 (extractStridedSlice S1x1600000 ![0, 0] a1 Facts.slices_S2x1600000_S1x1600000_0_0) Facts.shapeCasts_S1x1600000_S1600000 i).toInt < 100000) := by
  have e := congrFun h ValueIdx.ix0
  dsimp only [Cert.Pre_finite_inputs.fn, Cert.Pre_finite_inputs.fn_part1, Cert.Pre_finite_inputs.fn_part2, Cert.Pre_finite_inputs.fn_part3, Cert.Pre_finite_inputs.fn_part4] at e
  simp only [andi, IntOp.andi_eq_one] at e
  obtain ⟨⟨⟨⟨-, h1⟩, h2⟩, h3⟩, h4⟩ := e
  refine ⟨fun i => ⟨?_, ?_⟩, fun i => ⟨?_, ?_⟩⟩
  · have := Host.reduce_andi_all _ _ _ _ _ h1 i
    simp only [cmpi, broadcastInDim, constantI, cmpi_sge_iff] at this
    simpa using this
  · have := Host.reduce_andi_all _ _ _ _ _ h2 i
    simp only [cmpi, broadcastInDim, constantI, cmpi_slt_iff] at this
    simpa using this
  · have := Host.reduce_andi_all _ _ _ _ _ h3 i
    simp only [cmpi, broadcastInDim, constantI, cmpi_sge_iff] at this
    simpa using this
  · have := Host.reduce_andi_all _ _ _ _ _ h4 i
    simp only [cmpi, broadcastInDim, constantI, cmpi_slt_iff] at this
    simpa using this

/-! ## Masks that are all ones -/

/-- A select under a mask that is one everywhere is its first branch. -/
theorem select_of_all_one {s : Shape} {α : Type} (m : IVec s 1) (hm : ∀ j, m j = 1#1) (a b : s.Idx → α) :
    select m a b = a := by
  funext j
  rw [select_apply, hm j, select_one]

/-- A left fold by `and` from 1 over ones is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduce by `and`, from ones, of an array of ones is ones. -/
theorem reduce_andi_ones {s t u : Shape} {axes : List (Fin s.rank)} (x : s.Idx → BitVec 1) (hx : ∀ i, x i = 1#1)
    (init : u.Idx → BitVec 1) (hinit : ∀ k, init k = 1#1) (h : s.ReducesTo axes t) (hu : 0 < u.numel) (j : t.Idx) :
    Host.reduce IntOp.andi x init h hu j = 1#1 := by
  rw [Host.reduce_eq_foldl, hinit]
  exact foldl_andi_ones x hx _

/-! ## The index wrap and the in-range mask of a take, under the range hypothesis -/

/-- The wrap of negative indices is the identity on indices that are not below the bound it compares with. -/
theorem wrap_id_of_le {s : Shape} (idx z y : IVec s 32) (hz : ∀ i, (z i).toInt ≤ (idx i).toInt) :
    select (cmpi .slt idx z) y idx = idx := by
  funext i
  rw [select_apply]
  unfold Scalar.select
  split
  · next hc =>
    have : (idx i).toInt < (z i).toInt := (cmpi_slt_iff _ _).1 hc
    have := hz i
    omega
  · rfl

/-- The in-range mask of a take, reduced and broadcast, selects the gathered rows when every index is in range. -/
theorem mask_select {s1 s t u : Shape} {α : Type} {axes : List (Fin s1.rank)} (I zlo zhi : IVec s1 32)
    (hI : ∀ j, (zlo j).toInt ≤ (I j).toInt ∧ (I j).toInt ≤ (zhi j).toInt)
    (init : IVec u 1) (hinit : ∀ k, init k = 1#1) (hr : s1.ReducesTo axes s) (hu : 0 < u.numel)
    (dims : Fin s.rank → Fin t.rank) (hb : s.BroadcastsInDim t dims) (a b : t.Idx → α) :
    select (broadcastInDim t dims hb (Host.reduce IntOp.andi (andi (cmpi .sge I zlo) (cmpi .sle I zhi)) init hr hu)) a b = a := by
  refine select_of_all_one _ (fun j => ?_) a b
  unfold broadcastInDim
  refine reduce_andi_ones _ (fun i => ?_) init hinit hr hu _
  show IntOp.andi (IntOp.cmpi .sge (I i) (zlo i)) (IntOp.cmpi .sle (I i) (zhi i)) = 1#1
  exact IntOp.andi_eq_one.2 ⟨(cmpi_sge_iff _ _).2 (hI i).1, (cmpi_sle_iff _ _).2 (hI i).2⟩

/-- A scalar constant, broadcast, reads the constant everywhere. -/
theorem bcast_const_apply {s0 s : Shape} {w : Nat} (dims : Fin s0.rank → Fin s.rank) (h : s0.BroadcastsInDim s dims) (c : BitVec w)
    (i : s.Idx) : broadcastInDim s dims h (constantI s0 w c) i = c := rfl

/-- THE WRAP, as printed: on indices that are not negative, `select (idx < 0) (idx + N) idx` is `idx`. -/
theorem wrap_id {s : Shape} (idx : IVec s 32) (N : BitVec 32) (hb : (⟨0, ![]⟩ : Shape).BroadcastsInDim s ![])
    (h : ∀ i, 0 ≤ (idx i).toInt) :
    select (cmpi .slt idx (broadcastInDim s ![] hb (constantI ⟨0, ![]⟩ 32 0#32)))
      (addi idx (broadcastInDim s ![] hb (constantI ⟨0, ![]⟩ 32 N))) idx = idx :=
  wrap_id_of_le idx _ _ (fun i => by rw [bcast_const_apply, BitVec.toInt_zero]; exact h i)

/-- THE MASK, as printed: on indices in [0, M] the mask `0 ≤ idx ∧ idx ≤ M`, reduced over the unit axis and broadcast over
    the row, selects the gathered rows. -/
theorem take_select {s s1 t c1 c11 : Shape} {α : Type} {axes : List (Fin s1.rank)} (idx : IVec s 32) (M : BitVec 32)
    (hidx : ∀ i, 0 ≤ (idx i).toInt ∧ (idx i).toInt ≤ M.toInt)
    (d0 : Fin s.rank → Fin s1.rank) (hb0 : s.BroadcastsInDim s1 d0)
    (hz : (⟨0, ![]⟩ : Shape).BroadcastsInDim s1 ![])
    (dA : Fin c1.rank → Fin c11.rank) (hA : c1.BroadcastsInDim c11 dA)
    (dB : Fin c11.rank → Fin s1.rank) (hB : c11.BroadcastsInDim s1 dB)
    (hr : s1.ReducesTo axes s) (hu : 0 < (⟨0, ![]⟩ : Shape).numel)
    (dims : Fin s.rank → Fin t.rank) (hb : s.BroadcastsInDim t dims) (a b : t.Idx → α) :
    select (broadcastInDim t dims hb (Host.reduce IntOp.andi
        (andi (cmpi .sge (broadcastInDim s1 d0 hb0 idx) (broadcastInDim s1 ![] hz (constantI ⟨0, ![]⟩ 32 0#32)))
              (cmpi .sle (broadcastInDim s1 d0 hb0 idx) (broadcastInDim s1 dB hB (broadcastInDim c11 dA hA (constantI c1 32 M)))))
        (constantI ⟨0, ![]⟩ 1 1#1) hr hu)) a b = a := by
  refine mask_select _ _ _ (fun j => ⟨?_, ?_⟩) _ (fun _ => rfl) hr hu dims hb a b
  · rw [bcast_const_apply, BitVec.toInt_zero]; exact (hidx _).1
  · show (idx _).toInt ≤ M.toInt
    exact (hidx _).2

/-! ## The four takes of the kernel, read back: under the range hypothesis each is the plain gather at the index -/

theorem toInt_99 : (99#32).toInt = 99 := by decide
theorem toInt_99999 : (99999#32).toInt = 99999 := by decide

set_option maxHeartbeats 4000000 in
/-- The take of the embedding table at the node types. -/
theorem take_z (W : Valuation τ sig (Elt Ideal))
    (hz : ∀ i, 0 ≤ (W (Proc.devRef .tc main_arg0) i).toInt ∧ (W (Proc.devRef .tc main_arg0) i).toInt < 100) :
    StableHlo.after (hostOps0_1 (F := Ideal)) W (Proc.devRef .tc main_v4)
      = Host.gather gather_S100x64_S100000x1_S100000x64_1_0_n_n_0_1_164 (W (Proc.devRef .tc main_arg4))
          (broadcastInDim S100000x1 ![0] bcast_S100000_S100000x1_0 (W (Proc.devRef .tc main_arg0))) := by
  show StableHlo.after hostOps0_1 W (Proc.devRef .tc main_v4) = _
  after_results_simp
  simp only [StableHlo.TRef.ofBuf, StableHlo.TRef.toBuf, cast_eq]
  rw [wrap_id (s := S100000) (W (Proc.devRef .tc main_arg0)) 100#32 bcast_S_S100000 (fun i => (hz i).1)]
  exact take_select (s := S100000) (W (Proc.devRef .tc main_arg0)) 99#32
    (fun i => ⟨(hz i).1, by rw [toInt_99]; exact Int.lt_add_one_iff.1 (hz i).2⟩) _ _ _ _ _ _ _ _ _ _ _ _ _

/-! ## Typed references: moving a value to a buffer's own type and back is the identity -/

theorem ofBuf_toBuf {sig : RefSig} {Val : EltTy → Type} {T : BufTy} (x : StableHlo.TRef sig T) (v : T.Contents Val) :
    x.ofBuf (x.toBuf v) = v := by
  obtain ⟨r, h, a, b⟩ := x
  subst h
  rfl

set_option maxHeartbeats 4000000 in
/-- The take of the first layer's node features at the edges' source indices. -/
theorem take_src1 (W : Valuation τ sig (Elt Ideal))
    (hs : ∀ i, 0 ≤ (W (Proc.devRef .tc main_v1) i).toInt ∧ (W (Proc.devRef .tc main_v1) i).toInt < 100000) :
    StableHlo.after (hostOps1 (F := Ideal)) W (Proc.devRef .tc main_v8)
      = Host.gather gather_S100000x64_S1600000x1_S1600000x64_1_0_n_n_0_1_164 (W (Proc.devRef .tc main_v7))
          (broadcastInDim S1600000x1 ![0] bcast_S1600000_S1600000x1_0 (W (Proc.devRef .tc main_v1))) := by
  show StableHlo.after hostOps1 W (Proc.devRef .tc main_v8) = _
  after_results_simp
  simp only [ofBuf_toBuf]
  have e1 : (StableHlo.TRef.of main_v1 : StableHlo.TRef sig ⟨S1600000, .i32⟩).ofBuf (W (Proc.devRef .tc main_v1)) = W (Proc.devRef .tc main_v1) := rfl
  have e2 : (StableHlo.TRef.of main_v7 : StableHlo.TRef sig ⟨S100000x64, .f32⟩).ofBuf (W (Proc.devRef .tc main_v7)) = W (Proc.devRef .tc main_v7) := rfl
  rw [e1, e2]
  rw [wrap_id (s := S1600000) (W (Proc.devRef .tc main_v1)) 100000#32 bcast_S_S1600000 (fun i => (hs i).1)]
  rw [take_select (s := S1600000) (W (Proc.devRef .tc main_v1)) 99999#32
    (fun i => ⟨(hs i).1, by have h2 := (hs i).2; rw [toInt_99999]; omega⟩)]
  rfl

set_option maxHeartbeats 4000000 in
/-- The take of the second layer's node features at the edges' source indices. -/
theorem take_src2 (W : Valuation τ sig (Elt Ideal))
    (hs : ∀ i, 0 ≤ (W (Proc.devRef .tc main_v1) i).toInt ∧ (W (Proc.devRef .tc main_v1) i).toInt < 100000) :
    StableHlo.after (hostOps3 (F := Ideal)) W (Proc.devRef .tc main_v22)
      = Host.gather gather_S100000x64_S1600000x1_S1600000x64_1_0_n_n_0_1_164 (W (Proc.devRef .tc main_v21))
          (broadcastInDim S1600000x1 ![0] bcast_S1600000_S1600000x1_0 (W (Proc.devRef .tc main_v1))) := by
  show StableHlo.after hostOps3 W (Proc.devRef .tc main_v22) = _
  after_results_simp
  simp only [ofBuf_toBuf]
  have e1 : (StableHlo.TRef.of main_v1 : StableHlo.TRef sig ⟨S1600000, .i32⟩).ofBuf (W (Proc.devRef .tc main_v1)) = W (Proc.devRef .tc main_v1) := rfl
  have e2 : (StableHlo.TRef.of main_v21 : StableHlo.TRef sig ⟨S100000x64, .f32⟩).ofBuf (W (Proc.devRef .tc main_v21)) = W (Proc.devRef .tc main_v21) := rfl
  rw [e1, e2]
  rw [wrap_id (s := S1600000) (W (Proc.devRef .tc main_v1)) 100000#32 bcast_S_S1600000 (fun i => (hs i).1)]
  rw [take_select (s := S1600000) (W (Proc.devRef .tc main_v1)) 99999#32
    (fun i => ⟨(hs i).1, by have h2 := (hs i).2; rw [toInt_99999]; omega⟩)]
  rfl

set_option maxHeartbeats 4000000 in
/-- The take of the third layer's node features at the edges' source indices. -/
theorem take_src3 (W : Valuation τ sig (Elt Ideal))
    (hs : ∀ i, 0 ≤ (W (Proc.devRef .tc main_v1) i).toInt ∧ (W (Proc.devRef .tc main_v1) i).toInt < 100000) :
    StableHlo.after (hostOps5 (F := Ideal)) W (Proc.devRef .tc main_v36)
      = Host.gather gather_S100000x64_S1600000x1_S1600000x64_1_0_n_n_0_1_164 (W (Proc.devRef .tc main_v35))
          (broadcastInDim S1600000x1 ![0] bcast_S1600000_S1600000x1_0 (W (Proc.devRef .tc main_v1))) := by
  show StableHlo.after hostOps5 W (Proc.devRef .tc main_v36) = _
  after_results_simp
  simp only [ofBuf_toBuf]
  have e1 : (StableHlo.TRef.of main_v1 : StableHlo.TRef sig ⟨S1600000, .i32⟩).ofBuf (W (Proc.devRef .tc main_v1)) = W (Proc.devRef .tc main_v1) := rfl
  have e2 : (StableHlo.TRef.of main_v35 : StableHlo.TRef sig ⟨S100000x64, .f32⟩).ofBuf (W (Proc.devRef .tc main_v35)) = W (Proc.devRef .tc main_v35) := rfl
  rw [e1, e2]
  rw [wrap_id (s := S1600000) (W (Proc.devRef .tc main_v1)) 100000#32 bcast_S_S1600000 (fun i => (hs i).1)]
  rw [take_select (s := S1600000) (W (Proc.devRef .tc main_v1)) 99999#32
    (fun i => ⟨(hs i).1, by have h2 := (hs i).2; rw [toInt_99999]; omega⟩)]
  rfl

end Cert.KernelIdeal.Take
-- ==== Proof.KernelBase.lean ====
/-
  The kernel's run, read as values: the buffer contents at the boundaries between @main's stretches of host
  operations and its seven kernel regions, from the launch to the first region's exit.

  The two index vectors (rows of the edge list), each layer's weights (slabs of the stacked arrays) and the edge
  attributes are computed or read once and never written again; an invariant says so and is carried across every
  later step. Under the index-range hypothesis the embedding lookup is the plain gather, so the first region's
  input is each node's embedding row with its time appended, and its output the perceptron of that.
-/
import proofs.«405070_j12309376270692_1_alg».proof.Proof.Gen.KernelIdeal.Frame
import proofs.«405070_j12309376270692_1_alg».proof.Proof.Spec
import proofs.«405070_j12309376270692_1_alg».proof.Proof.Final0
import proofs.«405070_j12309376270692_1_alg».proof.Proof.TakeGather
import Idealize.ShloMosaic.Lib.StableHlo.Run

noncomputable section

open Idealize.ShloMosaic Idealize.ShloMosaic.TcCoe Idealize.SL.Sem Idealize.ShloMosaic.StableHlo Idealize.ShloMosaic.ValueIdx
open Cert.KernelIdeal Cert.KernelIdeal.Gen

namespace Cert.KernelIdeal.KValue

open Cert.KernelIdeal.Final Cert.KernelIdeal.Take

variable (m : (ℓ : Loc nD τ sig) → Buf (Elt Ideal) ℓ) (ρ : Dev nD → PrngReg) (c : Dev nD)

/-! ## The index vectors, the weights and the node rows, as functions of the launch memory -/

/-- The edges' source nodes: row 0 of the edge list. -/
def srcIdx : (⟨S1600000, .i32⟩ : BufTy).Contents (Elt Ideal) :=
  shapeCast S1600000 (extractStridedSlice S1x1600000 ![0, 0] (m ((c : Thread nD τ).loc main_arg1)) slices_S2x1600000_S1x1600000_0_0) shapeCasts_S1x1600000_S1600000
/-- The edges' destination nodes: row 1 of the edge list. -/
def dstIdx : (⟨S1600000, .i32⟩ : BufTy).Contents (Elt Ideal) :=
  shapeCast S1600000 (extractStridedSlice S1x1600000 ![1, 0] (m ((c : Thread nD τ).loc main_arg1)) slices_S2x1600000_S1x1600000_1_0) shapeCasts_S1x1600000_S1600000

/-- Each edge's source row, gathered out of the node rows `h`. -/
def gatherSrc (h : Cert.Spec.Mat 100000 64) : Cert.Spec.Mat 1600000 64 :=
  Host.gather gather_S100000x64_S1600000x1_S1600000x64_1_0_n_n_0_1_164 h
    (broadcastInDim S1600000x1 ![0] bcast_S1600000_S1600000x1_0 (srcIdx m c))
/-- The edges' messages `u` added into their destination nodes, from zero. -/
def scatterDst (u : Cert.Spec.Mat 1600000 64) : Cert.Spec.Mat 100000 64 :=
  Host.scatterAdd (F := Ideal) scatter_S100000x64_S1600000x1_S1600000x64_1_0_0_1
    (broadcastInDim S100000x64 ![] bcast_S_S100000x64 (constant S_ .f32 0x00000000#32))
    (broadcastInDim S1600000x1 ![0] bcast_S1600000_S1600000x1_0 (dstIdx m c)) u

/-- Layer 1's weights and biases: slab 0 of the stacked arrays. -/
def convW1_0 : (⟨S64x64, .f32⟩ : BufTy).Contents (Elt Ideal) :=
  shapeCast S64x64 (extractStridedSlice S1x64x64 ![0, 0, 0] (m ((c : Thread nD τ).loc main_arg9)) slices_S3x64x64_S1x64x64_0_0_0) shapeCasts_S1x64x64_S64x64
def convB1_0 : (⟨S64, .f32⟩ : BufTy).Contents (Elt Ideal) :=
  shapeCast S64 (extractStridedSlice S1x64 ![0, 0] (m ((c : Thread nD τ).loc main_arg10)) slices_S3x64_S1x64_0_0) shapeCasts_S1x64_S64
def convW2_0 : (⟨S64x64, .f32⟩ : BufTy).Contents (Elt Ideal) :=
  shapeCast S64x64 (extractStridedSlice S1x64x64 ![0, 0, 0] (m ((c : Thread nD τ).loc main_arg11)) slices_S3x64x64_S1x64x64_0_0_0) shapeCasts_S1x64x64_S64x64
def convB2_0 : (⟨S64, .f32⟩ : BufTy).Contents (Elt Ideal) :=
  shapeCast S64 (extractStridedSlice S1x64 ![0, 0] (m ((c : Thread nD τ).loc main_arg12)) slices_S3x64_S1x64_0_0) shapeCasts_S1x64_S64

/-- Layer 2's weights and biases: slab 1 of the stacked arrays. -/
def convW1_1 : (⟨S64x64, .f32⟩ : BufTy).Contents (Elt Ideal) :=
  shapeCast S64x64 (extractStridedSlice S1x64x64 ![1, 0, 0] (m ((c : Thread nD τ).loc main_arg9)) slices_S3x64x64_S1x64x64_1_0_0) shapeCasts_S1x64x64_S64x64
def convB1_1 : (⟨S64, .f32⟩ : BufTy).Contents (Elt Ideal) :=
  shapeCast S64 (extractStridedSlice S1x64 ![1, 0] (m ((c : Thread nD τ).loc main_arg10)) slices_S3x64_S1x64_1_0) shapeCasts_S1x64_S64
def convW2_1 : (⟨S64x64, .f32⟩ : BufTy).Contents (Elt Ideal) :=
  shapeCast S64x64 (extractStridedSlice S1x64x64 ![1, 0, 0] (m ((c : Thread nD τ).loc main_arg11)) slices_S3x64x64_S1x64x64_1_0_0) shapeCasts_S1x64x64_S64x64
def convB2_1 : (⟨S64, .f32⟩ : BufTy).Contents (Elt Ideal) :=
  shapeCast S64 (extractStridedSlice S1x64 ![1, 0] (m ((c : Thread nD τ).loc main_arg12)) slices_S3x64_S1x64_1_0) shapeCasts_S1x64_S64

/-- Layer 3's weights and biases: slab 2 of the stacked arrays. -/
def convW1_2 : (⟨S64x64, .f32⟩ : BufTy).Contents (Elt Ideal) :=
  shapeCast S64x64 (extractStridedSlice S1x64x64 ![2, 0, 0] (m ((c : Thread nD τ).loc main_arg9)) slices_S3x64x64_S1x64x64_2_0_0) shapeCasts_S1x64x64_S64x64
def convB1_2 : (⟨S64, .f32⟩ : BufTy).Contents (Elt Ideal) :=
  shapeCast S64 (extractStridedSlice S1x64 ![2, 0] (m ((c : Thread nD τ).loc main_arg10)) slices_S3x64_S1x64_2_0) shapeCasts_S1x64_S64
def convW2_2 : (⟨S64x64, .f32⟩ : BufTy).Contents (Elt Ideal) :=
  shapeCast S64x64 (extractStridedSlice S1x64x64 ![2, 0, 0] (m ((c : Thread nD τ).loc main_arg11)) slices_S3x64x64_S1x64x64_2_0_0) shapeCasts_S1x64x64_S64x64
def convB2_2 : (⟨S64, .f32⟩ : BufTy).Contents (Elt Ideal) :=
  shapeCast S64 (extractStridedSlice S1x64 ![2, 0] (m ((c : Thread nD τ).loc main_arg12)) slices_S3x64_S1x64_2_0) shapeCasts_S1x64_S64

/-- Each node's embedding row with its time appended: the perceptron's input. -/
def nodeIn : (⟨S100000x65, .f32⟩ : BufTy).Contents (Elt Ideal) :=
  concatenate S100000x65 1
    [⟨S100000x64, Host.gather gather_S100x64_S100000x1_S100000x64_1_0_n_n_0_1_164 (m ((c : Thread nD τ).loc main_arg4))
        (broadcastInDim S100000x1 ![0] bcast_S100000_S100000x1_0 (m ((c : Thread nD τ).loc main_arg0)))⟩,
     ⟨S100000x1, broadcastInDim S100000x1 ![0] bcast_S100000_S100000x1_0 (m ((c : Thread nD τ).loc main_arg3))⟩]
    concatenates_S100000x64_S100000x1_S100000x65_d1

/-- The node rows before the first layer, and after each of the three layers. -/
def h0 : Cert.Spec.Mat 100000 64 :=
  Cert.Spec.mlp (nodeIn m c) (m ((c : Thread nD τ).loc main_arg5)) (m ((c : Thread nD τ).loc main_arg6)) (m ((c : Thread nD τ).loc main_arg7)) (m ((c : Thread nD τ).loc main_arg8))
def h1 : Cert.Spec.Mat 100000 64 :=
  Cert.Spec.layer true (gatherSrc m c) (scatterDst m c) (h0 m c) (m ((c : Thread nD τ).loc main_arg2)) (convW1_0 m c) (convB1_0 m c) (convW2_0 m c) (convB2_0 m c)
def h2 : Cert.Spec.Mat 100000 64 :=
  Cert.Spec.layer true (gatherSrc m c) (scatterDst m c) (h1 m c) (m ((c : Thread nD τ).loc main_arg2)) (convW1_1 m c) (convB1_1 m c) (convW2_1 m c) (convB2_1 m c)
def h3 : Cert.Spec.Mat 100000 64 :=
  Cert.Spec.layer false (gatherSrc m c) (scatterDst m c) (h2 m c) (m ((c : Thread nD τ).loc main_arg2)) (convW1_2 m c) (convB1_2 m c) (convW2_2 m c) (convB2_2 m c)

/-! ## What every stretch and region after the first finds unchanged -/

/-- In the buffer contents `W`: the two index vectors are the rows of the edge list, and the edge attributes and the
    stacked layer weights are as launched. -/
structure Inv (W : Valuation τ sig (Elt Ideal)) : Prop where
  src : W (Proc.devRef .tc main_v1) = srcIdx m c
  dst : W (Proc.devRef .tc main_v3) = dstIdx m c
  ea : W (Proc.devRef .tc main_arg2) = (m ((c : Thread nD τ).loc main_arg2))
  w1 : W (Proc.devRef .tc main_arg9) = (m ((c : Thread nD τ).loc main_arg9))
  b1 : W (Proc.devRef .tc main_arg10) = (m ((c : Thread nD τ).loc main_arg10))
  w2 : W (Proc.devRef .tc main_arg11) = (m ((c : Thread nD τ).loc main_arg11))
  b2 : W (Proc.devRef .tc main_arg12) = (m ((c : Thread nD τ).loc main_arg12))

/-- A step that writes none of those seven buffers keeps the invariant. -/
theorem Inv.of_keep {W W' : Valuation τ sig (Elt Ideal)} (h : Inv m c W)
    (hk : ∀ b ∈ [main_v1, main_v3, main_arg2, main_arg9, main_arg10, main_arg11, main_arg12], W' (Proc.devRef .tc b) = W (Proc.devRef .tc b)) : Inv m c W' :=
  ⟨(hk _ (by simp)).trans h.src, (hk _ (by simp)).trans h.dst, (hk _ (by simp)).trans h.ea, (hk _ (by simp)).trans h.w1,
   (hk _ (by simp)).trans h.b1, (hk _ (by simp)).trans h.w2, (hk _ (by simp)).trans h.b2⟩

/-! ## Up to the first region's exit -/

theorem inv1 : Inv m c (W1 m ρ c) := by
  refine ⟨?_, ?_, ?_, ?_, ?_, ?_, ?_⟩ <;>
    (show StableHlo.after hostOps0 (W0 m ρ c) _ = _; after_results <;> rfl)

theorem keep2 : ∀ b ∈ [main_v1, main_v3, main_arg2, main_arg9, main_arg10, main_arg11, main_arg12], W2 m ρ c (Proc.devRef .tc b) = W1 m ρ c (Proc.devRef .tc b) := fun b hb => by
  show StableHlo.after hostOps0_1 (W1 m ρ c) (Proc.devRef .tc b) = _
  fin_cases hb <;> after_results
theorem keep3 : ∀ b ∈ [main_v1, main_v3, main_arg2, main_arg9, main_arg10, main_arg11, main_arg12], W3 m ρ c (Proc.devRef .tc b) = W2 m ρ c (Proc.devRef .tc b) := fun b hb => by
  show StableHlo.after hostOps0_2 (W2 m ρ c) (Proc.devRef .tc b) = _
  fin_cases hb <;> after_results
theorem keep4 : ∀ b ∈ [main_v1, main_v3, main_arg2, main_arg9, main_arg10, main_arg11, main_arg12], W4 m ρ c (Proc.devRef .tc b) = W3 m ρ c (Proc.devRef .tc b) := fun b hb => by
  fin_cases hb <;> exact W4_of_ne m ρ c _ (by decide)

theorem inv4 : Inv m c (W4 m ρ c) :=
  (((inv1 m ρ c).of_keep m c (keep2 m ρ c)).of_keep m c (keep3 m ρ c)).of_keep m c (keep4 m ρ c)

/-- An argument of @main read before the first region is at its launch contents at that region's entry. -/
theorem W3_arg (b : Ref sig .tc) (hb : b ∈ [main_arg3, main_arg5, main_arg6, main_arg7, main_arg8]) :
    W3 m ρ c (Proc.devRef .tc b) = m ((c : Thread nD τ).loc b) := by
  have e3 : W3 m ρ c (Proc.devRef .tc b) = W2 m ρ c (Proc.devRef .tc b) := by
    show StableHlo.after hostOps0_2 (W2 m ρ c) (Proc.devRef .tc b) = _
    fin_cases hb <;> after_results
  have e2 : W2 m ρ c (Proc.devRef .tc b) = W1 m ρ c (Proc.devRef .tc b) := by
    show StableHlo.after hostOps0_1 (W1 m ρ c) (Proc.devRef .tc b) = _
    fin_cases hb <;> after_results
  have e1 : W1 m ρ c (Proc.devRef .tc b) = W0 m ρ c (Proc.devRef .tc b) := by
    show StableHlo.after hostOps0 (W0 m ρ c) (Proc.devRef .tc b) = _
    fin_cases hb <;> after_results
  exact e3.trans (e2.trans (e1.trans rfl))

/-- The perceptron's input, when the first region is entered. -/
theorem W3_nodeIn (hz : ∀ i, 0 ≤ ((m ((c : Thread nD τ).loc main_arg0)) i).toInt ∧ ((m ((c : Thread nD τ).loc main_arg0)) i).toInt < 100) :
    W3 m ρ c (Proc.devRef .tc main_v6) = nodeIn m c := by
  have a0 : W1 m ρ c (Proc.devRef .tc main_arg0) = (m ((c : Thread nD τ).loc main_arg0)) := by
    show StableHlo.after hostOps0 (W0 m ρ c) (Proc.devRef .tc main_arg0) = _
    after_results <;> rfl
  have a4 : W1 m ρ c (Proc.devRef .tc main_arg4) = (m ((c : Thread nD τ).loc main_arg4)) := by
    show StableHlo.after hostOps0 (W0 m ρ c) (Proc.devRef .tc main_arg4) = _
    after_results <;> rfl
  have e4 : W2 m ρ c (Proc.devRef .tc main_v4) = Host.gather gather_S100x64_S100000x1_S100000x64_1_0_n_n_0_1_164 (m ((c : Thread nD τ).loc main_arg4))
      (broadcastInDim S100000x1 ![0] bcast_S100000_S100000x1_0 (m ((c : Thread nD τ).loc main_arg0))) := by
    refine (take_z (W1 m ρ c) (by rw [a0]; exact hz)).trans ?_
    rw [a0, a4]
  have e3 : W2 m ρ c (Proc.devRef .tc main_arg3) = (m ((c : Thread nD τ).loc main_arg3)) := by
    have e2 : W2 m ρ c (Proc.devRef .tc main_arg3) = W1 m ρ c (Proc.devRef .tc main_arg3) := by
      show StableHlo.after hostOps0_1 (W1 m ρ c) (Proc.devRef .tc main_arg3) = _
      after_results
    have e1 : W1 m ρ c (Proc.devRef .tc main_arg3) = W0 m ρ c (Proc.devRef .tc main_arg3) := by
      show StableHlo.after hostOps0 (W0 m ρ c) (Proc.devRef .tc main_arg3) = _
      after_results
    exact e2.trans (e1.trans rfl)
  have e : W3 m ρ c (Proc.devRef .tc main_v6) = concatenate S100000x65 1
      [⟨S100000x64, W2 m ρ c (Proc.devRef .tc main_v4)⟩,
       ⟨S100000x1, broadcastInDim S100000x1 ![0] bcast_S100000_S100000x1_0 (W2 m ρ c (Proc.devRef .tc main_arg3))⟩]
      concatenates_S100000x64_S100000x1_S100000x65_d1 := by
    show StableHlo.after hostOps0_2 (W2 m ρ c) (Proc.devRef .tc main_v6) = _
    after_results
  rw [e, e4, e3]; rfl

/-- The initial node rows, at the first region's exit. -/
theorem W4_rows (hz : ∀ i, 0 ≤ ((m ((c : Thread nD τ).loc main_arg0)) i).toInt ∧ ((m ((c : Thread nD τ).loc main_arg0)) i).toInt < 100) :
    W4 m ρ c (Proc.devRef .tc main_v7) = h0 m c := by
  refine (W4_arr m ρ c 5).trans ((final0 (V3 m ρ) c).trans ?_)
  show Cert.Spec.mlp (W3 m ρ c (Proc.devRef .tc main_v6)) (W3 m ρ c (Proc.devRef .tc main_arg5)) (W3 m ρ c (Proc.devRef .tc main_arg6)) (W3 m ρ c (Proc.devRef .tc main_arg7)) (W3 m ρ c (Proc.devRef .tc main_arg8)) = _
  rw [W3_nodeIn m ρ c hz, W3_arg m ρ c main_arg5 (by simp), W3_arg m ρ c main_arg6 (by simp), W3_arg m ρ c main_arg7 (by simp), W3_arg m ρ c main_arg8 (by simp)]; rfl

end Cert.KernelIdeal.KValue

end
-- ==== Proof.Final1.lean ====
/-
  The first message region writes the specification's messages.

  The region cuts the 1600000 edge rows into 80 blocks of 20000. At a grid point the body's result, entry by entry, is
  the positive part of the gathered-rows block plus the edge-attributes block; both blocks sit at the output block's
  place in their arrays. So each point writes back its block of the message array, the blocks cover every index, and the
  array after the region is the positive part of the gathered rows plus the edge attributes.
-/
import proofs.«405070_j12309376270692_1_alg».proof.Proof.Gen.KernelIdeal.Frame
import proofs.«405070_j12309376270692_1_alg».proof.Proof.Spec
import proofs.«405070_j12309376270692_1_alg».proof.Proof.BodyLemmas
import Idealize.ShloMosaic.Lib.ValueIdx
import Idealize.ShloMosaic.Lib.Pipeline.Value

noncomputable section

open Idealize.ShloMosaic Idealize.ShloMosaic.TcCoe Idealize.SL.Sem Idealize.ShloMosaic.ValueIdx
open Cert.KernelIdeal Cert.KernelIdeal.Gen

namespace Cert.KernelIdeal.Final

open Cert.KernelIdeal.Body

variable (V : (c : Dev nD) → (b : Ref sig .tc) → Buf (Elt Ideal) ((c : Thread nD τ).loc b))

/-! ## The first message region -/

/-- The printed index maps over the 80 grid points: both inputs' row blocks move with the output's, and the
    output's block indices stay in range. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 79
    ∧ win1_2.index t (1 : Fin 2) = 0 :=
  (by decide +kernel : ∀ t : Fin grid1.N, _)

/-- Every row block is some point's. -/
theorem idx_onto1 : ∀ q : Fin 80, ∃ t : Fin cfg1.N, win1_2.index t = ![q.val, 0] :=
  (by decide +kernel : ∀ q : Fin 80, ∃ t : Fin grid1.N, win1_2.index t = ![q.val, 0])

/-- One element of the body's result, with each input block's element read off its array at the same place. -/
theorem point1 (x0 x1 : Vec Ideal S20000x64 .f32) (a0 a1 : Cert.Spec.Mat 1600000 64) (i : S1600000x64.Idx)
    (y : S20000x64.Idx) (h0 : x0 y = a0 i) (h1 : x1 y = a1 i) :
    out1_2 (F := Ideal) x0 x1 y = Cert.Spec.msg a0 a1 i := by
  rw [out1_2_apply, h0, h1]; rfl

/-- What point `t` writes back is its block of the message array. -/
theorem flushed1_eq (c : Dev nD) (t : Fin cfg1.N) :
    (dat1 (F := Ideal) V c).flushed 2 t
      = ((cfg1.win 2).blk t).view.read (Elt Ideal) (Cert.Spec.msg (V c main_v8) (V c main_arg2)) := by
  show (cfg1.win 2).cut (grid1.coords t) ((dat1 V c).after 2 t) = _
  rw [after1_2]
  obtain ⟨e0, e1, e2, e3, e4, e5⟩ := idx_facts1 t
  funext y
  refine point1 (iblk1 V c 0 t) (iblk1 V c 1 t) (V c main_v8) (V c main_arg2) (((cfg1.win 2).blk t).view.emb y) y ?_ ?_
  · show V c main_v8 (((cfg1.win 0).blk t).view.emb y) = V c main_v8 (((cfg1.win 2).blk t).view.emb y)
    refine congrArg _ (funext fun a => Fin.ext ?_)
    match a with
    | ⟨0, _⟩ => show win1_0.index t (0 : Fin 2) * 20000 + 1 * (y 0).val = win1_2.index t (0 : Fin 2) * 20000 + 1 * (y 0).val; omega
    | ⟨1, _⟩ => show win1_0.index t (1 : Fin 2) * 64 + 1 * (y 1).val = win1_2.index t (1 : Fin 2) * 64 + 1 * (y 1).val; omega
  · show V c main_arg2 (((cfg1.win 1).blk t).view.emb y) = V c main_arg2 (((cfg1.win 2).blk t).view.emb y)
    refine congrArg _ (funext fun a => Fin.ext ?_)
    match a with
    | ⟨0, _⟩ => show win1_1.index t (0 : Fin 2) * 20000 + 1 * (y 0).val = win1_2.index t (0 : Fin 2) * 20000 + 1 * (y 0).val; omega
    | ⟨1, _⟩ => show win1_1.index t (1 : Fin 2) * 64 + 1 * (y 1).val = win1_2.index t (1 : Fin 2) * 64 + 1 * (y 1).val; omega

/-- An index of the array is in point `t`'s block iff each coordinate is in the block's range on its axis. -/
theorem mem_blk1 (t : Fin cfg1.N) (i : S1600000x64.Idx) :
    i ∈ ((cfg1.win 2).blk t).view.set ↔ ∀ a : Fin 2, win1_2.index t a * S20000x64.size a ≤ (i a).val ∧ (i a).val < win1_2.index t a * S20000x64.size a + S20000x64.size a := by
  show i ∈ ((View.whole main_v9).slice (win1_2.rect t)).set ↔ _
  rw [View.set_slice_whole, Rect.mem_set_unit]
  exact Iff.rfl

/-- Every index of the array is in some point's block: row `r` is in block `r / 20000`. -/
theorem cover1 (i : S1600000x64.Idx) :
    ∃ t : Fin cfg1.N, (cfg1.win 2).flush t = true ∧ i ∈ ((cfg1.win 2).blk t).view.set := by
  have hi0 : (i 0).val < 1600000 := (i 0).isLt
  have hi1 : (i 1).val < 64 := (i 1).isLt
  obtain ⟨t, ht⟩ := idx_onto1 ⟨(i 0).val / 20000, by omega⟩
  have q0 : win1_2.index t (0 : Fin 2) = (i 0).val / 20000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 64 ≤ (i 1).val ∧ (i 1).val < win1_2.index t (1 : Fin 2) * 64 + 64; omega

/-- The message array after the region: relu of the gathered rows plus the edge attributes. -/
theorem final1 (c : Dev nD) :
    (dat1 (F := Ideal) V c).arrAt 2 cfg1.N = Cert.Spec.msg (V c main_v8) (V c main_arg2) :=
  (dat1 (F := Ideal) V c).arrAt_eq_of_cover 2 _ (fun t _ => flushed1_eq V c t) cover1

end Cert.KernelIdeal.Final

end
-- ==== Proof.Final2.lean ====
import proofs.«405070_j12309376270692_1_alg».proof.Proof.Gen.KernelIdeal.Frame
import proofs.«405070_j12309376270692_1_alg».proof.Proof.Spec
import proofs.«405070_j12309376270692_1_alg».proof.Proof.BodyLemmas
import Idealize.ShloMosaic.Lib.ValueIdx
import Idealize.ShloMosaic.Lib.Pipeline.Value

noncomputable section

open Idealize.ShloMosaic Idealize.ShloMosaic.TcCoe Idealize.SL.Sem Idealize.ShloMosaic.ValueIdx
open Cert.KernelIdeal Cert.KernelIdeal.Gen

namespace Cert.KernelIdeal.Final

variable (V : (c : Dev nD) → (b : Ref sig .tc) → Buf (Elt Ideal) ((c : Thread nD τ).loc b))

/-! ## The first combine region: its output array after all its grid points -/

/-- The printed index maps, decided once over the grid: the two row-tiled inputs and the output sit at row block `t`,
    column block 0; the two weight matrices and the two biases sit at block 0 at every point. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- One element of a combine block with the final positive part: if rows `p` of the two tiled input blocks are rows
    `r` of the arrays `agg` and `h`, the block's element `(p, j)` is the specification's element `(r, j)`. -/
theorem comb_relu_at2 (x0 x1 : Vec Ideal S20000x64 .f32) (w1 : Vec Ideal S64x64 .f32) (b1 : Vec Ideal S64 .f32)
    (w2 : Vec Ideal S64x64 .f32) (b2 : Vec Ideal S64 .f32) (agg h : Cert.Spec.Mat 100000 64)
    (p : Fin 20000) (j : Fin 64) (r : Fin 100000)
    (h0 : ∀ l : Fin 64, x0 (ix2 p l) = agg (ix2 r l)) (h1 : ∀ l : Fin 64, x1 (ix2 p l) = h (ix2 r l)) :
    out2_6 (F := Ideal) x0 x1 w1 b1 w2 b2 (ix2 p j) = Cert.Spec.comb true agg h w1 b1 w2 b2 (ix2 r j) := by
  rw [Body.out2_6_apply]
  have e : (fun l : Fin 64 => x0 (ix2 p l) + x1 (ix2 p l)) = fun l => agg (ix2 r l) + h (ix2 r l) :=
    funext fun l => by rw [h0, h1]
  rw [e, h1]
  rfl

/-- A row-tiled input block at point `t`: its element `(p, l)` is the array's element `(20000 t + p, l)`. -/
theorem tile2_0_apply (c : Dev nD) (t : Fin cfg2.N) (p : Fin 20000) (l : Fin 64) (r : Fin 100000)
    (hr : r.val = t.val * 20000 + p.val) :
    (iblk2 V c 0 t : Vec Ideal S20000x64 .f32) (ix2 p l) = (V c main_v12 : Cert.Spec.Mat 100000 64) (ix2 r l) := by
  obtain ⟨a00, a01, -⟩ := idx_facts2 t
  unfold iblk2
  rw [View.read_apply]
  show V c main_v12 _ = V c main_v12 _
  congr 1
  funext a
  apply Fin.ext
  match a with
  | ⟨0, _⟩ => show win2_0.index t (0 : Fin 2) * 20000 + 1 * p.val = r.val; rw [a00, hr]; omega
  | ⟨1, _⟩ => show win2_0.index t (1 : Fin 2) * 64 + 1 * l.val = l.val; rw [a01]; omega

theorem tile2_1_apply (c : Dev nD) (t : Fin cfg2.N) (p : Fin 20000) (l : Fin 64) (r : Fin 100000)
    (hr : r.val = t.val * 20000 + p.val) :
    (iblk2 V c 1 t : Vec Ideal S20000x64 .f32) (ix2 p l) = (V c main_v7 : Cert.Spec.Mat 100000 64) (ix2 r l) := by
  obtain ⟨-, -, a10, a11, -⟩ := idx_facts2 t
  unfold iblk2
  rw [View.read_apply]
  show V c main_v7 _ = V c main_v7 _
  congr 1
  funext a
  apply Fin.ext
  match a with
  | ⟨0, _⟩ => show win2_1.index t (0 : Fin 2) * 20000 + 1 * p.val = r.val; rw [a10, hr]; omega
  | ⟨1, _⟩ => show win2_1.index t (1 : Fin 2) * 64 + 1 * l.val = l.val; rw [a11]; omega

/-- The weight and bias windows hold their whole arrays at every point: block 0 of an array of one block. -/
theorem whole2_2 (c : Dev nD) (t : Fin cfg2.N) : (iblk2 V c 2 t : Vec Ideal S64x64 .f32) = V c main_v14 := by
  obtain ⟨-, -, -, -, a20, a21, -⟩ := idx_facts2 t
  funext y
  unfold iblk2
  rw [View.read_apply]
  show V c main_v14 _ = V c main_v14 _
  congr 1
  funext a
  apply Fin.ext
  match a with
  | ⟨0, _⟩ => show win2_2.index t (0 : Fin 2) * 64 + 1 * (y 0).val = (y 0).val; rw [a20]; omega
  | ⟨1, _⟩ => show win2_2.index t (1 : Fin 2) * 64 + 1 * (y 1).val = (y 1).val; rw [a21]; omega

theorem whole2_3 (c : Dev nD) (t : Fin cfg2.N) : (iblk2 V c 3 t : Vec Ideal S64 .f32) = V c main_v16 := by
  obtain ⟨-, -, -, -, -, -, a30, -⟩ := idx_facts2 t
  funext y
  unfold iblk2
  rw [View.read_apply]
  show V c main_v16 _ = V c main_v16 _
  congr 1
  funext a
  apply Fin.ext
  match a with
  | ⟨0, _⟩ => show win2_3.index t (0 : Fin 1) * 64 + 1 * (y 0).val = (y 0).val; rw [a30]; omega

theorem whole2_4 (c : Dev nD) (t : Fin cfg2.N) : (iblk2 V c 4 t : Vec Ideal S64x64 .f32) = V c main_v18 := by
  obtain ⟨-, -, -, -, -, -, -, a40, a41, -⟩ := idx_facts2 t
  funext y
  unfold iblk2
  rw [View.read_apply]
  show V c main_v18 _ = V c main_v18 _
  congr 1
  funext a
  apply Fin.ext
  match a with
  | ⟨0, _⟩ => show win2_4.index t (0 : Fin 2) * 64 + 1 * (y 0).val = (y 0).val; rw [a40]; omega
  | ⟨1, _⟩ => show win2_4.index t (1 : Fin 2) * 64 + 1 * (y 1).val = (y 1).val; rw [a41]; omega

theorem whole2_5 (c : Dev nD) (t : Fin cfg2.N) : (iblk2 V c 5 t : Vec Ideal S64 .f32) = V c main_v20 := by
  obtain ⟨-, -, -, -, -, -, -, -, -, a50, -⟩ := idx_facts2 t
  funext y
  unfold iblk2
  rw [View.read_apply]
  show V c main_v20 _ = V c main_v20 _
  congr 1
  funext a
  apply Fin.ext
  match a with
  | ⟨0, _⟩ => show win2_5.index t (0 : Fin 1) * 64 + 1 * (y 0).val = (y 0).val; rw [a50]; omega

/-- The specification's combine of the arrays the region finds. -/
abbrev G2 (c : Dev nD) : Cert.Spec.Mat 100000 64 :=
  Cert.Spec.comb true (V c main_v12) (V c main_v7) (V c main_v14) (V c main_v16) (V c main_v18) (V c main_v20)

/-- What point `t` writes back is row block `t` of the specification's combine of the arrays the region finds. -/
theorem flushed2_eq (c : Dev nD) (t : Fin cfg2.N) :
    (dat2 (F := Ideal) V c).flushed 6 t = ((cfg2.win 6).blk t).view.read (Elt Ideal) (G2 V c) := by
  show (cfg2.win 6).cut (grid2.coords t) ((dat2 V c).after 6 t) = _
  rw [after2_6, whole2_2, whole2_3, whole2_4, whole2_5]
  have ht : t.val < 5 := lt_of_lt_of_eq t.isLt N_2
  obtain ⟨-, -, -, -, -, -, -, -, -, -, a60, a61⟩ := idx_facts2 t
  funext y
  obtain ⟨p, j, rfl⟩ : ∃ (p : Fin 20000) (j : Fin 64), y = ix2 p j := ⟨y 0, y 1, eq_ix2 y⟩
  have hp : p.val < 20000 := p.isLt
  rw [View.read_apply]
  have hemb : ((cfg2.win 6).blk t).view.emb (ix2 p j) = ix2 (⟨t.val * 20000 + p.val, by omega⟩ : Fin 100000) j := by
    funext a
    apply Fin.ext
    match a with
    | ⟨0, _⟩ => show win2_6.index t (0 : Fin 2) * 20000 + 1 * p.val = t.val * 20000 + p.val; rw [a60]; omega
    | ⟨1, _⟩ => show win2_6.index t (1 : Fin 2) * 64 + 1 * j.val = j.val; rw [a61]; omega
  rw [hemb]
  exact comb_relu_at2 _ _ _ _ _ _ (V c main_v12) (V c main_v7) p j ⟨t.val * 20000 + p.val, by omega⟩
    (fun l => tile2_0_apply V c t p l _ rfl) (fun l => tile2_1_apply V c t p l _ rfl)

/-- An index of the array is in point `t`'s block iff each coordinate is in the block's range on its axis. -/
theorem mem_blk2 (t : Fin cfg2.N) (i : S100000x64.Idx) :
    i ∈ ((cfg2.win 6).blk t).view.set ↔ ∀ a : Fin 2, win2_6.index t a * S20000x64.size a ≤ (i a).val ∧ (i a).val < win2_6.index t a * S20000x64.size a + S20000x64.size a := by
  show i ∈ ((View.whole main_v21).slice (win2_6.rect t)).set ↔ _
  rw [View.set_slice_whole, Rect.mem_set_unit]
  exact Iff.rfl

/-- Every row of the array is in the block of the point numbered by the row's quotient by the block height. -/
theorem cover2 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  let t : Fin cfg2.N := ⟨(i 0).val / 20000, lt_of_lt_of_eq (by omega) N_2.symm⟩
  have htv : t.val = (i 0).val / 20000 := rfl
  obtain ⟨-, -, -, -, -, -, -, -, -, -, a60, a61⟩ := idx_facts2 t
  refine ⟨t, flush2_6 t, ?_⟩
  rw [mem_blk2]
  intro a
  match a with
  | ⟨0, _⟩ => show win2_6.index t (0 : Fin 2) * 20000 ≤ (i 0).val ∧ (i 0).val < win2_6.index t (0 : Fin 2) * 20000 + 20000; rw [a60, htv]; omega
  | ⟨1, _⟩ => show win2_6.index t (1 : Fin 2) * 64 ≤ (i 1).val ∧ (i 1).val < win2_6.index t (1 : Fin 2) * 64 + 64; rw [a61]; omega

/-- The output array of the first combine region after all its grid points: the specification's combine (with the
    final positive part) of the aggregated messages, the node rows, the two weight matrices and the two biases as
    the region finds them. -/
theorem final2 (c : Dev nD) : (dat2 (F := Ideal) V c).arrAt 6 cfg2.N = Cert.Spec.comb true (V c main_v12) (V c main_v7) (V c main_v14) (V c main_v16) (V c main_v18) (V c main_v20) :=
  (dat2 (F := Ideal) V c).arrAt_eq_of_cover 6 (G2 V c) (fun t _ => flushed2_eq V c t) cover2

end Cert.KernelIdeal.Final

end
-- ==== Proof.KernelLayer1.lean ====
/-
  One message-passing layer of the kernel's run, read as values: the stretch that gathers each edge's source row,
  the region that forms the messages, the stretch that adds them into their destination nodes and cuts the layer's
  weights out of the stacked arrays, and the region that updates the node rows.
-/
import proofs.«405070_j12309376270692_1_alg».proof.Proof.KernelBase
import proofs.«405070_j12309376270692_1_alg».proof.Proof.Final1
import proofs.«405070_j12309376270692_1_alg».proof.Proof.Final2

noncomputable section

open Idealize.ShloMosaic Idealize.ShloMosaic.TcCoe Idealize.SL.Sem Idealize.ShloMosaic.StableHlo Idealize.ShloMosaic.ValueIdx
open Cert.KernelIdeal Cert.KernelIdeal.Gen

namespace Cert.KernelIdeal.KValue

open Cert.KernelIdeal.Final Cert.KernelIdeal.Take

variable (m : (ℓ : Loc nD τ sig) → Buf (Elt Ideal) ℓ) (ρ : Dev nD → PrngReg) (c : Dev nD)

/-! ## Layer 1: the stretch that gathers, the message region, the stretch that aggregates, the combine region -/

theorem keep5 : ∀ b ∈ [main_v1, main_v3, main_arg2, main_arg9, main_arg10, main_arg11, main_arg12], W5 m ρ c (Proc.devRef .tc b) = W4 m ρ c (Proc.devRef .tc b) := fun b hb => by
  show StableHlo.after hostOps1 (W4 m ρ c) (Proc.devRef .tc b) = _
  fin_cases hb <;> after_results
theorem keep6 : ∀ b ∈ [main_v1, main_v3, main_arg2, main_arg9, main_arg10, main_arg11, main_arg12], W6 m ρ c (Proc.devRef .tc b) = W5 m ρ c (Proc.devRef .tc b) := fun b hb => by
  fin_cases hb <;> first
    | exact W6_of_ne m ρ c _ (by decide)
    | exact (W6_arr m ρ c 1).trans (((dat1 (V5 m ρ) c).arrAt_in 1 rfl _).trans (A_eq1 (V5 m ρ) c 1))
theorem keep7 : ∀ b ∈ [main_v1, main_v3, main_arg2, main_arg9, main_arg10, main_arg11, main_arg12], W7 m ρ c (Proc.devRef .tc b) = W6 m ρ c (Proc.devRef .tc b) := fun b hb => by
  show StableHlo.after hostOps2 (W6 m ρ c) (Proc.devRef .tc b) = _
  fin_cases hb <;> after_results
theorem keep8 : ∀ b ∈ [main_v1, main_v3, main_arg2, main_arg9, main_arg10, main_arg11, main_arg12], W8 m ρ c (Proc.devRef .tc b) = W7 m ρ c (Proc.devRef .tc b) := fun b hb => by
  fin_cases hb <;> exact W8_of_ne m ρ c _ (by decide)

/-- The node rows the layer starts from are still in their buffer when the combine region is entered. -/
theorem W7_rows : W7 m ρ c (Proc.devRef .tc main_v7) = W4 m ρ c (Proc.devRef .tc main_v7) :=
  (show StableHlo.after hostOps2 (W6 m ρ c) (Proc.devRef .tc main_v7) = W6 m ρ c (Proc.devRef .tc main_v7) by after_results).trans
    ((W6_of_ne m ρ c main_v7 (by decide)).trans
      (show StableHlo.after hostOps1 (W4 m ρ c) (Proc.devRef .tc main_v7) = W4 m ρ c (Proc.devRef .tc main_v7) by after_results))

/-- The layer's result. -/
theorem W8_rows (hs : ∀ i, 0 ≤ (srcIdx m c i).toInt ∧ (srcIdx m c i).toInt < 100000) (hI : Inv m c (W4 m ρ c))
    (hh : W4 m ρ c (Proc.devRef .tc main_v7) = h0 m c) : W8 m ρ c (Proc.devRef .tc main_v21) = h1 m c := by
  have I1 := hI.of_keep m c (keep5 m ρ c)
  have I2 := I1.of_keep m c (keep6 m ρ c)
  have I3 := I2.of_keep m c (keep7 m ρ c)
  -- the gathered rows
  have e_take : W5 m ρ c (Proc.devRef .tc main_v8) = gatherSrc m c (h0 m c) := by
    refine (take_src1 (W4 m ρ c) (by rw [hI.src]; exact hs)).trans ?_
    rw [hI.src, hh]; rfl
  -- the messages
  have e_msg : W6 m ρ c (Proc.devRef .tc main_v9) = Cert.Spec.msg (gatherSrc m c (h0 m c)) (m ((c : Thread nD τ).loc main_arg2)) := by
    refine (W6_arr m ρ c 2).trans ((final1 (V5 m ρ) c).trans ?_)
    show Cert.Spec.msg (W5 m ρ c (Proc.devRef .tc main_v8)) (W5 m ρ c (Proc.devRef .tc main_arg2)) = _
    rw [e_take, I1.ea]
  -- the aggregated messages
  have e_agg : W7 m ρ c (Proc.devRef .tc main_v12) = scatterDst m c (Cert.Spec.msg (gatherSrc m c (h0 m c)) (m ((c : Thread nD τ).loc main_arg2))) := by
    have e : W7 m ρ c (Proc.devRef .tc main_v12) = Host.scatterAdd (F := Ideal) scatter_S100000x64_S1600000x1_S1600000x64_1_0_0_1
        (broadcastInDim S100000x64 ![] bcast_S_S100000x64 (constant S_ .f32 0x00000000#32))
        (broadcastInDim S1600000x1 ![0] bcast_S1600000_S1600000x1_0 (W6 m ρ c (Proc.devRef .tc main_v3))) (W6 m ρ c (Proc.devRef .tc main_v9)) := by
      show StableHlo.after hostOps2 (W6 m ρ c) (Proc.devRef .tc main_v12) = _
      after_results
    rw [e, I2.dst, e_msg]; rfl
  -- the layer's weights
  have e_w1 : W7 m ρ c (Proc.devRef .tc main_v14) = convW1_0 m c := by
    have e : W7 m ρ c (Proc.devRef .tc main_v14) = shapeCast S64x64 (extractStridedSlice S1x64x64 ![0, 0, 0] (W6 m ρ c (Proc.devRef .tc main_arg9)) slices_S3x64x64_S1x64x64_0_0_0) shapeCasts_S1x64x64_S64x64 := by
      show StableHlo.after hostOps2 (W6 m ρ c) (Proc.devRef .tc main_v14) = _
      after_results; rfl
    rw [e, I2.w1]; rfl
  have e_b1 : W7 m ρ c (Proc.devRef .tc main_v16) = convB1_0 m c := by
    have e : W7 m ρ c (Proc.devRef .tc main_v16) = shapeCast S64 (extractStridedSlice S1x64 ![0, 0] (W6 m ρ c (Proc.devRef .tc main_arg10)) slices_S3x64_S1x64_0_0) shapeCasts_S1x64_S64 := by
      show StableHlo.after hostOps2 (W6 m ρ c) (Proc.devRef .tc main_v16) = _
      after_results; rfl
    rw [e, I2.b1]; rfl
  have e_w2 : W7 m ρ c (Proc.devRef .tc main_v18) = convW2_0 m c := by
    have e : W7 m ρ c (Proc.devRef .tc main_v18) = shapeCast S64x64 (extractStridedSlice S1x64x64 ![0, 0, 0] (W6 m ρ c (Proc.devRef .tc main_arg11)) slices_S3x64x64_S1x64x64_0_0_0) shapeCasts_S1x64x64_S64x64 := by
      show StableHlo.after hostOps2 (W6 m ρ c) (Proc.devRef .tc main_v18) = _
      after_results; rfl
    rw [e, I2.w2]; rfl
  have e_b2 : W7 m ρ c (Proc.devRef .tc main_v20) = convB2_0 m c := by
    have e : W7 m ρ c (Proc.devRef .tc main_v20) = shapeCast S64 (extractStridedSlice S1x64 ![0, 0] (W6 m ρ c (Proc.devRef .tc main_arg12)) slices_S3x64_S1x64_0_0) shapeCasts_S1x64_S64 := by
      show StableHlo.after hostOps2 (W6 m ρ c) (Proc.devRef .tc main_v20) = _
      after_results; rfl
    rw [e, I2.b2]; rfl
  -- the combine region
  refine (W8_arr m ρ c 6).trans ((final2 (V7 m ρ) c).trans ?_)
  show Cert.Spec.comb true (W7 m ρ c (Proc.devRef .tc main_v12)) (W7 m ρ c (Proc.devRef .tc main_v7)) (W7 m ρ c (Proc.devRef .tc main_v14)) (W7 m ρ c (Proc.devRef .tc main_v16)) (W7 m ρ c (Proc.devRef .tc main_v18)) (W7 m ρ c (Proc.devRef .tc main_v20)) = _
  rw [e_agg, W7_rows, hh, e_w1, e_b1, e_w2, e_b2]; rfl

end Cert.KernelIdeal.KValue

end
-- ==== Proof.Final3.lean ====
/-
  The second message region writes the specification's messages.

  The region cuts the 1600000 edge rows into 80 blocks of 20000. At a grid point the body's result, entry by entry, is
  the positive part of the gathered-rows block plus the edge-attributes block; both blocks sit at the output block's
  place in their arrays. So each point writes back its block of the message array, the blocks cover every index, and the
  array after the region is the positive part of the gathered rows plus the edge attributes.
-/
import proofs.«405070_j12309376270692_1_alg».proof.Proof.Gen.KernelIdeal.Frame
import proofs.«405070_j12309376270692_1_alg».proof.Proof.Spec
import proofs.«405070_j12309376270692_1_alg».proof.Proof.BodyLemmas
import Idealize.ShloMosaic.Lib.ValueIdx
import Idealize.ShloMosaic.Lib.Pipeline.Value

noncomputable section

open Idealize.ShloMosaic Idealize.ShloMosaic.TcCoe Idealize.SL.Sem Idealize.ShloMosaic.ValueIdx
open Cert.KernelIdeal Cert.KernelIdeal.Gen

namespace Cert.KernelIdeal.Final

open Cert.KernelIdeal.Body

variable (V : (c : Dev nD) → (b : Ref sig .tc) → Buf (Elt Ideal) ((c : Thread nD τ).loc b))

/-! ## The second message region -/

/-- The printed index maps over the 80 grid points: both inputs' row blocks move with the output's, and the
    output's block indices stay in range. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 79
    ∧ win3_2.index t (1 : Fin 2) = 0 :=
  (by decide +kernel : ∀ t : Fin grid3.N, _)

/-- Every row block is some point's. -/
theorem idx_onto3 : ∀ q : Fin 80, ∃ t : Fin cfg3.N, win3_2.index t = ![q.val, 0] :=
  (by decide +kernel : ∀ q : Fin 80, ∃ t : Fin grid3.N, win3_2.index t = ![q.val, 0])

/-- One element of the body's result, with each input block's element read off its array at the same place. -/
theorem point3 (x0 x1 : Vec Ideal S20000x64 .f32) (a0 a1 : Cert.Spec.Mat 1600000 64) (i : S1600000x64.Idx)
    (y : S20000x64.Idx) (h0 : x0 y = a0 i) (h1 : x1 y = a1 i) :
    out3_2 (F := Ideal) x0 x1 y = Cert.Spec.msg a0 a1 i := by
  rw [out3_2_apply, h0, h1]; rfl

/-- What point `t` writes back is its block of the message array. -/
theorem flushed3_eq (c : Dev nD) (t : Fin cfg3.N) :
    (dat3 (F := Ideal) V c).flushed 2 t
      = ((cfg3.win 2).blk t).view.read (Elt Ideal) (Cert.Spec.msg (V c main_v22) (V c main_arg2)) := by
  show (cfg3.win 2).cut (grid3.coords t) ((dat3 V c).after 2 t) = _
  rw [after3_2]
  obtain ⟨e0, e1, e2, e3, e4, e5⟩ := idx_facts3 t
  funext y
  refine point3 (iblk3 V c 0 t) (iblk3 V c 1 t) (V c main_v22) (V c main_arg2) (((cfg3.win 2).blk t).view.emb y) y ?_ ?_
  · show V c main_v22 (((cfg3.win 0).blk t).view.emb y) = V c main_v22 (((cfg3.win 2).blk t).view.emb y)
    refine congrArg _ (funext fun a => Fin.ext ?_)
    match a with
    | ⟨0, _⟩ => show win3_0.index t (0 : Fin 2) * 20000 + 1 * (y 0).val = win3_2.index t (0 : Fin 2) * 20000 + 1 * (y 0).val; omega
    | ⟨1, _⟩ => show win3_0.index t (1 : Fin 2) * 64 + 1 * (y 1).val = win3_2.index t (1 : Fin 2) * 64 + 1 * (y 1).val; omega
  · show V c main_arg2 (((cfg3.win 1).blk t).view.emb y) = V c main_arg2 (((cfg3.win 2).blk t).view.emb y)
    refine congrArg _ (funext fun a => Fin.ext ?_)
    match a with
    | ⟨0, _⟩ => show win3_1.index t (0 : Fin 2) * 20000 + 1 * (y 0).val = win3_2.index t (0 : Fin 2) * 20000 + 1 * (y 0).val; omega
    | ⟨1, _⟩ => show win3_1.index t (1 : Fin 2) * 64 + 1 * (y 1).val = win3_2.index t (1 : Fin 2) * 64 + 1 * (y 1).val; omega

/-- An index of the array is in point `t`'s block iff each coordinate is in the block's range on its axis. -/
theorem mem_blk3 (t : Fin cfg3.N) (i : S1600000x64.Idx) :
    i ∈ ((cfg3.win 2).blk t).view.set ↔ ∀ a : Fin 2, win3_2.index t a * S20000x64.size a ≤ (i a).val ∧ (i a).val < win3_2.index t a * S20000x64.size a + S20000x64.size a := by
  show i ∈ ((View.whole main_v23).slice (win3_2.rect t)).set ↔ _
  rw [View.set_slice_whole, Rect.mem_set_unit]
  exact Iff.rfl

/-- Every index of the array is in some point's block: row `r` is in block `r / 20000`. -/
theorem cover3 (i : S1600000x64.Idx) :
    ∃ t : Fin cfg3.N, (cfg3.win 2).flush t = true ∧ i ∈ ((cfg3.win 2).blk t).view.set := by
  have hi0 : (i 0).val < 1600000 := (i 0).isLt
  have hi1 : (i 1).val < 64 := (i 1).isLt
  obtain ⟨t, ht⟩ := idx_onto3 ⟨(i 0).val / 20000, by omega⟩
  have q0 : win3_2.index t (0 : Fin 2) = (i 0).val / 20000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 20000 ≤ (i 0).val ∧ (i 0).val < win3_2.index t (0 : Fin 2) * 20000 + 20000; omega
  | ⟨1, _⟩ => show win3_2.index t (1 : Fin 2) * 64 ≤ (i 1).val ∧ (i 1).val < win3_2.index t (1 : Fin 2) * 64 + 64; omega

/-- The message array after the region: relu of the gathered rows plus the edge attributes. -/
theorem final3 (c : Dev nD) :
    (dat3 (F := Ideal) V c).arrAt 2 cfg3.N = Cert.Spec.msg (V c main_v22) (V c main_arg2) :=
  (dat3 (F := Ideal) V c).arrAt_eq_of_cover 2 _ (fun t _ => flushed3_eq V c t) cover3

end Cert.KernelIdeal.Final

end
-- ==== Proof.Final4.lean ====
import proofs.«405070_j12309376270692_1_alg».proof.Proof.Gen.KernelIdeal.Frame
import proofs.«405070_j12309376270692_1_alg».proof.Proof.Spec
import proofs.«405070_j12309376270692_1_alg».proof.Proof.BodyLemmas
import Idealize.ShloMosaic.Lib.ValueIdx
import Idealize.ShloMosaic.Lib.Pipeline.Value

noncomputable section

open Idealize.ShloMosaic Idealize.ShloMosaic.TcCoe Idealize.SL.Sem Idealize.ShloMosaic.ValueIdx
open Cert.KernelIdeal Cert.KernelIdeal.Gen

namespace Cert.KernelIdeal.Final

variable (V : (c : Dev nD) → (b : Ref sig .tc) → Buf (Elt Ideal) ((c : Thread nD τ).loc b))

/-! ## The second combine region: its output array after all its grid points -/

/-- The printed index maps, decided once over the grid: the two row-tiled inputs and the output sit at row block `t`,
    column block 0; the two weight matrices and the two biases sit at block 0 at every point. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-- One element of a combine block with the final positive part: if rows `p` of the two tiled input blocks are rows
    `r` of the arrays `agg` and `h`, the block's element `(p, j)` is the specification's element `(r, j)`. -/
theorem comb_relu_at4 (x0 x1 : Vec Ideal S20000x64 .f32) (w1 : Vec Ideal S64x64 .f32) (b1 : Vec Ideal S64 .f32)
    (w2 : Vec Ideal S64x64 .f32) (b2 : Vec Ideal S64 .f32) (agg h : Cert.Spec.Mat 100000 64)
    (p : Fin 20000) (j : Fin 64) (r : Fin 100000)
    (h0 : ∀ l : Fin 64, x0 (ix2 p l) = agg (ix2 r l)) (h1 : ∀ l : Fin 64, x1 (ix2 p l) = h (ix2 r l)) :
    out4_6 (F := Ideal) x0 x1 w1 b1 w2 b2 (ix2 p j) = Cert.Spec.comb true agg h w1 b1 w2 b2 (ix2 r j) := by
  rw [Body.out4_6_apply]
  have e : (fun l : Fin 64 => x0 (ix2 p l) + x1 (ix2 p l)) = fun l => agg (ix2 r l) + h (ix2 r l) :=
    funext fun l => by rw [h0, h1]
  rw [e, h1]
  rfl

/-- A row-tiled input block at point `t`: its element `(p, l)` is the array's element `(20000 t + p, l)`. -/
theorem tile4_0_apply (c : Dev nD) (t : Fin cfg4.N) (p : Fin 20000) (l : Fin 64) (r : Fin 100000)
    (hr : r.val = t.val * 20000 + p.val) :
    (iblk4 V c 0 t : Vec Ideal S20000x64 .f32) (ix2 p l) = (V c main_v26 : Cert.Spec.Mat 100000 64) (ix2 r l) := by
  obtain ⟨a00, a01, -⟩ := idx_facts4 t
  unfold iblk4
  rw [View.read_apply]
  show V c main_v26 _ = V c main_v26 _
  congr 1
  funext a
  apply Fin.ext
  match a with
  | ⟨0, _⟩ => show win4_0.index t (0 : Fin 2) * 20000 + 1 * p.val = r.val; rw [a00, hr]; omega
  | ⟨1, _⟩ => show win4_0.index t (1 : Fin 2) * 64 + 1 * l.val = l.val; rw [a01]; omega

theorem tile4_1_apply (c : Dev nD) (t : Fin cfg4.N) (p : Fin 20000) (l : Fin 64) (r : Fin 100000)
    (hr : r.val = t.val * 20000 + p.val) :
    (iblk4 V c 1 t : Vec Ideal S20000x64 .f32) (ix2 p l) = (V c main_v21 : Cert.Spec.Mat 100000 64) (ix2 r l) := by
  obtain ⟨-, -, a10, a11, -⟩ := idx_facts4 t
  unfold iblk4
  rw [View.read_apply]
  show V c main_v21 _ = V c main_v21 _
  congr 1
  funext a
  apply Fin.ext
  match a with
  | ⟨0, _⟩ => show win4_1.index t (0 : Fin 2) * 20000 + 1 * p.val = r.val; rw [a10, hr]; omega
  | ⟨1, _⟩ => show win4_1.index t (1 : Fin 2) * 64 + 1 * l.val = l.val; rw [a11]; omega

/-- The weight and bias windows hold their whole arrays at every point: block 0 of an array of one block. -/
theorem whole4_2 (c : Dev nD) (t : Fin cfg4.N) : (iblk4 V c 2 t : Vec Ideal S64x64 .f32) = V c main_v28 := by
  obtain ⟨-, -, -, -, a20, a21, -⟩ := idx_facts4 t
  funext y
  unfold iblk4
  rw [View.read_apply]
  show V c main_v28 _ = V c main_v28 _
  congr 1
  funext a
  apply Fin.ext
  match a with
  | ⟨0, _⟩ => show win4_2.index t (0 : Fin 2) * 64 + 1 * (y 0).val = (y 0).val; rw [a20]; omega
  | ⟨1, _⟩ => show win4_2.index t (1 : Fin 2) * 64 + 1 * (y 1).val = (y 1).val; rw [a21]; omega

theorem whole4_3 (c : Dev nD) (t : Fin cfg4.N) : (iblk4 V c 3 t : Vec Ideal S64 .f32) = V c main_v30 := by
  obtain ⟨-, -, -, -, -, -, a30, -⟩ := idx_facts4 t
  funext y
  unfold iblk4
  rw [View.read_apply]
  show V c main_v30 _ = V c main_v30 _
  congr 1
  funext a
  apply Fin.ext
  match a with
  | ⟨0, _⟩ => show win4_3.index t (0 : Fin 1) * 64 + 1 * (y 0).val = (y 0).val; rw [a30]; omega

theorem whole4_4 (c : Dev nD) (t : Fin cfg4.N) : (iblk4 V c 4 t : Vec Ideal S64x64 .f32) = V c main_v32 := by
  obtain ⟨-, -, -, -, -, -, -, a40, a41, -⟩ := idx_facts4 t
  funext y
  unfold iblk4
  rw [View.read_apply]
  show V c main_v32 _ = V c main_v32 _
  congr 1
  funext a
  apply Fin.ext
  match a with
  | ⟨0, _⟩ => show win4_4.index t (0 : Fin 2) * 64 + 1 * (y 0).val = (y 0).val; rw [a40]; omega
  | ⟨1, _⟩ => show win4_4.index t (1 : Fin 2) * 64 + 1 * (y 1).val = (y 1).val; rw [a41]; omega

theorem whole4_5 (c : Dev nD) (t : Fin cfg4.N) : (iblk4 V c 5 t : Vec Ideal S64 .f32) = V c main_v34 := by
  obtain ⟨-, -, -, -, -, -, -, -, -, a50, -⟩ := idx_facts4 t
  funext y
  unfold iblk4
  rw [View.read_apply]
  show V c main_v34 _ = V c main_v34 _
  congr 1
  funext a
  apply Fin.ext
  match a with
  | ⟨0, _⟩ => show win4_5.index t (0 : Fin 1) * 64 + 1 * (y 0).val = (y 0).val; rw [a50]; omega

/-- The specification's combine of the arrays the region finds. -/
abbrev G4 (c : Dev nD) : Cert.Spec.Mat 100000 64 :=
  Cert.Spec.comb true (V c main_v26) (V c main_v21) (V c main_v28) (V c main_v30) (V c main_v32) (V c main_v34)

/-- What point `t` writes back is row block `t` of the specification's combine of the arrays the region finds. -/
theorem flushed4_eq (c : Dev nD) (t : Fin cfg4.N) :
    (dat4 (F := Ideal) V c).flushed 6 t = ((cfg4.win 6).blk t).view.read (Elt Ideal) (G4 V c) := by
  show (cfg4.win 6).cut (grid4.coords t) ((dat4 V c).after 6 t) = _
  rw [after4_6, whole4_2, whole4_3, whole4_4, whole4_5]
  have ht : t.val < 5 := lt_of_lt_of_eq t.isLt N_4
  obtain ⟨-, -, -, -, -, -, -, -, -, -, a60, a61⟩ := idx_facts4 t
  funext y
  obtain ⟨p, j, rfl⟩ : ∃ (p : Fin 20000) (j : Fin 64), y = ix2 p j := ⟨y 0, y 1, eq_ix2 y⟩
  have hp : p.val < 20000 := p.isLt
  rw [View.read_apply]
  have hemb : ((cfg4.win 6).blk t).view.emb (ix2 p j) = ix2 (⟨t.val * 20000 + p.val, by omega⟩ : Fin 100000) j := by
    funext a
    apply Fin.ext
    match a with
    | ⟨0, _⟩ => show win4_6.index t (0 : Fin 2) * 20000 + 1 * p.val = t.val * 20000 + p.val; rw [a60]; omega
    | ⟨1, _⟩ => show win4_6.index t (1 : Fin 2) * 64 + 1 * j.val = j.val; rw [a61]; omega
  rw [hemb]
  exact comb_relu_at4 _ _ _ _ _ _ (V c main_v26) (V c main_v21) p j ⟨t.val * 20000 + p.val, by omega⟩
    (fun l => tile4_0_apply V c t p l _ rfl) (fun l => tile4_1_apply V c t p l _ rfl)

/-- An index of the array is in point `t`'s block iff each coordinate is in the block's range on its axis. -/
theorem mem_blk4 (t : Fin cfg4.N) (i : S100000x64.Idx) :
    i ∈ ((cfg4.win 6).blk t).view.set ↔ ∀ a : Fin 2, win4_6.index t a * S20000x64.size a ≤ (i a).val ∧ (i a).val < win4_6.index t a * S20000x64.size a + S20000x64.size a := by
  show i ∈ ((View.whole main_v35).slice (win4_6.rect t)).set ↔ _
  rw [View.set_slice_whole, Rect.mem_set_unit]
  exact Iff.rfl

/-- Every row of the array is in the block of the point numbered by the row's quotient by the block height. -/
theorem cover4 (i : S100000x64.Idx) : ∃ t : Fin cfg4.N, (cfg4.win 6).flush t = true ∧ i ∈ ((cfg4.win 6).blk t).view.set := by
  have hi0 : (i 0).val < 100000 := (i 0).isLt
  have hi1 : (i 1).val < 64 := (i 1).isLt
  let t : Fin cfg4.N := ⟨(i 0).val / 20000, lt_of_lt_of_eq (by omega) N_4.symm⟩
  have htv : t.val = (i 0).val / 20000 := rfl
  obtain ⟨-, -, -, -, -, -, -, -, -, -, a60, a61⟩ := idx_facts4 t
  refine ⟨t, flush4_6 t, ?_⟩
  rw [mem_blk4]
  intro a
  match a with
  | ⟨0, _⟩ => show win4_6.index t (0 : Fin 2) * 20000 ≤ (i 0).val ∧ (i 0).val < win4_6.index t (0 : Fin 2) * 20000 + 20000; rw [a60, htv]; omega
  | ⟨1, _⟩ => show win4_6.index t (1 : Fin 2) * 64 ≤ (i 1).val ∧ (i 1).val < win4_6.index t (1 : Fin 2) * 64 + 64; rw [a61]; omega

/-- The output array of the second combine region after all its grid points: the specification's combine (with the
    final positive part) of the aggregated messages, the node rows, the two weight matrices and the two biases as
    the region finds them. -/
theorem final4 (c : Dev nD) : (dat4 (F := Ideal) V c).arrAt 6 cfg4.N = Cert.Spec.comb true (V c main_v26) (V c main_v21) (V c main_v28) (V c main_v30) (V c main_v32) (V c main_v34) :=
  (dat4 (F := Ideal) V c).arrAt_eq_of_cover 6 (G4 V c) (fun t _ => flushed4_eq V c t) cover4

end Cert.KernelIdeal.Final

end
-- ==== Proof.KernelLayer2.lean ====
/-
  One message-passing layer of the kernel's run, read as values: the stretch that gathers each edge's source row,
  the region that forms the messages, the stretch that adds them into their destination nodes and cuts the layer's
  weights out of the stacked arrays, and the region that updates the node rows.
-/
import proofs.«405070_j12309376270692_1_alg».proof.Proof.KernelBase
import proofs.«405070_j12309376270692_1_alg».proof.Proof.Final3
import proofs.«405070_j12309376270692_1_alg».proof.Proof.Final4

noncomputable section

open Idealize.ShloMosaic Idealize.ShloMosaic.TcCoe Idealize.SL.Sem Idealize.ShloMosaic.StableHlo Idealize.ShloMosaic.ValueIdx
open Cert.KernelIdeal Cert.KernelIdeal.Gen

namespace Cert.KernelIdeal.KValue

open Cert.KernelIdeal.Final Cert.KernelIdeal.Take

variable (m : (ℓ : Loc nD τ sig) → Buf (Elt Ideal) ℓ) (ρ : Dev nD → PrngReg) (c : Dev nD)

/-! ## Layer 2: the stretch that gathers, the message region, the stretch that aggregates, the combine region -/

theorem keep9 : ∀ b ∈ [main_v1, main_v3, main_arg2, main_arg9, main_arg10, main_arg11, main_arg12], W9 m ρ c (Proc.devRef .tc b) = W8 m ρ c (Proc.devRef .tc b) := fun b hb => by
  show StableHlo.after hostOps3 (W8 m ρ c) (Proc.devRef .tc b) = _
  fin_cases hb <;> after_results
theorem keep10 : ∀ b ∈ [main_v1, main_v3, main_arg2, main_arg9, main_arg10, main_arg11, main_arg12], W10 m ρ c (Proc.devRef .tc b) = W9 m ρ c (Proc.devRef .tc b) := fun b hb => by
  fin_cases hb <;> first
    | exact W10_of_ne m ρ c _ (by decide)
    | exact (W10_arr m ρ c 1).trans (((dat3 (V9 m ρ) c).arrAt_in 1 rfl _).trans (A_eq3 (V9 m ρ) c 1))
theorem keep11 : ∀ b ∈ [main_v1, main_v3, main_arg2, main_arg9, main_arg10, main_arg11, main_arg12], W11 m ρ c (Proc.devRef .tc b) = W10 m ρ c (Proc.devRef .tc b) := fun b hb => by
  show StableHlo.after hostOps4 (W10 m ρ c) (Proc.devRef .tc b) = _
  fin_cases hb <;> after_results
theorem keep12 : ∀ b ∈ [main_v1, main_v3, main_arg2, main_arg9, main_arg10, main_arg11, main_arg12], W12 m ρ c (Proc.devRef .tc b) = W11 m ρ c (Proc.devRef .tc b) := fun b hb => by
  fin_cases hb <;> exact W12_of_ne m ρ c _ (by decide)

/-- The node rows the layer starts from are still in their buffer when the combine region is entered. -/
theorem W11_rows : W11 m ρ c (Proc.devRef .tc main_v21) = W8 m ρ c (Proc.devRef .tc main_v21) :=
  (show StableHlo.after hostOps4 (W10 m ρ c) (Proc.devRef .tc main_v21) = W10 m ρ c (Proc.devRef .tc main_v21) by after_results).trans
    ((W10_of_ne m ρ c main_v21 (by decide)).trans
      (show StableHlo.after hostOps3 (W8 m ρ c) (Proc.devRef .tc main_v21) = W8 m ρ c (Proc.devRef .tc main_v21) by after_results))

/-- The layer's result. -/
theorem W12_rows (hs : ∀ i, 0 ≤ (srcIdx m c i).toInt ∧ (srcIdx m c i).toInt < 100000) (hI : Inv m c (W8 m ρ c))
    (hh : W8 m ρ c (Proc.devRef .tc main_v21) = h1 m c) : W12 m ρ c (Proc.devRef .tc main_v35) = h2 m c := by
  have I1 := hI.of_keep m c (keep9 m ρ c)
  have I2 := I1.of_keep m c (keep10 m ρ c)
  have I3 := I2.of_keep m c (keep11 m ρ c)
  -- the gathered rows
  have e_take : W9 m ρ c (Proc.devRef .tc main_v22) = gatherSrc m c (h1 m c) := by
    refine (take_src2 (W8 m ρ c) (by rw [hI.src]; exact hs)).trans ?_
    rw [hI.src, hh]; rfl
  -- the messages
  have e_msg : W10 m ρ c (Proc.devRef .tc main_v23) = Cert.Spec.msg (gatherSrc m c (h1 m c)) (m ((c : Thread nD τ).loc main_arg2)) := by
    refine (W10_arr m ρ c 2).trans ((final3 (V9 m ρ) c).trans ?_)
    show Cert.Spec.msg (W9 m ρ c (Proc.devRef .tc main_v22)) (W9 m ρ c (Proc.devRef .tc main_arg2)) = _
    rw [e_take, I1.ea]
  -- the aggregated messages
  have e_agg : W11 m ρ c (Proc.devRef .tc main_v26) = scatterDst m c (Cert.Spec.msg (gatherSrc m c (h1 m c)) (m ((c : Thread nD τ).loc main_arg2))) := by
    have e : W11 m ρ c (Proc.devRef .tc main_v26) = Host.scatterAdd (F := Ideal) scatter_S100000x64_S1600000x1_S1600000x64_1_0_0_1
        (broadcastInDim S100000x64 ![] bcast_S_S100000x64 (constant S_ .f32 0x00000000#32))
        (broadcastInDim S1600000x1 ![0] bcast_S1600000_S1600000x1_0 (W10 m ρ c (Proc.devRef .tc main_v3))) (W10 m ρ c (Proc.devRef .tc main_v23)) := by
      show StableHlo.after hostOps4 (W10 m ρ c) (Proc.devRef .tc main_v26) = _
      after_results
    rw [e, I2.dst, e_msg]; rfl
  -- the layer's weights
  have e_w1 : W11 m ρ c (Proc.devRef .tc main_v28) = convW1_1 m c := by
    have e : W11 m ρ c (Proc.devRef .tc main_v28) = shapeCast S64x64 (extractStridedSlice S1x64x64 ![1, 0, 0] (W10 m ρ c (Proc.devRef .tc main_arg9)) slices_S3x64x64_S1x64x64_1_0_0) shapeCasts_S1x64x64_S64x64 := by
      show StableHlo.after hostOps4 (W10 m ρ c) (Proc.devRef .tc main_v28) = _
      after_results; rfl
    rw [e, I2.w1]; rfl
  have e_b1 : W11 m ρ c (Proc.devRef .tc main_v30) = convB1_1 m c := by
    have e : W11 m ρ c (Proc.devRef .tc main_v30) = shapeCast S64 (extractStridedSlice S1x64 ![1, 0] (W10 m ρ c (Proc.devRef .tc main_arg10)) slices_S3x64_S1x64_1_0) shapeCasts_S1x64_S64 := by
      show StableHlo.after hostOps4 (W10 m ρ c) (Proc.devRef .tc main_v30) = _
      after_results; rfl
    rw [e, I2.b1]; rfl
  have e_w2 : W11 m ρ c (Proc.devRef .tc main_v32) = convW2_1 m c := by
    have e : W11 m ρ c (Proc.devRef .tc main_v32) = shapeCast S64x64 (extractStridedSlice S1x64x64 ![1, 0, 0] (W10 m ρ c (Proc.devRef .tc main_arg11)) slices_S3x64x64_S1x64x64_1_0_0) shapeCasts_S1x64x64_S64x64 := by
      show StableHlo.after hostOps4 (W10 m ρ c) (Proc.devRef .tc main_v32) = _
      after_results; rfl
    rw [e, I2.w2]; rfl
  have e_b2 : W11 m ρ c (Proc.devRef .tc main_v34) = convB2_1 m c := by
    have e : W11 m ρ c (Proc.devRef .tc main_v34) = shapeCast S64 (extractStridedSlice S1x64 ![1, 0] (W10 m ρ c (Proc.devRef .tc main_arg12)) slices_S3x64_S1x64_1_0) shapeCasts_S1x64_S64 := by
      show StableHlo.after hostOps4 (W10 m ρ c) (Proc.devRef .tc main_v34) = _
      after_results; rfl
    rw [e, I2.b2]; rfl
  -- the combine region
  refine (W12_arr m ρ c 6).trans ((final4 (V11 m ρ) c).trans ?_)
  show Cert.Spec.comb true (W11 m ρ c (Proc.devRef .tc main_v26)) (W11 m ρ c (Proc.devRef .tc main_v21)) (W11 m ρ c (Proc.devRef .tc main_v28)) (W11 m ρ c (Proc.devRef .tc main_v30)) (W11 m ρ c (Proc.devRef .tc main_v32)) (W11 m ρ c (Proc.devRef .tc main_v34)) = _
  rw [e_agg, W11_rows, hh, e_w1, e_b1, e_w2, e_b2]; rfl

end Cert.KernelIdeal.KValue

end
-- ==== Proof.Final5.lean ====
/-
  The third message region writes the specification's messages.

  The region cuts the 1600000 edge rows into 80 blocks of 20000. At a grid point the body's result, entry by entry, is
  the positive part of the gathered-rows block plus the edge-attributes block; both blocks sit at the output block's
  place in their arrays. So each point writes back its block of the message array, the blocks cover every index, and the
  array after the region is the positive part of the gathered rows plus the edge attributes.
-/
import proofs.«405070_j12309376270692_1_alg».proof.Proof.Gen.KernelIdeal.Frame
import proofs.«405070_j12309376270692_1_alg».proof.Proof.Spec
import proofs.«405070_j12309376270692_1_alg».proof.Proof.BodyLemmas
import Idealize.ShloMosaic.Lib.ValueIdx
import Idealize.ShloMosaic.Lib.Pipeline.Value

noncomputable section

open Idealize.ShloMosaic Idealize.ShloMosaic.TcCoe Idealize.SL.Sem Idealize.ShloMosaic.ValueIdx
open Cert.KernelIdeal Cert.KernelIdeal.Gen

namespace Cert.KernelIdeal.Final

open Cert.KernelIdeal.Body

variable (V : (c : Dev nD) → (b : Ref sig .tc) → Buf (Elt Ideal) ((c : Thread nD τ).loc b))

/-! ## The third message region -/

/-- The printed index maps over the 80 grid points: both inputs' row blocks move with the output's, and the
    output's block indices stay in range. -/
theorem idx_facts5 : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) ≤ 79
    ∧ win5_2.index t (1 : Fin 2) = 0 :=
  (by decide +kernel : ∀ t : Fin grid5.N, _)

/-- Every row block is some point's. -/
theorem idx_onto5 : ∀ q : Fin 80, ∃ t : Fin cfg5.N, win5_2.index t = ![q.val, 0] :=
  (by decide +kernel : ∀ q : Fin 80, ∃ t : Fin grid5.N, win5_2.index t = ![q.val, 0])

/-- One element of the body's result, with each input block's element read off its array at the same place. -/
theorem point5 (x0 x1 : Vec Ideal S20000x64 .f32) (a0 a1 : Cert.Spec.Mat 1600000 64) (i : S1600000x64.Idx)
    (y : S20000x64.Idx) (h0 : x0 y = a0 i) (h1 : x1 y = a1 i) :
    out5_2 (F := Ideal) x0 x1 y = Cert.Spec.msg a0 a1 i := by
  rw [out5_2_apply, h0, h1]; rfl

/-- What point `t` writes back is its block of the message array. -/
theorem flushed5_eq (c : Dev nD) (t : Fin cfg5.N) :
    (dat5 (F := Ideal) V c).flushed 2 t
      = ((cfg5.win 2).blk t).view.read (Elt Ideal) (Cert.Spec.msg (V c main_v36) (V c main_arg2)) := by
  show (cfg5.win 2).cut (grid5.coords t) ((dat5 V c).after 2 t) = _
  rw [after5_2]
  obtain ⟨e0, e1, e2, e3, e4, e5⟩ := idx_facts5 t
  funext y
  refine point5 (iblk5 V c 0 t) (iblk5 V c 1 t) (V c main_v36) (V c main_arg2) (((cfg5.win 2).blk t).view.emb y) y ?_ ?_
  · show V c main_v36 (((cfg5.win 0).blk t).view.emb y) = V c main_v36 (((cfg5.win 2).blk t).view.emb y)
    refine congrArg _ (funext fun a => Fin.ext ?_)
    match a with
    | ⟨0, _⟩ => show win5_0.index t (0 : Fin 2) * 20000 + 1 * (y 0).val = win5_2.index t (0 : Fin 2) * 20000 + 1 * (y 0).val; omega
    | ⟨1, _⟩ => show win5_0.index t (1 : Fin 2) * 64 + 1 * (y 1).val = win5_2.index t (1 : Fin 2) * 64 + 1 * (y 1).val; omega
  · show V c main_arg2 (((cfg5.win 1).blk t).view.emb y) = V c main_arg2 (((cfg5.win 2).blk t).view.emb y)
    refine congrArg _ (funext fun a => Fin.ext ?_)
    match a with
    | ⟨0, _⟩ => show win5_1.index t (0 : Fin 2) * 20000 + 1 * (y 0).val = win5_2.index t (0 : Fin 2) * 20000 + 1 * (y 0).val; omega
    | ⟨1, _⟩ => show win5_1.index t (1 : Fin 2) * 64 + 1 * (y 1).val = win5_2.index t (1 : Fin 2) * 64 + 1 * (y 1).val; omega

/-- An index of the array is in point `t`'s block iff each coordinate is in the block's range on its axis. -/
theorem mem_blk5 (t : Fin cfg5.N) (i : S1600000x64.Idx) :
    i ∈ ((cfg5.win 2).blk t).view.set ↔ ∀ a : Fin 2, win5_2.index t a * S20000x64.size a ≤ (i a).val ∧ (i a).val < win5_2.index t a * S20000x64.size a + S20000x64.size a := by
  show i ∈ ((View.whole main_v37).slice (win5_2.rect t)).set ↔ _
  rw [View.set_slice_whole, Rect.mem_set_unit]
  exact Iff.rfl

/-- Every index of the array is in some point's block: row `r` is in block `r / 20000`. -/
theorem cover5 (i : S1600000x64.Idx) :
    ∃ t : Fin cfg5.N, (cfg5.win 2).flush t = true ∧ i ∈ ((cfg5.win 2).blk t).view.set := by
  have hi0 : (i 0).val < 1600000 := (i 0).isLt
  have hi1 : (i 1).val < 64 := (i 1).isLt
  obtain ⟨t, ht⟩ := idx_onto5 ⟨(i 0).val / 20000, by omega⟩
  have q0 : win5_2.index t (0 : Fin 2) = (i 0).val / 20000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 20000 ≤ (i 0).val ∧ (i 0).val < win5_2.index t (0 : Fin 2) * 20000 + 20000; omega
  | ⟨1, _⟩ => show win5_2.index t (1 : Fin 2) * 64 ≤ (i 1).val ∧ (i 1).val < win5_2.index t (1 : Fin 2) * 64 + 64; omega

/-- The message array after the region: relu of the gathered rows plus the edge attributes. -/
theorem final5 (c : Dev nD) :
    (dat5 (F := Ideal) V c).arrAt 2 cfg5.N = Cert.Spec.msg (V c main_v36) (V c main_arg2) :=
  (dat5 (F := Ideal) V c).arrAt_eq_of_cover 2 _ (fun t _ => flushed5_eq V c t) cover5

end Cert.KernelIdeal.Final

end
-- ==== Proof.Final6.lean ====
import proofs.«405070_j12309376270692_1_alg».proof.Proof.Gen.KernelIdeal.Frame
import proofs.«405070_j12309376270692_1_alg».proof.Proof.Spec
import proofs.«405070_j12309376270692_1_alg».proof.Proof.BodyLemmas
import Idealize.ShloMosaic.Lib.ValueIdx
import Idealize.ShloMosaic.Lib.Pipeline.Value

noncomputable section

open Idealize.ShloMosaic Idealize.ShloMosaic.TcCoe Idealize.SL.Sem Idealize.ShloMosaic.ValueIdx
open Cert.KernelIdeal Cert.KernelIdeal.Gen

namespace Cert.KernelIdeal.Final

variable (V : (c : Dev nD) → (b : Ref sig .tc) → Buf (Elt Ideal) ((c : Thread nD τ).loc b))

/-! ## The third combine region: its output array after all its grid points -/

/-- The printed index maps, decided once over the grid: the two row-tiled inputs and the output sit at row block `t`,
    column block 0; the two weight matrices and the two biases sit at block 0 at every point. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 1) = 0
    ∧ win6_4.index t (0 : Fin 2) = 0 ∧ win6_4.index t (1 : Fin 2) = 0
    ∧ win6_5.index t (0 : Fin 1) = 0
    ∧ win6_6.index t (0 : Fin 2) = t.val ∧ win6_6.index t (1 : Fin 2) = 0 :=
  (by decide +kernel : ∀ t : Fin grid6.N, _)

/-- One element of a combine block without a final positive part: if rows `p` of the two tiled input blocks are rows
    `r` of the arrays `agg` and `h`, the block's element `(p, j)` is the specification's element `(r, j)`. -/
theorem comb_at6 (x0 x1 : Vec Ideal S20000x64 .f32) (w1 : Vec Ideal S64x64 .f32) (b1 : Vec Ideal S64 .f32)
    (w2 : Vec Ideal S64x64 .f32) (b2 : Vec Ideal S64 .f32) (agg h : Cert.Spec.Mat 100000 64)
    (p : Fin 20000) (j : Fin 64) (r : Fin 100000)
    (h0 : ∀ l : Fin 64, x0 (ix2 p l) = agg (ix2 r l)) (h1 : ∀ l : Fin 64, x1 (ix2 p l) = h (ix2 r l)) :
    out6_6 (F := Ideal) x0 x1 w1 b1 w2 b2 (ix2 p j) = Cert.Spec.comb false agg h w1 b1 w2 b2 (ix2 r j) := by
  rw [Body.out6_6_apply]
  have e : (fun l : Fin 64 => x0 (ix2 p l) + x1 (ix2 p l)) = fun l => agg (ix2 r l) + h (ix2 r l) :=
    funext fun l => by rw [h0, h1]
  rw [e, h1]
  rfl

/-- A row-tiled input block at point `t`: its element `(p, l)` is the array's element `(20000 t + p, l)`. -/
theorem tile6_0_apply (c : Dev nD) (t : Fin cfg6.N) (p : Fin 20000) (l : Fin 64) (r : Fin 100000)
    (hr : r.val = t.val * 20000 + p.val) :
    (iblk6 V c 0 t : Vec Ideal S20000x64 .f32) (ix2 p l) = (V c main_v40 : Cert.Spec.Mat 100000 64) (ix2 r l) := by
  obtain ⟨a00, a01, -⟩ := idx_facts6 t
  unfold iblk6
  rw [View.read_apply]
  show V c main_v40 _ = V c main_v40 _
  congr 1
  funext a
  apply Fin.ext
  match a with
  | ⟨0, _⟩ => show win6_0.index t (0 : Fin 2) * 20000 + 1 * p.val = r.val; rw [a00, hr]; omega
  | ⟨1, _⟩ => show win6_0.index t (1 : Fin 2) * 64 + 1 * l.val = l.val; rw [a01]; omega

theorem tile6_1_apply (c : Dev nD) (t : Fin cfg6.N) (p : Fin 20000) (l : Fin 64) (r : Fin 100000)
    (hr : r.val = t.val * 20000 + p.val) :
    (iblk6 V c 1 t : Vec Ideal S20000x64 .f32) (ix2 p l) = (V c main_v35 : Cert.Spec.Mat 100000 64) (ix2 r l) := by
  obtain ⟨-, -, a10, a11, -⟩ := idx_facts6 t
  unfold iblk6
  rw [View.read_apply]
  show V c main_v35 _ = V c main_v35 _
  congr 1
  funext a
  apply Fin.ext
  match a with
  | ⟨0, _⟩ => show win6_1.index t (0 : Fin 2) * 20000 + 1 * p.val = r.val; rw [a10, hr]; omega
  | ⟨1, _⟩ => show win6_1.index t (1 : Fin 2) * 64 + 1 * l.val = l.val; rw [a11]; omega

/-- The weight and bias windows hold their whole arrays at every point: block 0 of an array of one block. -/
theorem whole6_2 (c : Dev nD) (t : Fin cfg6.N) : (iblk6 V c 2 t : Vec Ideal S64x64 .f32) = V c main_v42 := by
  obtain ⟨-, -, -, -, a20, a21, -⟩ := idx_facts6 t
  funext y
  unfold iblk6
  rw [View.read_apply]
  show V c main_v42 _ = V c main_v42 _
  congr 1
  funext a
  apply Fin.ext
  match a with
  | ⟨0, _⟩ => show win6_2.index t (0 : Fin 2) * 64 + 1 * (y 0).val = (y 0).val; rw [a20]; omega
  | ⟨1, _⟩ => show win6_2.index t (1 : Fin 2) * 64 + 1 * (y 1).val = (y 1).val; rw [a21]; omega

theorem whole6_3 (c : Dev nD) (t : Fin cfg6.N) : (iblk6 V c 3 t : Vec Ideal S64 .f32) = V c main_v44 := by
  obtain ⟨-, -, -, -, -, -, a30, -⟩ := idx_facts6 t
  funext y
  unfold iblk6
  rw [View.read_apply]
  show V c main_v44 _ = V c main_v44 _
  congr 1
  funext a
  apply Fin.ext
  match a with
  | ⟨0, _⟩ => show win6_3.index t (0 : Fin 1) * 64 + 1 * (y 0).val = (y 0).val; rw [a30]; omega

theorem whole6_4 (c : Dev nD) (t : Fin cfg6.N) : (iblk6 V c 4 t : Vec Ideal S64x64 .f32) = V c main_v46 := by
  obtain ⟨-, -, -, -, -, -, -, a40, a41, -⟩ := idx_facts6 t
  funext y
  unfold iblk6
  rw [View.read_apply]
  show V c main_v46 _ = V c main_v46 _
  congr 1
  funext a
  apply Fin.ext
  match a with
  | ⟨0, _⟩ => show win6_4.index t (0 : Fin 2) * 64 + 1 * (y 0).val = (y 0).val; rw [a40]; omega
  | ⟨1, _⟩ => show win6_4.index t (1 : Fin 2) * 64 + 1 * (y 1).val = (y 1).val; rw [a41]; omega

theorem whole6_5 (c : Dev nD) (t : Fin cfg6.N) : (iblk6 V c 5 t : Vec Ideal S64 .f32) = V c main_v48 := by
  obtain ⟨-, -, -, -, -, -, -, -, -, a50, -⟩ := idx_facts6 t
  funext y
  unfold iblk6
  rw [View.read_apply]
  show V c main_v48 _ = V c main_v48 _
  congr 1
  funext a
  apply Fin.ext
  match a with
  | ⟨0, _⟩ => show win6_5.index t (0 : Fin 1) * 64 + 1 * (y 0).val = (y 0).val; rw [a50]; omega

/-- The specification's combine of the arrays the region finds. -/
abbrev G6 (c : Dev nD) : Cert.Spec.Mat 100000 64 :=
  Cert.Spec.comb false (V c main_v40) (V c main_v35) (V c main_v42) (V c main_v44) (V c main_v46) (V c main_v48)

/-- What point `t` writes back is row block `t` of the specification's combine of the arrays the region finds. -/
theorem flushed6_eq (c : Dev nD) (t : Fin cfg6.N) :
    (dat6 (F := Ideal) V c).flushed 6 t = ((cfg6.win 6).blk t).view.read (Elt Ideal) (G6 V c) := by
  show (cfg6.win 6).cut (grid6.coords t) ((dat6 V c).after 6 t) = _
  rw [after6_6, whole6_2, whole6_3, whole6_4, whole6_5]
  have ht : t.val < 5 := lt_of_lt_of_eq t.isLt N_6
  obtain ⟨-, -, -, -, -, -, -, -, -, -, a60, a61⟩ := idx_facts6 t
  funext y
  obtain ⟨p, j, rfl⟩ : ∃ (p : Fin 20000) (j : Fin 64), y = ix2 p j := ⟨y 0, y 1, eq_ix2 y⟩
  have hp : p.val < 20000 := p.isLt
  rw [View.read_apply]
  have hemb : ((cfg6.win 6).blk t).view.emb (ix2 p j) = ix2 (⟨t.val * 20000 + p.val, by omega⟩ : Fin 100000) j := by
    funext a
    apply Fin.ext
    match a with
    | ⟨0, _⟩ => show win6_6.index t (0 : Fin 2) * 20000 + 1 * p.val = t.val * 20000 + p.val; rw [a60]; omega
    | ⟨1, _⟩ => show win6_6.index t (1 : Fin 2) * 64 + 1 * j.val = j.val; rw [a61]; omega
  rw [hemb]
  exact comb_at6 _ _ _ _ _ _ (V c main_v40) (V c main_v35) p j ⟨t.val * 20000 + p.val, by omega⟩
    (fun l => tile6_0_apply V c t p l _ rfl) (fun l => tile6_1_apply V c t p l _ rfl)

/-- An index of the array is in point `t`'s block iff each coordinate is in the block's range on its axis. -/
theorem mem_blk6 (t : Fin cfg6.N) (i : S100000x64.Idx) :
    i ∈ ((cfg6.win 6).blk t).view.set ↔ ∀ a : Fin 2, win6_6.index t a * S20000x64.size a ≤ (i a).val ∧ (i a).val < win6_6.index t a * S20000x64.size a + S20000x64.size a := by
  show i ∈ ((View.whole main_v49).slice (win6_6.rect t)).set ↔ _
  rw [View.set_slice_whole, Rect.mem_set_unit]
  exact Iff.rfl

/-- Every row of the array is in the block of the point numbered by the row's quotient by the block height. -/
theorem cover6 (i : S100000x64.Idx) : ∃ t : Fin cfg6.N, (cfg6.win 6).flush t = true ∧ i ∈ ((cfg6.win 6).blk t).view.set := by
  have hi0 : (i 0).val < 100000 := (i 0).isLt
  have hi1 : (i 1).val < 64 := (i 1).isLt
  let t : Fin cfg6.N := ⟨(i 0).val / 20000, lt_of_lt_of_eq (by omega) N_6.symm⟩
  have htv : t.val = (i 0).val / 20000 := rfl
  obtain ⟨-, -, -, -, -, -, -, -, -, -, a60, a61⟩ := idx_facts6 t
  refine ⟨t, flush6_6 t, ?_⟩
  rw [mem_blk6]
  intro a
  match a with
  | ⟨0, _⟩ => show win6_6.index t (0 : Fin 2) * 20000 ≤ (i 0).val ∧ (i 0).val < win6_6.index t (0 : Fin 2) * 20000 + 20000; rw [a60, htv]; omega
  | ⟨1, _⟩ => show win6_6.index t (1 : Fin 2) * 64 ≤ (i 1).val ∧ (i 1).val < win6_6.index t (1 : Fin 2) * 64 + 64; rw [a61]; omega

/-- The output array of the third combine region after all its grid points: the specification's combine (with the
    final positive part) of the aggregated messages, the node rows, the two weight matrices and the two biases as
    the region finds them. -/
theorem final6 (c : Dev nD) : (dat6 (F := Ideal) V c).arrAt 6 cfg6.N = Cert.Spec.comb false (V c main_v40) (V c main_v35) (V c main_v42) (V c main_v44) (V c main_v46) (V c main_v48) :=
  (dat6 (F := Ideal) V c).arrAt_eq_of_cover 6 (G6 V c) (fun t _ => flushed6_eq V c t) cover6

end Cert.KernelIdeal.Final

end
-- ==== Proof.KernelLayer3.lean ====
/-
  One message-passing layer of the kernel's run, read as values: the stretch that gathers each edge's source row,
  the region that forms the messages, the stretch that adds them into their destination nodes and cuts the layer's
  weights out of the stacked arrays, and the region that updates the node rows.
-/
import proofs.«405070_j12309376270692_1_alg».proof.Proof.KernelBase
import proofs.«405070_j12309376270692_1_alg».proof.Proof.Final5
import proofs.«405070_j12309376270692_1_alg».proof.Proof.Final6

noncomputable section

open Idealize.ShloMosaic Idealize.ShloMosaic.TcCoe Idealize.SL.Sem Idealize.ShloMosaic.StableHlo Idealize.ShloMosaic.ValueIdx
open Cert.KernelIdeal Cert.KernelIdeal.Gen

namespace Cert.KernelIdeal.KValue

open Cert.KernelIdeal.Final Cert.KernelIdeal.Take

variable (m : (ℓ : Loc nD τ sig) → Buf (Elt Ideal) ℓ) (ρ : Dev nD → PrngReg) (c : Dev nD)

/-! ## Layer 3: the stretch that gathers, the message region, the stretch that aggregates, the combine region -/

theorem keep13 : ∀ b ∈ [main_v1, main_v3, main_arg2, main_arg9, main_arg10, main_arg11, main_arg12], W13 m ρ c (Proc.devRef .tc b) = W12 m ρ c (Proc.devRef .tc b) := fun b hb => by
  show StableHlo.after hostOps5 (W12 m ρ c) (Proc.devRef .tc b) = _
  fin_cases hb <;> after_results
theorem keep14 : ∀ b ∈ [main_v1, main_v3, main_arg2, main_arg9, main_arg10, main_arg11, main_arg12], W14 m ρ c (Proc.devRef .tc b) = W13 m ρ c (Proc.devRef .tc b) := fun b hb => by
  fin_cases hb <;> first
    | exact W14_of_ne m ρ c _ (by decide)
    | exact (W14_arr m ρ c 1).trans (((dat5 (V13 m ρ) c).arrAt_in 1 rfl _).trans (A_eq5 (V13 m ρ) c 1))
theorem keep15 : ∀ b ∈ [main_v1, main_v3, main_arg2, main_arg9, main_arg10, main_arg11, main_arg12], W15 m ρ c (Proc.devRef .tc b) = W14 m ρ c (Proc.devRef .tc b) := fun b hb => by
  show StableHlo.after hostOps6 (W14 m ρ c) (Proc.devRef .tc b) = _
  fin_cases hb <;> after_results
theorem keep16 : ∀ b ∈ [main_v1, main_v3, main_arg2, main_arg9, main_arg10, main_arg11, main_arg12], W16 m ρ c (Proc.devRef .tc b) = W15 m ρ c (Proc.devRef .tc b) := fun b hb => by
  fin_cases hb <;> exact W16_of_ne m ρ c _ (by decide)

/-- The node rows the layer starts from are still in their buffer when the combine region is entered. -/
theorem W15_rows : W15 m ρ c (Proc.devRef .tc main_v35) = W12 m ρ c (Proc.devRef .tc main_v35) :=
  (show StableHlo.after hostOps6 (W14 m ρ c) (Proc.devRef .tc main_v35) = W14 m ρ c (Proc.devRef .tc main_v35) by after_results).trans
    ((W14_of_ne m ρ c main_v35 (by decide)).trans
      (show StableHlo.after hostOps5 (W12 m ρ c) (Proc.devRef .tc main_v35) = W12 m ρ c (Proc.devRef .tc main_v35) by after_results))

/-- The layer's result. -/
theorem W16_rows (hs : ∀ i, 0 ≤ (srcIdx m c i).toInt ∧ (srcIdx m c i).toInt < 100000) (hI : Inv m c (W12 m ρ c))
    (hh : W12 m ρ c (Proc.devRef .tc main_v35) = h2 m c) : W16 m ρ c (Proc.devRef .tc main_v49) = h3 m c := by
  have I1 := hI.of_keep m c (keep13 m ρ c)
  have I2 := I1.of_keep m c (keep14 m ρ c)
  have I3 := I2.of_keep m c (keep15 m ρ c)
  -- the gathered rows
  have e_take : W13 m ρ c (Proc.devRef .tc main_v36) = gatherSrc m c (h2 m c) := by
    refine (take_src3 (W12 m ρ c) (by rw [hI.src]; exact hs)).trans ?_
    rw [hI.src, hh]; rfl
  -- the messages
  have e_msg : W14 m ρ c (Proc.devRef .tc main_v37) = Cert.Spec.msg (gatherSrc m c (h2 m c)) (m ((c : Thread nD τ).loc main_arg2)) := by
    refine (W14_arr m ρ c 2).trans ((final5 (V13 m ρ) c).trans ?_)
    show Cert.Spec.msg (W13 m ρ c (Proc.devRef .tc main_v36)) (W13 m ρ c (Proc.devRef .tc main_arg2)) = _
    rw [e_take, I1.ea]
  -- the aggregated messages
  have e_agg : W15 m ρ c (Proc.devRef .tc main_v40) = scatterDst m c (Cert.Spec.msg (gatherSrc m c (h2 m c)) (m ((c : Thread nD τ).loc main_arg2))) := by
    have e : W15 m ρ c (Proc.devRef .tc main_v40) = Host.scatterAdd (F := Ideal) scatter_S100000x64_S1600000x1_S1600000x64_1_0_0_1
        (broadcastInDim S100000x64 ![] bcast_S_S100000x64 (constant S_ .f32 0x00000000#32))
        (broadcastInDim S1600000x1 ![0] bcast_S1600000_S1600000x1_0 (W14 m ρ c (Proc.devRef .tc main_v3))) (W14 m ρ c (Proc.devRef .tc main_v37)) := by
      show StableHlo.after hostOps6 (W14 m ρ c) (Proc.devRef .tc main_v40) = _
      after_results
    rw [e, I2.dst, e_msg]; rfl
  -- the layer's weights
  have e_w1 : W15 m ρ c (Proc.devRef .tc main_v42) = convW1_2 m c := by
    have e : W15 m ρ c (Proc.devRef .tc main_v42) = shapeCast S64x64 (extractStridedSlice S1x64x64 ![2, 0, 0] (W14 m ρ c (Proc.devRef .tc main_arg9)) slices_S3x64x64_S1x64x64_2_0_0) shapeCasts_S1x64x64_S64x64 := by
      show StableHlo.after hostOps6 (W14 m ρ c) (Proc.devRef .tc main_v42) = _
      after_results; rfl
    rw [e, I2.w1]; rfl
  have e_b1 : W15 m ρ c (Proc.devRef .tc main_v44) = convB1_2 m c := by
    have e : W15 m ρ c (Proc.devRef .tc main_v44) = shapeCast S64 (extractStridedSlice S1x64 ![2, 0] (W14 m ρ c (Proc.devRef .tc main_arg10)) slices_S3x64_S1x64_2_0) shapeCasts_S1x64_S64 := by
      show StableHlo.after hostOps6 (W14 m ρ c) (Proc.devRef .tc main_v44) = _
      after_results; rfl
    rw [e, I2.b1]; rfl
  have e_w2 : W15 m ρ c (Proc.devRef .tc main_v46) = convW2_2 m c := by
    have e : W15 m ρ c (Proc.devRef .tc main_v46) = shapeCast S64x64 (extractStridedSlice S1x64x64 ![2, 0, 0] (W14 m ρ c (Proc.devRef .tc main_arg11)) slices_S3x64x64_S1x64x64_2_0_0) shapeCasts_S1x64x64_S64x64 := by
      show StableHlo.after hostOps6 (W14 m ρ c) (Proc.devRef .tc main_v46) = _
      after_results; rfl
    rw [e, I2.w2]; rfl
  have e_b2 : W15 m ρ c (Proc.devRef .tc main_v48) = convB2_2 m c := by
    have e : W15 m ρ c (Proc.devRef .tc main_v48) = shapeCast S64 (extractStridedSlice S1x64 ![2, 0] (W14 m ρ c (Proc.devRef .tc main_arg12)) slices_S3x64_S1x64_2_0) shapeCasts_S1x64_S64 := by
      show StableHlo.after hostOps6 (W14 m ρ c) (Proc.devRef .tc main_v48) = _
      after_results; rfl
    rw [e, I2.b2]; rfl
  -- the combine region
  refine (W16_arr m ρ c 6).trans ((final6 (V15 m ρ) c).trans ?_)
  show Cert.Spec.comb false (W15 m ρ c (Proc.devRef .tc main_v40)) (W15 m ρ c (Proc.devRef .tc main_v35)) (W15 m ρ c (Proc.devRef .tc main_v42)) (W15 m ρ c (Proc.devRef .tc main_v44)) (W15 m ρ c (Proc.devRef .tc main_v46)) (W15 m ρ c (Proc.devRef .tc main_v48)) = _
  rw [e_agg, W15_rows, hh, e_w1, e_b1, e_w2, e_b2]; rfl

end Cert.KernelIdeal.KValue

end
-- ==== Proof.KernelValue.lean ====
/-
  The kernel's result: the buffer the last region writes holds three message-passing layers over the initial node
  rows, the last without the final positive part.
-/
import proofs.«405070_j12309376270692_1_alg».proof.Proof.KernelLayer1
import proofs.«405070_j12309376270692_1_alg».proof.Proof.KernelLayer2
import proofs.«405070_j12309376270692_1_alg».proof.Proof.KernelLayer3

noncomputable section

open Idealize.ShloMosaic Idealize.ShloMosaic.TcCoe Idealize.SL.Sem Idealize.ShloMosaic.StableHlo Idealize.ShloMosaic.ValueIdx
open Cert.KernelIdeal Cert.KernelIdeal.Gen

namespace Cert.KernelIdeal.KValue

variable (m : (ℓ : Loc nD τ sig) → Buf (Elt Ideal) ℓ) (ρ : Dev nD → PrngReg) (c : Dev nD)

/-! ## The result -/

/-- The result's buffer after the last region: three layers over the initial node rows. -/
theorem W16_result (hz : ∀ i, 0 ≤ ((m ((c : Thread nD τ).loc main_arg0)) i).toInt ∧ ((m ((c : Thread nD τ).loc main_arg0)) i).toInt < 100)
    (hs : ∀ i, 0 ≤ (srcIdx m c i).toInt ∧ (srcIdx m c i).toInt < 100000) :
    W16 m ρ c (Proc.devRef .tc main_v49) = h3 m c := by
  have I4 := inv4 m ρ c
  have r4 := W4_rows m ρ c hz
  have I8 := (((I4.of_keep m c (keep5 m ρ c)).of_keep m c (keep6 m ρ c)).of_keep m c (keep7 m ρ c)).of_keep m c (keep8 m ρ c)
  have r8 := W8_rows m ρ c hs I4 r4
  have I12 := (((I8.of_keep m c (keep9 m ρ c)).of_keep m c (keep10 m ρ c)).of_keep m c (keep11 m ρ c)).of_keep m c (keep12 m ρ c)
  have r12 := W12_rows m ρ c hs I8 r8
  exact W16_rows m ρ c hs I12 r12

end Cert.KernelIdeal.KValue

end
-- ==== Proof.RefStages.lean ====
/-
  The reference's stages are the specification's functions.

  The reference computes the initial node rows by a two-layer perceptron over the concatenated node features, and then
  three times: the messages (the positive part of the gathered rows plus the edge attributes) and the update of the node
  rows (the perceptron of the aggregated messages plus the rows, its positive part except in the last layer, plus the
  rows again). Each of these seven values, read entry by entry, is the specification's perceptron, message or update of
  the operands it is computed from. The gather, the scatter-add, the concatenation, the slices and the reshapes stay
  closed: they are the operands.

  One statement per kind of stage is proved over arbitrary operands: a product of matrices read at an entry is a sum
  over the contracted axis, a bias vector spread over the rows reads as the vector, the zero splat reads as zero. The
  seven stages are instances.
-/
import proofs.«405070_j12309376270692_1_alg».proof.Proof.Gen.ReferenceIdeal.Read
import proofs.«405070_j12309376270692_1_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem Idealize.ShloMosaic.StableHlo

/-! ## The host operations at an index, over arbitrary operands -/

/-- A product of an N × 65 matrix by a 65 × 64 matrix: entry (n, j) is the sum over k of x (n, k) * w (k, j). -/
theorem dot65_apply (x : FVec Ideal S100000x65 .f32) (w : FVec Ideal S65x64 .f32)
    (n : Fin 100000) (j : Fin 64) :
    Host.dotGeneral (F := Ideal) dot_S100000x65_S65x64_S100000x64_1_0_0_1_n_n none x w (ix2 n j)
      = ∑ k : Fin 65, x (ix2 n k) * w (ix2 k j) := by
  simp only [Host.dotGeneral]
  rw [Ideal.dotGeneral_apply, ← Equiv.sum_comp (ValueIdx.contrEquiv1 dot_S100000x65_S65x64_S100000x64_1_0_0_1_n_n 65 rfl rfl).symm]
  refine Finset.sum_congr rfl fun k _ => ?_
  have hk := ValueIdx.contrEquiv1_symm_val dot_S100000x65_S65x64_S100000x64_1_0_0_1_n_n 65 rfl rfl k
  have el : dot_S100000x65_S65x64_S100000x64_1_0_0_1_n_n.lhsIdx (ix2 n j) ((ValueIdx.contrEquiv1 dot_S100000x65_S65x64_S100000x64_1_0_0_1_n_n 65 rfl rfl).symm k) = ix2 n k := funext fun a => Fin.ext (by
    match a with
    | ⟨0, _⟩ => exact lhs_main_v13_0 _ _
    | ⟨1, _⟩ => exact (lhs_main_v13_1 _ _).trans hk)
  have er : dot_S100000x65_S65x64_S100000x64_1_0_0_1_n_n.rhsIdx (ix2 n j) ((ValueIdx.contrEquiv1 dot_S100000x65_S65x64_S100000x64_1_0_0_1_n_n 65 rfl rfl).symm k) = ix2 k j := funext fun a => Fin.ext (by
    match a with
    | ⟨0, _⟩ => exact (rhs_main_v13_0 _ _).trans hk
    | ⟨1, _⟩ => exact rhs_main_v13_1 _ _)
  rw [el, er]

/-- A product of an N × 64 matrix by a 64 × 64 matrix: entry (n, j) is the sum over k of x (n, k) * w (k, j). -/
theorem dot64_apply (x : FVec Ideal S100000x64 .f32) (w : FVec Ideal S64x64 .f32)
    (n : Fin 100000) (j : Fin 64) :
    Host.dotGeneral (F := Ideal) dot_S100000x64_S64x64_S100000x64_1_0_0_1_n_n none x w (ix2 n j)
      = ∑ k : Fin 64, x (ix2 n k) * w (ix2 k j) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 n j) ((ValueIdx.contrEquiv1 dot_S100000x64_S64x64_S100000x64_1_0_0_1_n_n 64 rfl rfl).symm k) = ix2 n k := funext fun a => Fin.ext (by
    match a with
    | ⟨0, _⟩ => exact lhs_main_v18_0 _ _
    | ⟨1, _⟩ => exact (lhs_main_v18_1 _ _).trans hk)
  have er : dot_S100000x64_S64x64_S100000x64_1_0_0_1_n_n.rhsIdx (ix2 n j) ((ValueIdx.contrEquiv1 dot_S100000x64_S64x64_S100000x64_1_0_0_1_n_n 64 rfl rfl).symm k) = ix2 k j := funext fun a => Fin.ext (by
    match a with
    | ⟨0, _⟩ => exact (rhs_main_v18_0 _ _).trans hk
    | ⟨1, _⟩ => exact rhs_main_v18_1 _ _)
  rw [el, er]

/-- A bias vector spread over the node rows. -/
abbrev biasN (b : FVec Ideal S64 .f32) : FVec Ideal S100000x64 .f32 :=
  broadcastInDim S100000x64 ![0, 1] bcast_S1x64_S100000x64_0_1 (broadcastInDim S1x64 ![1] bcast_S64_S1x64_1 b)

/-- The zero splat over the node rows. -/
abbrev zeroN : FVec Ideal S100000x64 .f32 :=
  broadcastInDim S100000x64 ![] bcast_S_S100000x64 (constant (F := Ideal) S_ .f32 0x00000000#32)

/-- The zero splat over the edge rows. -/
abbrev zeroE : FVec Ideal S1600000x64 .f32 :=
  broadcastInDim S1600000x64 ![] bcast_S_S1600000x64 (constant (F := Ideal) S_ .f32 0x00000000#32)

/-- A bias vector spread over the rows: entry (n, j) is b j. -/
theorem bias_apply (b : FVec Ideal S64 .f32) (n : Fin 100000) (j : Fin 64) :
    biasN b (ix2 n j) = b (ix1 j) := by
  unfold biasN
  rw [broadcastInDim_apply _ bcast_S1x64_S100000x64_0_1 _ (ix2 n j) (ix2 (0 : Fin 1) j) (fun a => match a with
    | ⟨0, _⟩ => by show 0 = if (1 : Nat) = 1 then 0 else n.val; rw [if_pos rfl]
    | ⟨1, _⟩ => by show j.val = if (64 : Nat) = 1 then 0 else j.val; rw [if_neg (by decide)])]
  exact broadcastInDim_apply _ bcast_S64_S1x64_1 b (ix2 (0 : Fin 1) j) (ix1 j) (fun a => match a with
    | ⟨0, _⟩ => by show j.val = if (64 : Nat) = 1 then 0 else j.val; rw [if_neg (by decide)])

/-- The zero splat over the node rows. -/
theorem zeroN_apply (i : S100000x64.Idx) :
    zeroN i = (0 : EReal) := by
  unfold zeroN
  rw [broadcastInDim_apply _ bcast_S_S100000x64 _ i (fun a => a.elim0) (fun a => a.elim0)]
  exact Ideal.ofBits_zero_f32

/-- The zero splat over the edge rows. -/
theorem zeroE_apply (i : S1600000x64.Idx) :
    zeroE i = (0 : EReal) := by
  unfold zeroE
  rw [broadcastInDim_apply _ bcast_S_S1600000x64 _ i (fun a => a.elim0) (fun a => a.elim0)]
  exact Ideal.ofBits_zero_f32

/-! ## The three kinds of stage, over arbitrary operands -/

/-- The first dense layer followed by the positive part, on 65 columns, at an entry. -/
theorem hidden65_apply (x : FVec Ideal S100000x65 .f32) (w1 : FVec Ideal S65x64 .f32) (b1 : FVec Ideal S64 .f32)
    (n : Fin 100000) (k : Fin 64) :
    maximumf (addf (Host.dotGeneral (F := Ideal) dot_S100000x65_S65x64_S100000x64_1_0_0_1_n_n none x w1) (biasN b1)) zeroN (ix2 n k)
      = Cert.Spec.relu (Cert.Spec.dense (fun l => x (ix2 n l)) w1 b1 k) := by
  rw [maximumf_apply, addf_apply, dot65_apply, bias_apply, zeroN_apply]
  rfl

/-- The first dense layer followed by the positive part, on 64 columns, at an entry. -/
theorem hidden64_apply (x : FVec Ideal S100000x64 .f32) (w1 : FVec Ideal S64x64 .f32) (b1 : FVec Ideal S64 .f32)
    (n : Fin 100000) (k : Fin 64) :
    maximumf (addf (Host.dotGeneral (F := Ideal) dot_S100000x64_S64x64_S100000x64_1_0_0_1_n_n none x w1) (biasN b1)) zeroN (ix2 n k)
      = Cert.Spec.relu (Cert.Spec.dense (fun l => x (ix2 n l)) w1 b1 k) := by
  rw [maximumf_apply, addf_apply, dot64_apply, bias_apply, zeroN_apply]
  rfl

/-- The two-layer perceptron on 65 columns, at an entry. -/
theorem mlp65_apply (x : FVec Ideal S100000x65 .f32) (w1 : FVec Ideal S65x64 .f32) (b1 : FVec Ideal S64 .f32)
    (w2 : FVec Ideal S64x64 .f32) (b2 : FVec Ideal S64 .f32) (n : Fin 100000) (j : Fin 64) :
    addf (Host.dotGeneral (F := Ideal) dot_S100000x64_S64x64_S100000x64_1_0_0_1_n_n none
        (maximumf (addf (Host.dotGeneral (F := Ideal) dot_S100000x65_S65x64_S100000x64_1_0_0_1_n_n none x w1) (biasN b1)) zeroN) w2)
      (biasN b2) (ix2 n j)
      = Cert.Spec.mlpRow (fun l => x (ix2 n l)) w1 b1 w2 b2 j := by
  rw [addf_apply, dot64_apply, bias_apply]
  unfold Cert.Spec.mlpRow
  rw [Cert.Spec.dense]
  refine congrArg (· + b2 (ix1 j)) (Finset.sum_congr rfl fun k _ => ?_)
  rw [hidden65_apply]

/-- The two-layer perceptron on 64 columns, at an entry. -/
theorem mlp64_apply (x : FVec Ideal S100000x64 .f32) (w1 : FVec Ideal S64x64 .f32) (b1 : FVec Ideal S64 .f32)
    (w2 : FVec Ideal S64x64 .f32) (b2 : FVec Ideal S64 .f32) (n : Fin 100000) (j : Fin 64) :
    addf (Host.dotGeneral (F := Ideal) dot_S100000x64_S64x64_S100000x64_1_0_0_1_n_n none
        (maximumf (addf (Host.dotGeneral (F := Ideal) dot_S100000x64_S64x64_S100000x64_1_0_0_1_n_n none x w1) (biasN b1)) zeroN) w2)
      (biasN b2) (ix2 n j)
      = Cert.Spec.mlpRow (fun l => x (ix2 n l)) w1 b1 w2 b2 j := by
  rw [addf_apply, dot64_apply, bias_apply]
  unfold Cert.Spec.mlpRow
  rw [Cert.Spec.dense]
  refine congrArg (· + b2 (ix1 j)) (Finset.sum_congr rfl fun k _ => ?_)
  rw [hidden64_apply]

/-- The host's perceptron over the concatenated node features is the specification's. -/
theorem mlp_host (x : FVec Ideal S100000x65 .f32) (w1 : FVec Ideal S65x64 .f32) (b1 : FVec Ideal S64 .f32)
    (w2 : FVec Ideal S64x64 .f32) (b2 : FVec Ideal S64 .f32) :
    addf (Host.dotGeneral (F := Ideal) dot_S100000x64_S64x64_S100000x64_1_0_0_1_n_n none
        (maximumf (addf (Host.dotGeneral (F := Ideal) dot_S100000x65_S65x64_S100000x64_1_0_0_1_n_n none x w1) (biasN b1)) zeroN) w2)
      (biasN b2)
      = Cert.Spec.mlp x w1 b1 w2 b2 := by
  funext i
  obtain ⟨n, j, rfl⟩ : ∃ (n : Fin 100000) (j : Fin 64), i = ix2 n j := ⟨i 0, i 1, eq_ix2 i⟩
  rw [mlp65_apply]
  rfl

/-- The host's messages are the specification's. -/
theorem msg_host (g ea : FVec Ideal S1600000x64 .f32) :
    maximumf (addf g ea) zeroE = Cert.Spec.msg g ea := by
  funext i
  rw [maximumf_apply, addf_apply, zeroE_apply]
  rfl

/-- The host's update of the node rows with the positive part is the specification's. -/
theorem comb_host_relu (agg h : FVec Ideal S100000x64 .f32) (w1 : FVec Ideal S64x64 .f32) (b1 : FVec Ideal S64 .f32)
    (w2 : FVec Ideal S64x64 .f32) (b2 : FVec Ideal S64 .f32) :
    addf (maximumf (addf (Host.dotGeneral (F := Ideal) dot_S100000x64_S64x64_S100000x64_1_0_0_1_n_n none
        (maximumf (addf (Host.dotGeneral (F := Ideal) dot_S100000x64_S64x64_S100000x64_1_0_0_1_n_n none (addf agg h) w1) (biasN b1)) zeroN) w2)
      (biasN b2)) zeroN) h
      = Cert.Spec.comb true agg h w1 b1 w2 b2 := by
  funext i
  obtain ⟨n, j, rfl⟩ : ∃ (n : Fin 100000) (j : Fin 64), i = ix2 n j := ⟨i 0, i 1, eq_ix2 i⟩
  rw [addf_apply, maximumf_apply, mlp64_apply, zeroN_apply]
  rfl

/-- The host's update of the node rows without the positive part is the specification's. -/
theorem comb_host_last (agg h : FVec Ideal S100000x64 .f32) (w1 : FVec Ideal S64x64 .f32) (b1 : FVec Ideal S64 .f32)
    (w2 : FVec Ideal S64x64 .f32) (b2 : FVec Ideal S64 .f32) :
    addf (addf (Host.dotGeneral (F := Ideal) dot_S100000x64_S64x64_S100000x64_1_0_0_1_n_n none
        (maximumf (addf (Host.dotGeneral (F := Ideal) dot_S100000x64_S64x64_S100000x64_1_0_0_1_n_n none (addf agg h) w1) (biasN b1)) zeroN) w2)
      (biasN b2)) h
      = Cert.Spec.comb false agg h w1 b1 w2 b2 := by
  funext i
  obtain ⟨n, j, rfl⟩ : ∃ (n : Fin 100000) (j : Fin 64), i = ix2 n j := ⟨i 0, i 1, eq_ix2 i⟩
  rw [addf_apply, mlp64_apply]
  rfl

/-! ## The reference's seven stages -/

/-- The reference's initial node rows are the specification's perceptron of the concatenated node features. -/
theorem h0_eq (x0 : (⟨S100000, .i32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v21 (F := Ideal) x0 x3 x4 x5 x6 x7 x8 = Cert.Spec.mlp (val_main_v12 (F := Ideal) x0 x3 x4) x5 x6 x7 x8 := by
  unfold val_main_v21 val_main_v20 val_main_v19 val_main_v18 val_main_v17 val_main_call0_v0 val_main_call0_cst val_main_v16 val_main_v15 val_main_v14 val_main_v13
  exact mlp_host _ _ _ _ _

/-- Layer 1: the reference's messages are the specification's, from the gathered rows and the edge attributes. -/
theorem msg1_eq (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v30 (F := Ideal) x0 x1 x2 x3 x4 x5 x6 x7 x8 = Cert.Spec.msg (val_main_v28 (F := Ideal) x0 x1 x3 x4 x5 x6 x7 x8) x2 := by
  unfold val_main_v30 val_main_call1_v0 val_main_call1_cst val_main_v29
  exact msg_host _ _

/-- Layer 1: the reference's new node rows are the specification's update of the old ones by the aggregated messages. -/
theorem h1_eq (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) :
    val_main_v53 (F := Ideal) x0 x1 x2 x3 x4 x5 x6 x7 x8 x9 x10 x11 x12 = Cert.Spec.comb true (val_main_v33 (F := Ideal) x0 x1 x2 x3 x4 x5 x6 x7 x8) (val_main_v21 (F := Ideal) x0 x3 x4 x5 x6 x7 x8) (val_main_v36 (F := Ideal) x9) (val_main_v39 (F := Ideal) x10) (val_main_v45 (F := Ideal) x11) (val_main_v48 (F := Ideal) x12) := by
  unfold val_main_v53 val_main_v52 val_main_call3_v0 val_main_call3_cst val_main_v51 val_main_v50 val_main_v49 val_main_v46 val_main_v43 val_main_call2_v0 val_main_call2_cst val_main_v42 val_main_v41 val_main_v40 val_main_v37 val_main_v34
  exact comb_host_relu _ _ _ _ _ _

/-- Layer 2: the reference's messages are the specification's, from the gathered rows and the edge attributes. -/
theorem msg2_eq (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) :
    val_main_v62 (F := Ideal) x0 x1 x2 x3 x4 x5 x6 x7 x8 x9 x10 x11 x12 = Cert.Spec.msg (val_main_v60 (F := Ideal) x0 x1 x2 x3 x4 x5 x6 x7 x8 x9 x10 x11 x12) x2 := by
  unfold val_main_v62 val_main_call4_v0 val_main_call4_cst val_main_v61
  exact msg_host _ _

/-- Layer 2: the reference's new node rows are the specification's update of the old ones by the aggregated messages. -/
theorem h2_eq (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) :
    val_main_v85 (F := Ideal) x0 x1 x2 x3 x4 x5 x6 x7 x8 x9 x10 x11 x12 = Cert.Spec.comb true (val_main_v65 (F := Ideal) x0 x1 x2 x3 x4 x5 x6 x7 x8 x9 x10 x11 x12) (val_main_v53 (F := Ideal) x0 x1 x2 x3 x4 x5 x6 x7 x8 x9 x10 x11 x12) (val_main_v68 (F := Ideal) x9) (val_main_v71 (F := Ideal) x10) (val_main_v77 (F := Ideal) x11) (val_main_v80 (F := Ideal) x12) := by
  unfold val_main_v85 val_main_v84 val_main_call6_v0 val_main_call6_cst val_main_v83 val_main_v82 val_main_v81 val_main_v78 val_main_v75 val_main_call5_v0 val_main_call5_cst val_main_v74 val_main_v73 val_main_v72 val_main_v69 val_main_v66
  exact comb_host_relu _ _ _ _ _ _

/-- Layer 3: the reference's messages are the specification's, from the gathered rows and the edge attributes. -/
theorem msg3_eq (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) :
    val_main_v94 (F := Ideal) x0 x1 x2 x3 x4 x5 x6 x7 x8 x9 x10 x11 x12 = Cert.Spec.msg (val_main_v92 (F := Ideal) x0 x1 x2 x3 x4 x5 x6 x7 x8 x9 x10 x11 x12) x2 := by
  unfold val_main_v94 val_main_call7_v0 val_main_call7_cst val_main_v93
  exact msg_host _ _

/-- Layer 3: the reference's new node rows are the specification's update of the old ones by the aggregated messages. -/
theorem h3_eq (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) :
    val_main_v116 (F := Ideal) x0 x1 x2 x3 x4 x5 x6 x7 x8 x9 x10 x11 x12 = Cert.Spec.comb false (val_main_v97 (F := Ideal) x0 x1 x2 x3 x4 x5 x6 x7 x8 x9 x10 x11 x12) (val_main_v85 (F := Ideal) x0 x1 x2 x3 x4 x5 x6 x7 x8 x9 x10 x11 x12) (val_main_v100 (F := Ideal) x9) (val_main_v103 (F := Ideal) x10) (val_main_v109 (F := Ideal) x11) (val_main_v112 (F := Ideal) x12) := by
  unfold val_main_v116 val_main_v115 val_main_v114 val_main_v113 val_main_v110 val_main_v107 val_main_call8_v0 val_main_call8_cst val_main_v106 val_main_v105 val_main_v104 val_main_v101 val_main_v98
  exact comb_host_last _ _ _ _ _ _

end Cert.ReferenceIdeal.RefValue

end
-- ==== Proof.RefBase.lean ====
/-
  The reference's shared maps, operands and initial node rows.

  The edge list gives every edge a source and a destination node. Gathering the source rows out of the node rows and
  adding the edges' rows into their destination rows are the same two maps in all three layers: they depend only on the
  edge list. The initial node rows are the two-layer perceptron of the node features: the embedding row of each node's
  type joined with the node's scalar feature. An index in range is not moved by the wrap of negative indices.
-/
import proofs.«405070_j12309376270692_1_alg».proof.Proof.Gen.ReferenceIdeal.Read
import proofs.«405070_j12309376270692_1_alg».proof.Proof.Spec
import proofs.«405070_j12309376270692_1_alg».proof.Proof.RefStages
import Idealize.ShloMosaic.Lib.ValueIdx
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem Idealize.ShloMosaic.StableHlo

/-! ## The shared maps and operands -/

/-- Row 0 of the edge list: each edge's source node. -/
def srcIdx (x1 : (⟨S2x1600000, .i32⟩ : BufTy).Contents (Elt Ideal)) : (⟨S1600000, .i32⟩ : BufTy).Contents (Elt Ideal) :=
  shapeCast S1600000 (extractStridedSlice S1x1600000 ![0, 0] x1 slices_S2x1600000_S1x1600000_0_0) shapeCasts_S1x1600000_S1600000

/-- Row 1 of the edge list: each edge's destination node. -/
def dstIdx (x1 : (⟨S2x1600000, .i32⟩ : BufTy).Contents (Elt Ideal)) : (⟨S1600000, .i32⟩ : BufTy).Contents (Elt Ideal) :=
  shapeCast S1600000 (extractStridedSlice S1x1600000 ![1, 0] x1 slices_S2x1600000_S1x1600000_1_0) shapeCasts_S1x1600000_S1600000

/-- Every edge's source row out of the node rows. -/
def gatherSrc (x1 : (⟨S2x1600000, .i32⟩ : BufTy).Contents (Elt Ideal)) (h : Cert.Spec.Mat 100000 64) : Cert.Spec.Mat 1600000 64 :=
  Host.gather gather_S100000x64_S1600000x1_S1600000x64_1_0_n_n_0_1_164 h
    (broadcastInDim S1600000x1 ![0] bcast_S1600000_S1600000x1_0 (srcIdx x1))

/-- The edges' rows added into their destination nodes' rows, from zero. -/
def scatterDst (x1 : (⟨S2x1600000, .i32⟩ : BufTy).Contents (Elt Ideal)) (u : Cert.Spec.Mat 1600000 64) : Cert.Spec.Mat 100000 64 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (dstIdx x1)) u

/-- The node features: the embedding row of each node's type joined with the node's scalar feature. -/
def nodeIn (x0 : (⟨S100000, .i32⟩ : BufTy).Contents (Elt Ideal)) (x3 : (⟨S100000, .f32⟩ : BufTy).Contents (Elt Ideal)) (x4 : (⟨S100x64, .f32⟩ : BufTy).Contents (Elt Ideal)) : (⟨S100000x65, .f32⟩ : BufTy).Contents (Elt Ideal) :=
  concatenate S100000x65 1
    [⟨S100000x64, Host.gather gather_S100x64_S100000x1_S100000x64_1_0_n_n_0_1_164 x4
        (broadcastInDim S100000x1 ![0] bcast_S100000_S100000x1_0 x0)⟩,
     ⟨S100000x1, broadcastInDim S100000x1 ![0] bcast_S100000_S100000x1_0 x3⟩]
    concatenates_S100000x64_S100000x1_S100000x65_d1

/-- Layer 1's first weight matrix: slice 0 of the stacked weights. -/
def convW1_0 (x9 : (⟨S3x64x64, .f32⟩ : BufTy).Contents (Elt Ideal)) : (⟨S64x64, .f32⟩ : BufTy).Contents (Elt Ideal) :=
  shapeCast S64x64 (extractStridedSlice S1x64x64 ![0, 0, 0] x9 slices_S3x64x64_S1x64x64_0_0_0) shapeCasts_S1x64x64_S64x64
/-- Layer 1's first bias: slice 0 of the stacked biases. -/
def convB1_0 (x10 : (⟨S3x64, .f32⟩ : BufTy).Contents (Elt Ideal)) : (⟨S64, .f32⟩ : BufTy).Contents (Elt Ideal) :=
  shapeCast S64 (extractStridedSlice S1x64 ![0, 0] x10 slices_S3x64_S1x64_0_0) shapeCasts_S1x64_S64
/-- Layer 1's second weight matrix. -/
def convW2_0 (x11 : (⟨S3x64x64, .f32⟩ : BufTy).Contents (Elt Ideal)) : (⟨S64x64, .f32⟩ : BufTy).Contents (Elt Ideal) :=
  shapeCast S64x64 (extractStridedSlice S1x64x64 ![0, 0, 0] x11 slices_S3x64x64_S1x64x64_0_0_0) shapeCasts_S1x64x64_S64x64
/-- Layer 1's second bias. -/
def convB2_0 (x12 : (⟨S3x64, .f32⟩ : BufTy).Contents (Elt Ideal)) : (⟨S64, .f32⟩ : BufTy).Contents (Elt Ideal) :=
  shapeCast S64 (extractStridedSlice S1x64 ![0, 0] x12 slices_S3x64_S1x64_0_0) shapeCasts_S1x64_S64

/-- Layer 2's first weight matrix: slice 1 of the stacked weights. -/
def convW1_1 (x9 : (⟨S3x64x64, .f32⟩ : BufTy).Contents (Elt Ideal)) : (⟨S64x64, .f32⟩ : BufTy).Contents (Elt Ideal) :=
  shapeCast S64x64 (extractStridedSlice S1x64x64 ![1, 0, 0] x9 slices_S3x64x64_S1x64x64_1_0_0) shapeCasts_S1x64x64_S64x64
/-- Layer 2's first bias: slice 1 of the stacked biases. -/
def convB1_1 (x10 : (⟨S3x64, .f32⟩ : BufTy).Contents (Elt Ideal)) : (⟨S64, .f32⟩ : BufTy).Contents (Elt Ideal) :=
  shapeCast S64 (extractStridedSlice S1x64 ![1, 0] x10 slices_S3x64_S1x64_1_0) shapeCasts_S1x64_S64
/-- Layer 2's second weight matrix. -/
def convW2_1 (x11 : (⟨S3x64x64, .f32⟩ : BufTy).Contents (Elt Ideal)) : (⟨S64x64, .f32⟩ : BufTy).Contents (Elt Ideal) :=
  shapeCast S64x64 (extractStridedSlice S1x64x64 ![1, 0, 0] x11 slices_S3x64x64_S1x64x64_1_0_0) shapeCasts_S1x64x64_S64x64
/-- Layer 2's second bias. -/
def convB2_1 (x12 : (⟨S3x64, .f32⟩ : BufTy).Contents (Elt Ideal)) : (⟨S64, .f32⟩ : BufTy).Contents (Elt Ideal) :=
  shapeCast S64 (extractStridedSlice S1x64 ![1, 0] x12 slices_S3x64_S1x64_1_0) shapeCasts_S1x64_S64

/-- Layer 3's first weight matrix: slice 2 of the stacked weights. -/
def convW1_2 (x9 : (⟨S3x64x64, .f32⟩ : BufTy).Contents (Elt Ideal)) : (⟨S64x64, .f32⟩ : BufTy).Contents (Elt Ideal) :=
  shapeCast S64x64 (extractStridedSlice S1x64x64 ![2, 0, 0] x9 slices_S3x64x64_S1x64x64_2_0_0) shapeCasts_S1x64x64_S64x64
/-- Layer 3's first bias: slice 2 of the stacked biases. -/
def convB1_2 (x10 : (⟨S3x64, .f32⟩ : BufTy).Contents (Elt Ideal)) : (⟨S64, .f32⟩ : BufTy).Contents (Elt Ideal) :=
  shapeCast S64 (extractStridedSlice S1x64 ![2, 0] x10 slices_S3x64_S1x64_2_0) shapeCasts_S1x64_S64
/-- Layer 3's second weight matrix. -/
def convW2_2 (x11 : (⟨S3x64x64, .f32⟩ : BufTy).Contents (Elt Ideal)) : (⟨S64x64, .f32⟩ : BufTy).Contents (Elt Ideal) :=
  shapeCast S64x64 (extractStridedSlice S1x64x64 ![2, 0, 0] x11 slices_S3x64x64_S1x64x64_2_0_0) shapeCasts_S1x64x64_S64x64
/-- Layer 3's second bias. -/
def convB2_2 (x12 : (⟨S3x64, .f32⟩ : BufTy).Contents (Elt Ideal)) : (⟨S64, .f32⟩ : BufTy).Contents (Elt Ideal) :=
  shapeCast S64 (extractStridedSlice S1x64 ![2, 0] x12 slices_S3x64_S1x64_2_0) shapeCasts_S1x64_S64

/-! ## An index in range is not wrapped -/

/-- A signed "less than" of words is the order of their values. -/
theorem cmpi_slt_eq_one_iff (x c : BitVec 32) : IntOp.cmpi .slt x c = 1#1 ↔ x.toInt < c.toInt := by
  unfold IntOp.cmpi
  simp only [StableHlo.Predicate.ofBool_eq_one_iff, BitVec.slt, decide_eq_true_eq]

/-- Adding `n` to the negative entries of an index array leaves an array without negative entries as it is. -/
theorem wrap_id {s : Shape} (idx z n : IVec s 32) (hz : ∀ i, z i = 0#32) (h : ∀ i, 0 ≤ (idx i).toInt) :
    select (cmpi .slt idx z) (addi idx n) idx = idx := by
  funext i
  rw [select_apply]
  have hc : cmpi .slt idx z i = 0#1 := by
    refine eq_zero_of_ne_one fun h1 => ?_
    have h2 : (idx i).toInt < (z i).toInt := (cmpi_slt_eq_one_iff (idx i) (z i)).mp h1
    rw [hz i] at h2
    have h3 := h i
    have h0 : (0#32 : BitVec 32).toInt = 0 := by decide
    omega
  rw [hc, select_zero]

/-! ## The initial node rows -/

/-- The node types' wrapped indices are the node types. -/
theorem type_wrap (x0 : (⟨S100000, .i32⟩ : BufTy).Contents (Elt Ideal)) (hz : ∀ i, 0 ≤ (x0 i).toInt) : val_main_v8 (F := Ideal) x0 = x0 := by
  unfold val_main_v8 val_main_v5 val_main_v7
  exact wrap_id x0 _ _ (fun _ => rfl) hz

/-- The perceptron's input is the node features. -/
theorem nodeIn_eq (x0 : (⟨S100000, .i32⟩ : BufTy).Contents (Elt Ideal)) (x3 : (⟨S100000, .f32⟩ : BufTy).Contents (Elt Ideal)) (x4 : (⟨S100x64, .f32⟩ : BufTy).Contents (Elt Ideal)) (hz : ∀ i, 0 ≤ (x0 i).toInt) :
    val_main_v12 (F := Ideal) x0 x3 x4 = nodeIn x0 x3 x4 := by
  unfold val_main_v12 val_main_v10 val_main_v9 val_main_v11 nodeIn
  rw [type_wrap x0 hz]

/-- The initial node rows. -/
theorem rows0_eq (x0 : (⟨S100000, .i32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (hz : ∀ i, 0 ≤ (x0 i).toInt) :
    val_main_v21 (F := Ideal) x0 x3 x4 x5 x6 x7 x8 = Cert.Spec.mlp (nodeIn x0 x3 x4) x5 x6 x7 x8 := by
  rw [h0_eq, nodeIn_eq x0 x3 x4 hz]

end Cert.ReferenceIdeal.RefValue

end
-- ==== Proof.RefLayer1.lean ====
/-
  Layer 1 of the reference in closed form.

  The layer's wrapped source indices are the source indices, so its gathered rows are the shared gather of its input
  rows; its aggregated messages are the shared scatter-add of its messages; and its update of the rows is the
  specification's layer of its input rows, which are in closed form already.
-/
import proofs.«405070_j12309376270692_1_alg».proof.Proof.RefBase

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem Idealize.ShloMosaic.StableHlo

/-- Layer 1's wrapped source indices are the source indices. -/
theorem src_wrap1 (x1 : (⟨S2x1600000, .i32⟩ : BufTy).Contents (Elt Ideal)) (hs : ∀ i, 0 ≤ (srcIdx x1 i).toInt) :
    val_main_v26 (F := Ideal) x1 = srcIdx x1 := by
  unfold val_main_v26 val_main_v23 val_main_v25
  exact wrap_id (srcIdx x1) _ _ (fun _ => rfl) hs

/-- Layer 1's gathered rows: the source rows of the layer's input rows. -/
theorem gather1_eq (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) (hs : ∀ i, 0 ≤ (srcIdx x1 i).toInt) :
    val_main_v28 (F := Ideal) x0 x1 x3 x4 x5 x6 x7 x8 = gatherSrc x1 (val_main_v21 (F := Ideal) x0 x3 x4 x5 x6 x7 x8) := by
  unfold val_main_v28 val_main_v27 gatherSrc
  rw [src_wrap1 x1 hs]

/-- Layer 1's aggregated messages: the messages added into their destination rows. -/
theorem scatter1_eq (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) :
    val_main_v33 (F := Ideal) x0 x1 x2 x3 x4 x5 x6 x7 x8 = scatterDst x1 (val_main_v30 (F := Ideal) x0 x1 x2 x3 x4 x5 x6 x7 x8) := rfl

/-- The node rows after layer 1. -/
theorem rows1_eq (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal))
    (hz : ∀ i, 0 ≤ (x0 i).toInt) (hs : ∀ i, 0 ≤ (srcIdx x1 i).toInt) :
    val_main_v53 (F := Ideal) x0 x1 x2 x3 x4 x5 x6 x7 x8 x9 x10 x11 x12
      = Cert.Spec.layer true (gatherSrc x1) (scatterDst x1) (Cert.Spec.mlp (nodeIn x0 x3 x4) x5 x6 x7 x8) x2 (convW1_0 x9) (convB1_0 x10) (convW2_0 x11) (convB2_0 x12) := by
  rw [h1_eq, scatter1_eq x0 x1 x2 x3 x4 x5 x6 x7 x8 x9 x10 x11 x12, msg1_eq, gather1_eq x0 x1 x2 x3 x4 x5 x6 x7 x8 x9 x10 x11 x12 hs, rows0_eq x0 x3 x4 x5 x6 x7 x8 hz]
  rfl

end Cert.ReferenceIdeal.RefValue

end
-- ==== Proof.RefLayer2.lean ====
/-
  Layer 2 of the reference in closed form.

  The layer's wrapped source indices are the source indices, so its gathered rows are the shared gather of its input
  rows; its aggregated messages are the shared scatter-add of its messages; and its update of the rows is the
  specification's layer of its input rows, which are in closed form already.
-/
import proofs.«405070_j12309376270692_1_alg».proof.Proof.RefBase
import proofs.«405070_j12309376270692_1_alg».proof.Proof.RefLayer1

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem Idealize.ShloMosaic.StableHlo

/-- Layer 2's wrapped source indices are the source indices. -/
theorem src_wrap2 (x1 : (⟨S2x1600000, .i32⟩ : BufTy).Contents (Elt Ideal)) (hs : ∀ i, 0 ≤ (srcIdx x1 i).toInt) :
    val_main_v58 (F := Ideal) x1 = srcIdx x1 := by
  unfold val_main_v58 val_main_v55 val_main_v57
  exact wrap_id (srcIdx x1) _ _ (fun _ => rfl) hs

/-- Layer 2's gathered rows: the source rows of the layer's input rows. -/
theorem gather2_eq (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) (hs : ∀ i, 0 ≤ (srcIdx x1 i).toInt) :
    val_main_v60 (F := Ideal) x0 x1 x2 x3 x4 x5 x6 x7 x8 x9 x10 x11 x12 = gatherSrc x1 (val_main_v53 (F := Ideal) x0 x1 x2 x3 x4 x5 x6 x7 x8 x9 x10 x11 x12) := by
  unfold val_main_v60 val_main_v59 gatherSrc
  rw [src_wrap2 x1 hs]

/-- Layer 2's aggregated messages: the messages added into their destination rows. -/
theorem scatter2_eq (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) :
    val_main_v65 (F := Ideal) x0 x1 x2 x3 x4 x5 x6 x7 x8 x9 x10 x11 x12 = scatterDst x1 (val_main_v62 (F := Ideal) x0 x1 x2 x3 x4 x5 x6 x7 x8 x9 x10 x11 x12) := rfl

/-- The node rows after layer 2. -/
theorem rows2_eq (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal))
    (hz : ∀ i, 0 ≤ (x0 i).toInt) (hs : ∀ i, 0 ≤ (srcIdx x1 i).toInt) :
    val_main_v85 (F := Ideal) x0 x1 x2 x3 x4 x5 x6 x7 x8 x9 x10 x11 x12
      = Cert.Spec.layer true (gatherSrc x1) (scatterDst x1) (Cert.Spec.layer true (gatherSrc x1) (scatterDst x1) (Cert.Spec.mlp (nodeIn x0 x3 x4) x5 x6 x7 x8) x2 (convW1_0 x9) (convB1_0 x10) (convW2_0 x11) (convB2_0 x12)) x2 (convW1_1 x9) (convB1_1 x10) (convW2_1 x11) (convB2_1 x12) := by
  rw [h2_eq, scatter2_eq x0 x1 x2 x3 x4 x5 x6 x7 x8 x9 x10 x11 x12, msg2_eq, gather2_eq x0 x1 x2 x3 x4 x5 x6 x7 x8 x9 x10 x11 x12 hs, rows1_eq x0 x1 x2 x3 x4 x5 x6 x7 x8 x9 x10 x11 x12 hz hs]
  rfl

end Cert.ReferenceIdeal.RefValue

end
-- ==== Proof.RefLayer3.lean ====
/-
  Layer 3 of the reference in closed form.

  The layer's wrapped source indices are the source indices, so its gathered rows are the shared gather of its input
  rows; its aggregated messages are the shared scatter-add of its messages; and its update of the rows is the
  specification's layer of its input rows, which are in closed form already.
-/
import proofs.«405070_j12309376270692_1_alg».proof.Proof.RefBase
import proofs.«405070_j12309376270692_1_alg».proof.Proof.RefLayer2

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem Idealize.ShloMosaic.StableHlo

/-- Layer 3's wrapped source indices are the source indices. -/
theorem src_wrap3 (x1 : (⟨S2x1600000, .i32⟩ : BufTy).Contents (Elt Ideal)) (hs : ∀ i, 0 ≤ (srcIdx x1 i).toInt) :
    val_main_v90 (F := Ideal) x1 = srcIdx x1 := by
  unfold val_main_v90 val_main_v87 val_main_v89
  exact wrap_id (srcIdx x1) _ _ (fun _ => rfl) hs

/-- Layer 3's gathered rows: the source rows of the layer's input rows. -/
theorem gather3_eq (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) (hs : ∀ i, 0 ≤ (srcIdx x1 i).toInt) :
    val_main_v92 (F := Ideal) x0 x1 x2 x3 x4 x5 x6 x7 x8 x9 x10 x11 x12 = gatherSrc x1 (val_main_v85 (F := Ideal) x0 x1 x2 x3 x4 x5 x6 x7 x8 x9 x10 x11 x12) := by
  unfold val_main_v92 val_main_v91 gatherSrc
  rw [src_wrap3 x1 hs]

/-- Layer 3's aggregated messages: the messages added into their destination rows. -/
theorem scatter3_eq (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) :
    val_main_v97 (F := Ideal) x0 x1 x2 x3 x4 x5 x6 x7 x8 x9 x10 x11 x12 = scatterDst x1 (val_main_v94 (F := Ideal) x0 x1 x2 x3 x4 x5 x6 x7 x8 x9 x10 x11 x12) := rfl

/-- The node rows after layer 3. -/
theorem rows3_eq (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal))
    (hz : ∀ i, 0 ≤ (x0 i).toInt) (hs : ∀ i, 0 ≤ (srcIdx x1 i).toInt) :
    val_main_v116 (F := Ideal) x0 x1 x2 x3 x4 x5 x6 x7 x8 x9 x10 x11 x12
      = Cert.Spec.layer false (gatherSrc x1) (scatterDst x1) (Cert.Spec.layer true (gatherSrc x1) (scatterDst x1) (Cert.Spec.layer true (gatherSrc x1) (scatterDst x1) (Cert.Spec.mlp (nodeIn x0 x3 x4) x5 x6 x7 x8) x2 (convW1_0 x9) (convB1_0 x10) (convW2_0 x11) (convB2_0 x12)) x2 (convW1_1 x9) (convB1_1 x10) (convW2_1 x11) (convB2_1 x12)) x2 (convW1_2 x9) (convB1_2 x10) (convW2_2 x11) (convB2_2 x12) := by
  rw [h3_eq, scatter3_eq x0 x1 x2 x3 x4 x5 x6 x7 x8 x9 x10 x11 x12, msg3_eq, gather3_eq x0 x1 x2 x3 x4 x5 x6 x7 x8 x9 x10 x11 x12 hs, rows2_eq x0 x1 x2 x3 x4 x5 x6 x7 x8 x9 x10 x11 x12 hz hs]
  rfl

end Cert.ReferenceIdeal.RefValue

end
-- ==== Proof.RefCompose.lean ====
/-
  The reference's result in closed form: three message-passing layers over the initial node rows.
-/
import proofs.«405070_j12309376270692_1_alg».proof.Proof.RefLayer1
import proofs.«405070_j12309376270692_1_alg».proof.Proof.RefLayer2
import proofs.«405070_j12309376270692_1_alg».proof.Proof.RefLayer3

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem Idealize.ShloMosaic.StableHlo

/-- The reference's result: three layers over the initial node rows. -/
theorem ref_value (x0 : (⟨S100000, .i32⟩ : BufTy).Contents (Elt Ideal)) (x1 : (⟨S2x1600000, .i32⟩ : BufTy).Contents (Elt Ideal)) (x2 : (⟨S1600000x64, .f32⟩ : BufTy).Contents (Elt Ideal)) (x3 : (⟨S100000, .f32⟩ : BufTy).Contents (Elt Ideal)) (x4 : (⟨S100x64, .f32⟩ : BufTy).Contents (Elt Ideal)) (x5 : (⟨S65x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal))
    (hz : ∀ i, 0 ≤ (x0 i).toInt ∧ (x0 i).toInt < 100)
    (hs : ∀ i, 0 ≤ (srcIdx x1 i).toInt ∧ (srcIdx x1 i).toInt < 100000) :
    val_main_v116 (F := Ideal) x0 x1 x2 x3 x4 x5 x6 x7 x8 x9 x10 x11 x12
      = Cert.Spec.layer false (gatherSrc x1) (scatterDst x1) (Cert.Spec.layer true (gatherSrc x1) (scatterDst x1) (Cert.Spec.layer true (gatherSrc x1) (scatterDst x1) (Cert.Spec.mlp (nodeIn x0 x3 x4) x5 x6 x7 x8) x2 (convW1_0 x9) (convB1_0 x10) (convW2_0 x11) (convB2_0 x12)) x2 (convW1_1 x9) (convB1_1 x10) (convW2_1 x11) (convB2_1 x12)) x2 (convW1_2 x9) (convB1_2 x10) (convW2_2 x11) (convB2_2 x12) :=
  rows3_eq x0 x1 x2 x3 x4 x5 x6 x7 x8 x9 x10 x11 x12 (fun i => (hz i).1) (fun i => (hs i).1)

end Cert.ReferenceIdeal.RefValue

end
-- ==== Proof.lean ====
/-
  The certificate of a three-layer message-passing network over a graph of 100000 nodes and 1600000 edges.

  Both programs compute the same thing. A node's embedding row (looked up by its type) with its time appended
  goes through a two-layer perceptron; then three times: every edge takes its source node's row, adds the edge's
  attributes and keeps the positive part; the results are added into the edges' destination nodes; each node's
  sum plus its own row goes through a perceptron (with the positive part once more, except in the last round) and
  the node's row is added again.

  The kernel does the perceptrons and the edge messages in seven regions that cut the rows into tiles of 20000
  and leaves the lookups and the sums over edges to the host; the reference is host operations throughout. Every
  stage acts row by row, so tiled and whole computations agree entry by entry (the sums of a matrix product are
  re-indexed, nothing else: no law of arithmetic beyond that is used, and the finiteness of the inputs is not
  needed). The one difference is the lookup: the kernel's masks out-of-range indices and fills their rows with a
  fixed pattern, the reference's does not; under the precondition that the node types and the edges' source nodes
  are in range the mask is all ones and the two lookups are the same gather.

  Frames: the two kernels' are the generated frames; the reference's is its generated run with the result
  dropped. The kernel is its own idealization (no rewrite was applied).
-/
import proofs.«405070_j12309376270692_1_alg».proof.Defs
import proofs.«405070_j12309376270692_1_alg».proof.Proof.Gen.Kernel
import proofs.«405070_j12309376270692_1_alg».proof.Proof.Gen.Kernel.Frame
import proofs.«405070_j12309376270692_1_alg».proof.Proof.Gen.KernelIdeal
import proofs.«405070_j12309376270692_1_alg».proof.Proof.Gen.KernelIdeal.Frame
import proofs.«405070_j12309376270692_1_alg».proof.Proof.Gen.ReferenceIdeal
import proofs.«405070_j12309376270692_1_alg».proof.Proof.Gen.ReferenceIdeal.Run
import proofs.«405070_j12309376270692_1_alg».proof.Proof.Gen.ReferenceIdeal.Read
import proofs.«405070_j12309376270692_1_alg».proof.Proof.Gen.Pre_finite_inputs
import proofs.«405070_j12309376270692_1_alg».proof.Proof.KernelRun
import proofs.«405070_j12309376270692_1_alg».proof.Proof.KernelValue
import proofs.«405070_j12309376270692_1_alg».proof.Proof.RefCompose
import proofs.«405070_j12309376270692_1_alg».proof.Proof.TakeGather
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end, the kernel's result buffer and the reference's at
    the same array: three layers over the perceptron of the embedded nodes. -/
theorem algebraic : Cert.algebraic_KernelIdeal_ReferenceIdeal := by
  intro m ρ m' ρ' hpre hagree
  -- the index ranges, out of the precondition
  have hr := fun c : Dev Cert.KernelIdeal.nD => Cert.KernelIdeal.Take.pre_ranges _ _ _ _ _ _ _ _ _ _ _ _ _ (hpre c)
  refine ⟨fun c => Cert.KernelIdeal.KValue.h3 m c, ?_, ?_⟩
  · exact (θ_run Cert.KernelIdeal.defs _ _).mono
      (fun r h c => ⟨(h c).1.trans (Cert.KernelIdeal.KValue.W16_result m ρ c (hr c).1 (hr c).2), (h c).2⟩)
      (Cert.KernelIdeal.Gen.run_main m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v116_eq, e0, e1, e2, e3, e4, e5, e6, e7, e8, e9, e10, e11, e12,
      Cert.ReferenceIdeal.RefValue.ref_value _ _ _ _ _ _ _ _ _ _ _ _ _ (hr c).1 (hr c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
